-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_v63 : IVec S_ 1) (main_v67 : IVec S800000 1) (main_v68 : IVec S1x800000 32) : IVec S_ 1 :=
  let main_v69 : IVec S800000 32 := shapeCast S800000 main_v68 shapeCasts_S1x800000_S800000
  let main_c_25 : IVec S_ 32 := constantI S_ 32 50000#32
  let main_v70 : IVec S800000 32 := broadcastInDim S800000 ![] bcast_S_S800000 main_c_25
  let main_v71 : IVec S800000 1 := cmpi .slt main_v69 main_v70
  let main_v72 : IVec S800000 1 := andi main_v67 main_v71
  let main_c_26 : IVec S_ 1 := constantI S_ 1 1#1
  let main_v73 : IVec S_ 1 := (fun x v => Host.reduce IntOp.andi x v reducesTo_S800000_S_d0 h_S_) main_v72 main_c_26
  let main_v74 : IVec S_ 1 := andi main_v63 main_v73
  main_v74

def fn_part3 {F : FTy → Type} [FloatOps F] (main_arg1 : IVec S2x800000 32) (main_arg12 : FVec F S128x2 .f32) (main_arg13 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x2 .f32 := Host.absf main_arg12
  let main_cst_20 : FVec F S_ .f32 := constant S_ .f32 0x7F800000#32
  let main_v55 : FVec F S128x2 .f32 := broadcastInDim S128x2 ![] bcast_S_S128x2 main_cst_20
  let main_v56 : IVec S128x2 1 := cmpf .olt main_v54 main_v55
  let main_c_21 : IVec S_ 1 := constantI S_ 1 1#1
  let main_v57 : IVec S_ 1 := (fun x v => Host.reduce IntOp.andi x v reducesTo_S128x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_v64 : IVec S1x800000 32 := (extractStridedSlice S1x800000 ![0, 0] · slices_S2x800000_S1x800000_0_0) main_arg1
  let main_v65 : IVec S800000 32 := shapeCast S800000 main_v64 shapeCasts_S1x800000_S800000
  let main_c_24 : IVec S_ 32 := constantI S_ 32 0#32
  let main_v66 : IVec S800000 32 := broadcastInDim S800000 ![] bcast_S_S800000 main_c_24
  let main_v67 : IVec S800000 1 := cmpi .sge main_v65 main_v66
  let main_v68 : IVec S1x800000 32 := (extractStridedSlice S1x800000 ![0, 0] · slices_S2x800000_S1x800000_0_0) main_arg1
  fn_part4 (F := F) main_v63 main_v67 main_v68

def fn_part2 {F : FTy → Type} [FloatOps F] (main_arg1 : IVec S2x800000 32) (main_arg8 : FVec F S32x64 .f32) (main_arg9 : FVec F S64 .f32) (main_arg10 : FVec F S64x128 .f32) (main_arg11 : FVec F S128 .f32) (main_arg12 : FVec F S128x2 .f32) (main_arg13 : FVec F S2 .f32) (main_v33 : IVec S_ 1) : IVec S_ 1 :=
  let main_v34 : FVec F S32x64 .f32 := Host.absf main_arg8
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_v48 main_v49 main_v50

def fn_part1 {F : FTy → Type} [FloatOps F] (main_arg1 : IVec S2x800000 32) (main_arg5 : FVec F S16x32 .f32) (main_arg6 : FVec F S16x32 .f32) (main_arg7 : FVec F S32 .f32) (main_arg8 : FVec F S32x64 .f32) (main_arg9 : FVec F S64 .f32) (main_arg10 : FVec F S64x128 .f32) (main_arg11 : FVec F S128 .f32) (main_arg12 : FVec F S128x2 .f32) (main_arg13 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x32 .f32 := Host.absf main_arg5
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S16x32 .f32 := Host.absf main_arg6
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S50000x64 .f32) (main_arg1 : IVec S2x800000 32) (main_arg2 : FVec F S64x16 .f32) (main_arg3 : FVec F S64x16 .f32) (main_arg4 : FVec F S16 .f32) (main_arg5 : FVec F S16x32 .f32) (main_arg6 : FVec F S16x32 .f32) (main_arg7 : FVec F S32 .f32) (main_arg8 : FVec F S32x64 .f32) (main_arg9 : FVec F S64 .f32) (main_arg10 : FVec F S64x128 .f32) (main_arg11 : FVec F S128 .f32) (main_arg12 : FVec F S128x2 .f32) (main_arg13 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x16 .f32 := Host.absf main_arg2
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64x16 .f32 := Host.absf main_arg3
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg5 main_arg6 main_arg7 main_arg8 main_arg9 main_arg10 main_arg11 main_arg12 main_arg13 main_v13 main_v16
-- ==== Kernel.lean ====
abbrev S50000x64 : Shape := ⟨2, ![50000, 64]⟩
abbrev S2x800000 : Shape := ⟨2, ![2, 800000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x16 : Shape := ⟨2, ![50000, 16]⟩
abbrev S5000x64 : Shape := ⟨2, ![5000, 64]⟩
abbrev S5000x16 : Shape := ⟨2, ![5000, 16]⟩
abbrev S1 : Shape := ⟨1, ![1]⟩
abbrev S1x1 : Shape := ⟨2, ![1, 1]⟩
abbrev S800000x16 : Shape := ⟨2, ![800000, 16]⟩
abbrev S1x16 : Shape := ⟨2, ![1, 16]⟩
abbrev S1x32 : Shape := ⟨2, ![1, 32]⟩
abbrev S1x64 : Shape := ⟨2, ![1, 64]⟩
abbrev S1x128 : Shape := ⟨2, ![1, 128]⟩
abbrev S1x2 : Shape := ⟨2, ![1, 2]⟩
abbrev S50000x2 : Shape := ⟨2, ![50000, 2]⟩
abbrev S5000x2 : Shape := ⟨2, ![5000, 2]⟩
abbrev S5000x32 : Shape := ⟨2, ![5000, 32]⟩
abbrev S5000x128 : Shape := ⟨2, ![5000, 128]⟩

abbrev nBuf : Space → Nat
  | .hbm => 98
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x16, .f32⟩
  | .hbm, ⟨3, _⟩ => ⟨S64x16, .f32⟩
  | .hbm, ⟨4, _⟩ => ⟨S16, .f32⟩
  | .hbm, ⟨5, _⟩ => ⟨S16x32, .f32⟩
  | .hbm, ⟨6, _⟩ => ⟨S16x32, .f32⟩
  | .hbm, ⟨7, _⟩ => ⟨S32, .f32⟩
  | .hbm, ⟨8, _⟩ => ⟨S32x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128x2, .f32⟩
  | .hbm, ⟨13, _⟩ => ⟨S2, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x16, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S1, .i32⟩
  | .hbm, ⟨42, _⟩ => ⟨S_, .i32⟩
  | .hbm, ⟨43, _⟩ => ⟨S800000x1, .i32⟩
  | .hbm, ⟨44, _⟩ => ⟨S800000x1, .i1⟩
  | .hbm, ⟨45, _⟩ => ⟨S1x1, .i32⟩
  | .hbm, ⟨46, _⟩ => ⟨S800000x1, .i32⟩
  | .hbm, ⟨47, _⟩ => ⟨S800000x1, .i1⟩
  | .hbm, ⟨48, _⟩ => ⟨S800000x1, .i1⟩
  | .hbm, ⟨49, _⟩ => ⟨S_, .i1⟩
  | .hbm, ⟨50, _⟩ => ⟨S800000, .i1⟩
  | .hbm, ⟨51, _⟩ => ⟨S800000x16, .f32⟩
  | .hbm, ⟨52, _⟩ => ⟨S800000x16, .i1⟩
  | .hbm, ⟨53, _⟩ => ⟨S_, .f32⟩
  | .hbm, ⟨54, _⟩ => ⟨S800000x16, .f32⟩
  | .hbm, ⟨55, _⟩ => ⟨S800000x16, .f32⟩
  | .hbm, ⟨56, _⟩ => ⟨S_, .f32⟩
  | .hbm, ⟨57, _⟩ => ⟨S50000x16, .f32⟩
  | .hbm, ⟨58, _⟩ => ⟨S800000x1, .i32⟩
  | .hbm, ⟨59, _⟩ => ⟨S50000x16, .f32⟩
  | .hbm, ⟨60, _⟩ => ⟨S50000x16, .f32⟩
  | .hbm, ⟨61, _⟩ => ⟨S50000x16, .f32⟩
  | .hbm, ⟨62, _⟩ => ⟨S1x16, .f32⟩
  | .hbm, ⟨63, _⟩ => ⟨S50000x16, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S1, .i32⟩
  | .hbm, ⟨73, _⟩ => ⟨S_, .i32⟩
  | .hbm, ⟨74, _⟩ => ⟨S800000x1, .i32⟩
  | .hbm, ⟨75, _⟩ => ⟨S800000x1, .i1⟩
  | .hbm, ⟨76, _⟩ => ⟨S1x1, .i32⟩
  | .hbm, ⟨77, _⟩ => ⟨S800000x1, .i32⟩
  | .hbm, ⟨78, _⟩ => ⟨S800000x1, .i1⟩
  | .hbm, ⟨79, _⟩ => ⟨S800000x1, .i1⟩
  | .hbm, ⟨80, _⟩ => ⟨S_, .i1⟩
  | .hbm, ⟨81, _⟩ => ⟨S800000, .i1⟩
  | .hbm, ⟨82, _⟩ => ⟨S800000x16, .f32⟩
  | .hbm, ⟨83, _⟩ => ⟨S800000x16, .i1⟩
  | .hbm, ⟨84, _⟩ => ⟨S_, .f32⟩
  | .hbm, ⟨85, _⟩ => ⟨S800000x16, .f32⟩
  | .hbm, ⟨86, _⟩ => ⟨S800000x16, .f32⟩
  | .hbm, ⟨87, _⟩ => ⟨S_, .f32⟩
  | .hbm, ⟨88, _⟩ => ⟨S50000x16, .f32⟩
  | .hbm, ⟨89, _⟩ => ⟨S800000x1, .i32⟩
  | .hbm, ⟨90, _⟩ => ⟨S50000x16, .f32⟩
  | .hbm, ⟨91, _⟩ => ⟨S50000x16, .f32⟩
  | .hbm, ⟨92, _⟩ => ⟨S50000x16, .f32⟩
  | .hbm, ⟨93, _⟩ => ⟨S1x32, .f32⟩
  | .hbm, ⟨94, _⟩ => ⟨S1x64, .f32⟩
  | .hbm, ⟨95, _⟩ => ⟨S1x128, .f32⟩
  | .hbm, ⟨96, _⟩ => ⟨S1x2, .f32⟩
  | .hbm, ⟨97, _⟩ => ⟨S50000x2, .f32⟩
  | .local _ .vmem, ⟨0, _⟩ => ⟨S5000x64, .f32⟩
  | .local _ .vmem, ⟨1, _⟩ => ⟨S5000x64, .f32⟩
  | .local _ .vmem, ⟨2, _⟩ => ⟨S64x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x64, .f32⟩
  | .local _ .vmem, ⟨8, _⟩ => ⟨S5000x64, .f32⟩
  | .local _ .vmem, ⟨9, _⟩ => ⟨S64x16, .f32⟩
  | .local _ .vmem, ⟨10, _⟩ => ⟨S1x16, .f32⟩
  | .local _ .vmem, ⟨11, _⟩ => ⟨S5000x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S16x32, .f32⟩
  | .local _ .vmem, ⟨18, _⟩ => ⟨S16x32, .f32⟩
  | .local _ .vmem, ⟨19, _⟩ => ⟨S1x32, .f32⟩
  | .local _ .vmem, ⟨20, _⟩ => ⟨S32x64, .f32⟩
  | .local _ .vmem, ⟨21, _⟩ => ⟨S1x64, .f32⟩
  | .local _ .vmem, ⟨22, _⟩ => ⟨S64x128, .f32⟩
  | .local _ .vmem, ⟨23, _⟩ => ⟨S1x128, .f32⟩
  | .local _ .vmem, ⟨24, _⟩ => ⟨S128x2, .f32⟩
  | .local _ .vmem, ⟨25, _⟩ => ⟨S1x2, .f32⟩
  | .local _ .vmem, ⟨26, _⟩ => ⟨S5000x2, .f32⟩
  | .local _ .vmem, ⟨27, _⟩ => ⟨S5000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v13 : Ref sig .tc := ⟨.hbm, 55, rfl⟩
abbrev main_cst_3 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v21 : Ref sig .tc := ⟨.hbm, 86, rfl⟩
abbrev main_cst_4 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg11_0 : Ref sig .tc := ⟨.vmem, 26, rfl⟩
abbrev cc2_stg11_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem11_0 : DmaSem sig := 26
abbrev cc2_sem11_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x2 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x2 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S5000x2 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x16_0 : S800000.BroadcastsInDim S800000x16 (![0] : Fin 1 → Fin S800000x16.rank)
  bcast_S_S800000x16 : S_.BroadcastsInDim S800000x16 (![] : Fin 0 → Fin S800000x16.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S32_S1x32 : S32.ShapeCasts S1x32
  shapeCasts_S64_S1x64 : S64.ShapeCasts S1x64
  shapeCasts_S128_S1x128 : S128.ShapeCasts S1x128
  shapeCasts_S2_S1x2 : S2.ShapeCasts S1x2
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S800000x1_S800000_n_0_0_1_wf : ScatterDims.WF S50000 S800000x1 S800000 [] [0] [0] 1
  dot_S5000x64_S64x16_S5000x16_1_0_0_1_n_n_wf : DotDims.WF S5000x64 S64x16 S5000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S5000x16_S16x32_S5000x32_1_0_0_1_n_n_wf : DotDims.WF S5000x16 S16x32 S5000x32 [1] [0] [0] [1] [] []
  dot_S5000x32_S32x64_S5000x64_1_0_0_1_n_n_wf : DotDims.WF S5000x32 S32x64 S5000x64 [1] [0] [0] [1] [] []
  dot_S5000x64_S64x128_S5000x128_1_0_0_1_n_n_wf : DotDims.WF S5000x64 S64x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S50000x16.size a
  hwx0_2 : ∀ i : grid0.Coords, EltTy.bits .f32 = 32 ∨ (Rect.block (s := S50000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S50000x16.size a
  hwx1_0 : ∀ i : grid1.Coords, EltTy.bits .f32 = 32 ∨ (Rect.block (s := S50000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S50000x16.size a
  hwx1_4 : ∀ i : grid1.Coords, EltTy.bits .f32 = 32 ∨ (Rect.block (s := S50000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S50000x16.size a
  hwx2_0 : ∀ i : grid2.Coords, EltTy.bits .f32 = 32 ∨ (Rect.block (s := S50000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S50000x16.size a
  hwx2_1 : ∀ i : grid2.Coords, EltTy.bits .f32 = 32 ∨ (Rect.block (s := S50000x16) S5000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x32.size a ≤ S16x32.size a
  hwx2_2 : ∀ i : grid2.Coords, EltTy.bits .f32 = 32 ∨ (Rect.block (s := S16x32) S16x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x32.size a ≤ S16x32.size a
  hwx2_3 : ∀ i : grid2.Coords, EltTy.bits .f32 = 32 ∨ (Rect.block (s := S16x32) S16x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x64.size a ≤ S32x64.size a
  hwx2_5 : ∀ i : grid2.Coords, EltTy.bits .f32 = 32 ∨ (Rect.block (s := S32x64) S32x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x128.size a ≤ S64x128.size a
  hwx2_7 : ∀ i : grid2.Coords, EltTy.bits .f32 = 32 ∨ (Rect.block (s := S64x128) S64x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x2.size a ≤ S128x2.size a
  hwx2_9 : ∀ i : grid2.Coords, EltTy.bits .f32 = 32 ∨ (Rect.block (s := S128x2) S128x2.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x2.size a ≤ S1x2.size a
  hwx2_10 : ∀ i : grid2.Coords, EltTy.bits .f32 = 32 ∨ (Rect.block (s := S1x2) S1x2.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S5000x2.size a ≤ S50000x2.size a
  hwx2_11 : ∀ i : grid2.Coords, EltTy.bits .f32 = 32 ∨ (Rect.block (s := S50000x2) S5000x2.size (cc2_transform_11 i) (hinb2_11 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v26) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S16x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S16x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S32x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S64x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v29) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg12) S128x2.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v30) S1x2.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v31) S5000x2.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x16 : Shape := ⟨2, ![50000, 16]⟩
abbrev S1x16 : Shape := ⟨2, ![1, 16]⟩
abbrev S800000x16 : Shape := ⟨2, ![800000, 16]⟩
abbrev S50000x32 : Shape := ⟨2, ![50000, 32]⟩
abbrev S1x32 : Shape := ⟨2, ![1, 32]⟩
abbrev S1x64 : Shape := ⟨2, ![1, 64]⟩
abbrev S50000x128 : Shape := ⟨2, ![50000, 128]⟩
abbrev S1x128 : Shape := ⟨2, ![1, 128]⟩
abbrev S50000x2 : Shape := ⟨2, ![50000, 2]⟩
abbrev S1x2 : Shape := ⟨2, ![1, 2]⟩

abbrev nBuf : Space → Nat
  | .hbm => 106
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x16, .f32⟩
  | .hbm, ⟨3, _⟩ => ⟨S64x16, .f32⟩
  | .hbm, ⟨4, _⟩ => ⟨S16, .f32⟩
  | .hbm, ⟨5, _⟩ => ⟨S16x32, .f32⟩
  | .hbm, ⟨6, _⟩ => ⟨S16x32, .f32⟩
  | .hbm, ⟨7, _⟩ => ⟨S32, .f32⟩
  | .hbm, ⟨8, _⟩ => ⟨S32x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128x2, .f32⟩
  | .hbm, ⟨13, _⟩ => ⟨S2, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .f32⟩
  | .hbm, ⟨28, _⟩ => ⟨S50000x64, .f32⟩
  | .hbm, ⟨29, _⟩ => ⟨S800000x1, .i32⟩
  | .hbm, ⟨30, _⟩ => ⟨S50000x64, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x64, .f32⟩
  | .hbm, ⟨43, _⟩ => ⟨S50000x64, .f32⟩
  | .hbm, ⟨44, _⟩ => ⟨S50000x16, .f32⟩
  | .hbm, ⟨45, _⟩ => ⟨S50000x16, .f32⟩
  | .hbm, ⟨46, _⟩ => ⟨S50000x16, .f32⟩
  | .hbm, ⟨47, _⟩ => ⟨S1x16, .f32⟩
  | .hbm, ⟨48, _⟩ => ⟨S50000x16, .f32⟩
  | .hbm, ⟨49, _⟩ => ⟨S50000x16, .f32⟩
  | .hbm, ⟨50, _⟩ => ⟨S_, .f32⟩
  | .hbm, ⟨51, _⟩ => ⟨S50000x16, .f32⟩
  | .hbm, ⟨52, _⟩ => ⟨S50000x16, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x16, .f32⟩
  | .hbm, ⟨62, _⟩ => ⟨S_, .f32⟩
  | .hbm, ⟨63, _⟩ => ⟨S50000x16, .f32⟩
  | .hbm, ⟨64, _⟩ => ⟨S800000x1, .i32⟩
  | .hbm, ⟨65, _⟩ => ⟨S50000x16, .f32⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S50000, .f32⟩
  | .hbm, ⟨70, _⟩ => ⟨S800000x1, .i32⟩
  | .hbm, ⟨71, _⟩ => ⟨S50000, .f32⟩
  | .hbm, ⟨72, _⟩ => ⟨S_, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x16, .f32⟩
  | .hbm, ⟨78, _⟩ => ⟨S50000x16, .f32⟩
  | .hbm, ⟨79, _⟩ => ⟨S50000x32, .f32⟩
  | .hbm, ⟨80, _⟩ => ⟨S50000x32, .f32⟩
  | .hbm, ⟨81, _⟩ => ⟨S50000x32, .f32⟩
  | .hbm, ⟨82, _⟩ => ⟨S1x32, .f32⟩
  | .hbm, ⟨83, _⟩ => ⟨S50000x32, .f32⟩
  | .hbm, ⟨84, _⟩ => ⟨S50000x32, .f32⟩
  | .hbm, ⟨85, _⟩ => ⟨S_, .f32⟩
  | .hbm, ⟨86, _⟩ => ⟨S50000x32, .f32⟩
  | .hbm, ⟨87, _⟩ => ⟨S50000x32, .f32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | .hbm, ⟨92, _⟩ => ⟨S_, .f32⟩
  | .hbm, ⟨93, _⟩ => ⟨S50000x64, .f32⟩
  | .hbm, ⟨94, _⟩ => ⟨S50000x64, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000x128, .f32⟩
  | .hbm, ⟨101, _⟩ => ⟨S50000x128, .f32⟩
  | .hbm, ⟨102, _⟩ => ⟨S50000x2, .f32⟩
  | .hbm, ⟨103, _⟩ => ⟨S1x2, .f32⟩
  | .hbm, ⟨104, _⟩ => ⟨S50000x2, .f32⟩
  | .hbm, ⟨105, _⟩ => ⟨S50000x2, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_cst : Ref sig .tc := ⟨.hbm, 50, rfl⟩
abbrev main_call1_v0 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_call2_v0 : Ref sig .tc := ⟨.hbm, 73, rfl⟩
abbrev main_call2_v1 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call3_cst : Ref sig .tc := ⟨.hbm, 85, rfl⟩
abbrev main_call3_v0 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_call4_cst : Ref sig .tc := ⟨.hbm, 92, rfl⟩
abbrev main_call4_v0 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call5_cst : Ref sig .tc := ⟨.hbm, 99, rfl⟩
abbrev main_call5_v0 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x16_S50000x16_1_0_0_1_n_n_wf : DotDims.WF S50000x64 S64x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S50000x16_S16x32_S50000x32_1_0_0_1_n_n_wf : DotDims.WF S50000x16 S16x32 S50000x32 [1] [0] [0] [1] [] []
  dot_S50000x32_S32x64_S50000x64_1_0_0_1_n_n_wf : DotDims.WF S50000x32 S32x64 S50000x64 [1] [0] [0] [1] [] []
  dot_S50000x64_S64x128_S50000x128_1_0_0_1_n_n_wf : DotDims.WF S50000x64 S64x128 S50000x128 [1] [0] [0] [1] [] []
  dot_S50000x128_S128x2_S50000x2_1_0_0_1_n_n_wf : DotDims.WF S50000x128 S128x2 S50000x2 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S50000x16_S16x32_S50000x32_1_0_0_1_n_n : DotDims S50000x16 S16x32 S50000x32 where
  lhsContracting := [1]
  rhsContracting := [0]
  lhsNonContracting := [0]
  rhsNonContracting := [1]
  lhsBatch := []
  rhsBatch := []
  wf := dot_S50000x16_S16x32_S50000x32_1_0_0_1_n_n_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.Spec.lean ====
/-
  The mathematics of the two-layer mean-aggregation graph network and its three-layer perceptron head, over the
  extended reals, with plain finite index types.

  A graph on 50000 nodes has 800000 edges; edge `e` carries the features of its source row `s e` to its destination
  `dst e` (an integer: an edge whose destination is no node contributes nowhere). For a family `u e` of edge values the
  SEGMENT SUM at node `n` is the sum of `u e` over the edges with `dst e = n`. The degree of `n` is the segment sum of
  ones; the mean divides a segment sum by the degree clipped below at one.

  Two arrangements of the first layer are compared. One projects the node features through the neighbour weights
  first and aggregates the 16 projected columns, multiplying by the reciprocal of the clipped degree; the other
  aggregates the 64 raw columns, divides by the clipped degree, and projects afterwards. Over REAL features and weights
  the two agree, because the projection is linear and the clipped degree is a positive real (`layer1_eq`). Everything
  after the first layer is one common function (`head`) of the second aggregation and the first layer's output, and
  the second aggregation differs only in "times the reciprocal" against "divided by", which agree for a real nonzero
  divisor whatever the dividend.
-/
import Idealize.ShloMosaic.PureOps.Ideal
import Idealize.ShloMosaic.Lib.ValueIdx
import Mathlib.Algebra.BigOperators.Ring.Finset
import Mathlib.Algebra.BigOperators.Fin

open scoped BigOperators

noncomputable section

namespace Cert.Sage

open Idealize.ShloMosaic Idealize.ShloMosaic.ValueIdx

/-- The destination of edge `e`: row 1 of the edge table, read signed. -/
def dstOf (E : IVec ⟨2, ![2, 800000]⟩ 32) (e : Fin 800000) : ℤ := (E (ix2 (1 : Fin 2) e)).toInt

/-- The source row of edge `e`: row 0 of the edge table, read signed and clamped into the node range. -/
def srcRow (E : IVec ⟨2, ![2, 800000]⟩ 32) (e : Fin 800000) : Fin 50000 :=
  ⟨min (E (ix2 (0 : Fin 2) e)).toInt.toNat 49999, by omega⟩

/-- Every source index names a node. -/
def InRange (E : IVec ⟨2, ![2, 800000]⟩ 32) : Prop :=
  ∀ e : Fin 800000, 0 ≤ (E (ix2 (0 : Fin 2) e)).toInt ∧ (E (ix2 (0 : Fin 2) e)).toInt < 50000

/-- The inner product of two finite families. -/
def dot {K : ℕ} (a b : Fin K → EReal) : EReal := ∑ k, a k * b k

/-- The segment sum at node `n`: the sum of the edge values whose destination is `n`. -/
def segSum (dst : Fin 800000 → ℤ) (u : Fin 800000 → EReal) (n : Fin 50000) : EReal :=
  ∑ e, if dst e = (n.val : ℤ) then u e else 0

/-- The degree of node `n`, clipped below at one. -/
def clipDeg (dst : Fin 800000 → ℤ) (n : Fin 50000) : EReal := max 1 (segSum dst (fun _ => 1) n)

/-- The rectifier. -/
def relu (x : EReal) : EReal := max x 0

/-- One entry of the first layer from its three summands: the aggregated entry, the root path's inner product and
    the bias, added in this order and rectified. -/
def combine (a d b : EReal) : EReal := relu (a + d + b)

/-- The first layer, projecting before aggregating: the segment sum of the projected source rows times the reciprocal
    of the clipped degree, plus the root path and the bias, rectified. -/
def layer1K (dst : Fin 800000 → ℤ) (s : Fin 800000 → Fin 50000) (x : Fin 50000 → Fin 64 → EReal)
    (wn wr : Fin 64 → Fin 16 → EReal) (b : Fin 16 → EReal) (n : Fin 50000) (j : Fin 16) : EReal :=
  relu (segSum dst (fun e => dot (x (s e)) (fun k => wn k j)) n * Ideal.div 1 (clipDeg dst n)
    + dot (x n) (fun k => wr k j) + b j)

/-- The first layer, aggregating before projecting: the mean of the source rows, projected, plus the root path and
    the bias, rectified. -/
def layer1R (dst : Fin 800000 → ℤ) (s : Fin 800000 → Fin 50000) (x : Fin 50000 → Fin 64 → EReal)
    (wn wr : Fin 64 → Fin 16 → EReal) (b : Fin 16 → EReal) (n : Fin 50000) (j : Fin 16) : EReal :=
  relu (dot (fun k => Ideal.div (segSum dst (fun e => x (s e) k) n) (clipDeg dst n)) (fun k => wn k j)
    + dot (x n) (fun k => wr k j) + b j)

/-- The second aggregation as a product with the reciprocal of the clipped degree. -/
def agg2K (dst : Fin 800000 → ℤ) (s : Fin 800000 → Fin 50000) (h : Fin 50000 → Fin 16 → EReal)
    (n : Fin 50000) (k : Fin 16) : EReal :=
  segSum dst (fun e => h (s e) k) n * Ideal.div 1 (clipDeg dst n)

/-- The second aggregation as a quotient by the clipped degree. -/
def agg2R (dst : Fin 800000 → ℤ) (s : Fin 800000 → Fin 50000) (h : Fin 50000 → Fin 16 → EReal)
    (n : Fin 50000) (k : Fin 16) : EReal :=
  Ideal.div (segSum dst (fun e => h (s e) k) n) (clipDeg dst n)

/-- Everything after the second aggregation, for one node: the second layer's combination of the aggregated row
    `agg` and the node's own row `h`, then the three dense layers of the head, the first two rectified. -/
def head (agg h : Fin 16 → EReal) (w2n w2r : Fin 16 → Fin 32 → EReal) (b2 : Fin 32 → EReal)
    (fw1 : Fin 32 → Fin 64 → EReal) (fb1 : Fin 64 → EReal) (fw2 : Fin 64 → Fin 128 → EReal) (fb2 : Fin 128 → EReal)
    (fw3 : Fin 128 → Fin 2 → EReal) (fb3 : Fin 2 → EReal) (q : Fin 2) : EReal :=
  dot (fun k2 => relu (dot (fun k1 => relu (dot (fun k0 =>
        relu (dot agg (fun k => w2n k k0) + dot h (fun k => w2r k k0) + b2 k0))
      (fun k => fw1 k k1) + fb1 k1)) (fun k => fw2 k k2) + fb2 k2)) (fun k => fw3 k q) + fb3 q

/-! ## The clipped degree is a real number, at least one -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A segment sum of real edge values is the real segment sum. -/
theorem segSum_coe (dst : Fin 800000 → ℤ) (u : Fin 800000 → ℝ) (n : Fin 50000) :
    segSum dst (fun e => (u e : EReal)) n = ((∑ e, if dst e = (n.val : ℤ) then u e else 0 : ℝ) : EReal) := by
  unfold segSum
  rw [coe_sum]
  refine Finset.sum_congr rfl fun e _ => ?_
  split <;> simp

/-- The real clipped degree. -/
def clipDegR (dst : Fin 800000 → ℤ) (n : Fin 50000) : ℝ := max 1 (∑ e, if dst e = (n.val : ℤ) then (1 : ℝ) else 0)

theorem clipDeg_coe (dst : Fin 800000 → ℤ) (n : Fin 50000) : clipDeg dst n = ((clipDegR dst n : ℝ) : EReal) := by
  unfold clipDeg clipDegR
  have h := segSum_coe dst (fun _ => (1 : ℝ)) n
  simp only [EReal.coe_one] at h
  rw [h, ← EReal.coe_one]
  exact (EReal.coe_strictMono.monotone.map_max).symm

theorem clipDegR_ne_zero (dst : Fin 800000 → ℤ) (n : Fin 50000) : clipDegR dst n ≠ 0 := by
  have : (1 : ℝ) ≤ clipDegR dst n := le_max_left _ _
  intro h; rw [h] at this; norm_num at this

/-! ## The second aggregation: times the reciprocal is divided by -/

theorem agg2K_eq_agg2R (dst : Fin 800000 → ℤ) (s : Fin 800000 → Fin 50000) (h : Fin 50000 → Fin 16 → EReal) :
    agg2K dst s h = agg2R dst s h := by
  funext n k
  unfold agg2K agg2R
  rw [clipDeg_coe, Ideal.div_coe (clipDegR_ne_zero dst n), Ideal.div_coe (clipDegR_ne_zero dst n), one_mul]

/-! ## The first layer: projecting commutes with aggregating, over the reals -/

/-- The real identity behind it, over any finite index types: a masked sum over edges of inner products, scaled, is
    the inner product of the scaled masked sums. -/
theorem real_comm {ι κ : Type*} [Fintype ι] [Fintype κ] (p : ι → Prop) [DecidablePred p] (xs : ι → κ → ℝ) (w : κ → ℝ)
    (c : ℝ) :
    (∑ e, if p e then (∑ k, xs e k * w k) else 0) * c = ∑ k, ((∑ e, if p e then xs e k else 0) * c) * w k := by
  have h1 : ∀ k, ((∑ e, if p e then xs e k else 0) * c) * w k = (∑ e, if p e then xs e k * w k else 0) * c := by
    intro k
    rw [mul_right_comm, Finset.sum_mul]
    refine congrArg (· * c) (Finset.sum_congr rfl fun e _ => ?_)
    by_cases h : p e
    · rw [if_pos h, if_pos h]
    · rw [if_neg h, if_neg h, zero_mul]
  rw [Finset.sum_congr rfl fun k _ => h1 k, ← Finset.sum_mul, Finset.sum_comm]
  refine congrArg (· * c) (Finset.sum_congr rfl fun e _ => ?_)
  by_cases h : p e
  · rw [if_pos h]; exact Finset.sum_congr rfl fun k _ => (if_pos h).symm
  · rw [if_neg h]; exact (Finset.sum_eq_zero fun k _ => if_neg h).symm

theorem layer1_eq (dst : Fin 800000 → ℤ) (s : Fin 800000 → Fin 50000) (x : Fin 50000 → Fin 64 → EReal)
    (wn wr : Fin 64 → Fin 16 → EReal) (b : Fin 16 → EReal)
    (hx : ∀ n k, ∃ r : ℝ, x n k = (r : EReal)) (hw : ∀ k j, ∃ r : ℝ, wn k j = (r : EReal)) :
    layer1K dst s x wn wr b = layer1R dst s x wn wr b := by
  choose xr hxr using hx
  choose wr' hwr using hw
  funext n j
  unfold layer1K layer1R
  have key : segSum dst (fun e => dot (x (s e)) (fun k => wn k j)) n * Ideal.div 1 (clipDeg dst n)
      = dot (fun k => Ideal.div (segSum dst (fun e => x (s e) k) n) (clipDeg dst n)) (fun k => wn k j) := by
    rw [clipDeg_coe, Ideal.div_coe (clipDegR_ne_zero dst n), one_mul]
    have hL : segSum dst (fun e => dot (x (s e)) (fun k => wn k j)) n
        = ((∑ e, if dst e = (n.val : ℤ) then (∑ k, xr (s e) k * wr' k j) else 0 : ℝ) : EReal) := by
      rw [← segSum_coe]
      refine congrArg (fun u => segSum dst u n) (funext fun e => ?_)
      unfold dot
      rw [coe_sum]
      exact Finset.sum_congr rfl fun k _ => by dsimp only; rw [hxr, hwr, EReal.coe_mul]
    have hR : dot (fun k => Ideal.div (segSum dst (fun e => x (s e) k) n) ((clipDegR dst n : ℝ) : EReal)) (fun k => wn k j)
        = ((∑ k, ((∑ e, if dst e = (n.val : ℤ) then xr (s e) k else 0) * (1 / clipDegR dst n)) * wr' k j : ℝ) : EReal) := by
      unfold dot
      rw [coe_sum]
      refine Finset.sum_congr rfl fun k _ => ?_
      have hs : segSum dst (fun e => x (s e) k) n = ((∑ e, if dst e = (n.val : ℤ) then xr (s e) k else 0 : ℝ) : EReal) := by
        rw [← segSum_coe]
        exact congrArg (fun u => segSum dst u n) (funext fun e => hxr (s e) k)
      dsimp only
      rw [Ideal.div_coe (clipDegR_ne_zero dst n), hwr, hs, ← EReal.coe_mul, ← EReal.coe_mul]
    rw [hL, hR, ← EReal.coe_mul]
    exact congrArg _ (real_comm _ _ _ _)
  rw [key]

end Cert.Sage

end
-- ==== Proof.KHostDefs.lean ====
/-
  The host operations that the kernel's program runs between its three kernels, as pure functions of their operands.

  `srcW` / `dstW` are rows 0 and 1 of the edge table as vectors of 800000 words. `invDeg` is the reciprocal of the
  clipped in-degree as a column. `takeRows T src` gathers row `src e` of a table `T` for every edge `e`, counting a
  negative index from the end, and fills the rows whose index is out of range with the quiet-NaN pattern. `meanAgg` adds
  the gathered rows into their destination rows and multiplies by the reciprocal column.
-/
import proofs.«411132_j77086073028678_2_alg».proof.Proof.Gen.KernelIdeal

noncomputable section

namespace Cert.KernelIdeal.HostRead

open Cert.KernelIdeal Cert.KernelIdeal.Facts₀ Cert.KernelIdeal.Facts Idealize.ShloMosaic

variable {F : FTy → Type} [FloatOps F]

/-! ## The stages as functions -/

/-- Row 0 of the edge table: the source index of every edge. -/
def srcW (E : IVec S2x800000 32) : IVec S800000 32 :=
  shapeCast S800000 (extractStridedSlice S1x800000 ![0, 0] E slices_S2x800000_S1x800000_0_0) shapeCasts_S1x800000_S800000

/-- Row 1 of the edge table: the destination index of every edge. -/
def dstW (E : IVec S2x800000 32) : IVec S800000 32 :=
  shapeCast S800000 (extractStridedSlice S1x800000 ![1, 0] E slices_S2x800000_S1x800000_1_0) shapeCasts_S1x800000_S800000

/-- The in-degree: a one added into the destination of every edge. -/
def degV (dst : IVec S800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The reciprocal of the in-degree clipped below at one, as a column. -/
def invDeg (deg : FVec F S50000 .f32) : FVec F S50000x1 .f32 :=
  broadcastInDim S50000x1 ![0] bcast_S50000_S50000x1_0
    (Host.divf (broadcastInDim S50000 ![] bcast_S_S50000 (constant S_ .f32 0x3F800000#32))
      (maximumf (broadcastInDim S50000 ![] bcast_S_S50000 (id (constant S_ .f32 0x3F800000#32))) deg))

/-- The source index with a negative index counted from the end, as a column. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Which edges have their (wrapped) source index in range. -/
def inbMask (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of `T` named by the source indices, an out-of-range row filled with the quiet-NaN pattern. -/
def takeRows (T : FVec F S50000x16 .f32) (src : IVec S800000 32) : FVec F S800000x16 .f32 :=
  select (broadcastInDim S800000x16 ![0] bcast_S800000_S800000x16_0 (inbMask (wrapIdx src)))
    (Host.gather gather_S50000x16_S800000x1_S800000x16_1_0_n_n_0_1_116 T (wrapIdx src))
    (broadcastInDim S800000x16 ![] bcast_S_S800000x16 (constant S_ .f32 0x7FC00000#32))

/-- The gathered rows added into their destination rows, times the reciprocal column. -/
def meanAgg (T : FVec F S50000x16 .f32) (src dst : IVec S800000 32) (inv : FVec F S50000x1 .f32) : FVec F S50000x16 .f32 :=
  mulf (Host.scatterAdd scatter_S50000x16_S800000x1_S800000x16_1_0_0_1
      (broadcastInDim S50000x16 ![] bcast_S_S50000x16 (constant S_ .f32 0x00000000#32))
      (broadcastInDim S800000x1 ![0] bcast_S800000_S800000x1_0 dst) (takeRows T src))
    (broadcastInDim S50000x16 ![0, 1] bcast_S50000x1_S50000x16_0_1 inv)

end Cert.KernelIdeal.HostRead

end
-- ==== Proof.KHost.lean ====
/-
  The kernel program's buffer contents at the entry of each of its three kernels, as functions of the launch memory:
  the host operations before a kernel applied to what the kernels before it left. The first stretch slices the edge
  table and computes the reciprocal of the clipped in-degree; the second gathers the projected rows, aggregates them and
  lays the first bias out as a row; the third does the same for the first layer's output and lays out the other four
  biases. Nothing writes an argument.
-/
import proofs.«411132_j77086073028678_2_alg».proof.Proof.KernelRun
import proofs.«411132_j77086073028678_2_alg».proof.Proof.KHostDefs

set_option maxRecDepth 16384

noncomputable section

namespace Cert.KernelIdeal.Gen

open Idealize.ShloMosaic Idealize.ShloMosaic.TcCoe Idealize.ShloMosaic.Tactic Idealize.ShloMosaic.StableHlo
open Idealize.SL.Sem
open Cert.KernelIdeal.HostRead
open Idealize.ShloMosaic.Pipeline (Dat Cfg Window)

variable {F : FTy → Type} [FloatOps F]
variable (m : (ℓ : Loc nD τ sig) → Buf (Elt F) ℓ) (ρ : Dev nD → PrngReg)

/-- A stretch of host operations leaves a buffer that none of them writes as it was. -/
macro "skip_ops " ops:ident : tactic => `(tactic| exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Before the first kernel -/

theorem W3_src (c : Dev nD) : W3 m ρ c (Proc.devRef .tc main_v1) = srcW (m ((c : Thread nD τ).loc main_arg1)) := by
  show StableHlo.after hostOps0_2 (StableHlo.after hostOps0_1 (StableHlo.after hostOps0 (W0 m ρ c))) (Proc.devRef .tc main_v1) = _
  simp only [hostOps0, hostOps0_1, hostOps0_2]
  after_results
  rfl

theorem W3_dst (c : Dev nD) : W3 m ρ c (Proc.devRef .tc main_v3) = dstW (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results
  rfl

theorem W3_inv (c : Dev nD) :
    W3 m ρ c (Proc.devRef .tc main_v11) = invDeg (F := F) (degV (dstW (m ((c : Thread nD τ).loc main_arg1)))) := by
  show StableHlo.after hostOps0_2 (StableHlo.after hostOps0_1 (StableHlo.after hostOps0 (W0 m ρ c))) (Proc.devRef .tc main_v11) = _
  simp only [hostOps0, hostOps0_1, hostOps0_2]
  after_results
  rfl

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results <;> rfl

theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  after_results <;> rfl

/-! ## Between the first and the second kernel -/

/-- The projected features: what the first kernel leaves in its output array. -/
abbrev xw1 (c : Dev nD) : FVec F S50000x16 .f32 := (dat0 (V3 m ρ) c).arrAt 2 cfg0.N

theorem W4_xw1 (c : Dev nD) : W4 m ρ c (Proc.devRef .tc main_v12) = xw1 m ρ c := W4_arr m ρ c 2

set_option maxHeartbeats 2000000 in
theorem W6_agg (c : Dev nD) :
    W6 m ρ c (Proc.devRef .tc main_v18)
      = meanAgg (xw1 m ρ c) (srcW (m ((c : Thread nD τ).loc main_arg1))) (dstW (m ((c : Thread nD τ).loc main_arg1)))
          (invDeg (F := F) (degV (dstW (m ((c : Thread nD τ).loc main_arg1))))) := by
  rw [← W4_xw1, ← W3_inv m ρ c, ← W3_src m ρ c, ← W3_dst m ρ c,
    ← W4_of_ne m ρ c main_v1 (by decide), ← W4_of_ne m ρ c main_v3 (by decide), ← W4_of_ne m ρ c main_v11 (by decide)]
  show StableHlo.after hostOps1_1 (StableHlo.after hostOps1 (W4 m ρ c)) (Proc.devRef .tc main_v18) = _
  simp only [hostOps1, hostOps1_1]
  after_results_simp <;> (try simp only [TRef.ofBuf, TRef.toBuf, cast_eq]) <;> rfl

theorem W6_of_W4 (c : Dev nD) (b : Ref sig .tc)
    (h1 : W5 m ρ c (Proc.devRef .tc b) = W4 m ρ c (Proc.devRef .tc b))
    (h2 : W6 m ρ c (Proc.devRef .tc b) = W5 m ρ c (Proc.devRef .tc b)) :
    W6 m ρ c (Proc.devRef .tc b) = W4 m ρ c (Proc.devRef .tc b) := h2.trans h1

theorem W6_arg0 (c : Dev nD) : W6 m ρ c (Proc.devRef .tc main_arg0) = m ((c : Thread nD τ).loc main_arg0) :=
  calc W6 m ρ c (Proc.devRef .tc main_arg0)
    _ = W5 m ρ c (Proc.devRef .tc main_arg0) := by skip_ops hostOps1_1
    _ = W4 m ρ c (Proc.devRef .tc main_arg0) := by skip_ops hostOps1
    _ = W3 m ρ c (Proc.devRef .tc main_arg0) := (W4_arr m ρ c 0).trans (((dat0 (V3 m ρ) c).arrAt_in 0 rfl _).trans (A_eq0 (V3 m ρ) c 0))
    _ = m ((c : Thread nD τ).loc main_arg0) := W3_arg0 m ρ c

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by skip_ops hostOps0_2
    _ = W1 m ρ c (Proc.devRef .tc main_arg3) := by skip_ops hostOps0_1
    _ = W0 m ρ c (Proc.devRef .tc main_arg3) := by skip_ops hostOps0
    _ = m ((c : Thread nD τ).loc main_arg3) := rfl

theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by skip_ops hostOps0_2
    _ = W1 m ρ c (Proc.devRef .tc main_arg4) := by skip_ops hostOps0_1
    _ = W0 m ρ c (Proc.devRef .tc main_arg4) := by skip_ops hostOps0
    _ = m ((c : Thread nD τ).loc main_arg4) := rfl

theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := by skip_ops hostOps1_1
    _ = W4 m ρ c (Proc.devRef .tc main_arg3) := by skip_ops hostOps1
    _ = W3 m ρ c (Proc.devRef .tc main_arg3) := W4_of_ne m ρ c main_arg3 (by decide)
    _ = m ((c : Thread nD τ).loc main_arg3) := W3_arg3 m ρ c

/-- The first bias laid out as a row. -/
theorem W6_bias (c : Dev nD) :
    W6 m ρ c (Proc.devRef .tc main_v19) = shapeCast S1x16 (m ((c : Thread nD τ).loc main_arg4)) shapeCasts_S16_S1x16 := by
  rw [← W3_arg4 m ρ c, ← W4_of_ne m ρ c main_arg4 (by decide)]
  have h5 : W5 m ρ c (Proc.devRef .tc main_arg4) = W4 m ρ c (Proc.devRef .tc main_arg4) := by skip_ops hostOps1
  rw [← h5]
  show StableHlo.after hostOps1_1 (W5 m ρ c) (Proc.devRef .tc main_v19) = _
  simp only [hostOps1_1]
  after_results
  rfl

/-! ## Between the second and the third kernel -/

/-- The first layer's output: what the second kernel leaves in its output array. -/
abbrev h1arr (c : Dev nD) : FVec F S50000x16 .f32 := (dat1 (V6 m ρ) c).arrAt 4 cfg1.N

theorem W7_h1 (c : Dev nD) : W7 m ρ c (Proc.devRef .tc main_v20) = h1arr m ρ c := W7_arr m ρ c 4

theorem W7_src (c : Dev nD) : W7 m ρ c (Proc.devRef .tc main_v1) = srcW (m ((c : Thread nD τ).loc main_arg1)) :=
  calc W7 m ρ c (Proc.devRef .tc main_v1)
    _ = W6 m ρ c (Proc.devRef .tc main_v1) := W7_of_ne m ρ c main_v1 (by decide)
    _ = W5 m ρ c (Proc.devRef .tc main_v1) := by skip_ops hostOps1_1
    _ = W4 m ρ c (Proc.devRef .tc main_v1) := by skip_ops hostOps1
    _ = W3 m ρ c (Proc.devRef .tc main_v1) := W4_of_ne m ρ c main_v1 (by decide)
    _ = _ := W3_src m ρ c

theorem W7_dst (c : Dev nD) : W7 m ρ c (Proc.devRef .tc main_v3) = dstW (m ((c : Thread nD τ).loc main_arg1)) :=
  calc W7 m ρ c (Proc.devRef .tc main_v3)
    _ = W6 m ρ c (Proc.devRef .tc main_v3) := W7_of_ne m ρ c main_v3 (by decide)
    _ = W5 m ρ c (Proc.devRef .tc main_v3) := by skip_ops hostOps1_1
    _ = W4 m ρ c (Proc.devRef .tc main_v3) := by skip_ops hostOps1
    _ = W3 m ρ c (Proc.devRef .tc main_v3) := W4_of_ne m ρ c main_v3 (by decide)
    _ = _ := W3_dst m ρ c

theorem W7_inv (c : Dev nD) :
    W7 m ρ c (Proc.devRef .tc main_v11) = invDeg (F := F) (degV (dstW (m ((c : Thread nD τ).loc main_arg1)))) :=
  calc W7 m ρ c (Proc.devRef .tc main_v11)
    _ = W6 m ρ c (Proc.devRef .tc main_v11) := W7_of_ne m ρ c main_v11 (by decide)
    _ = W5 m ρ c (Proc.devRef .tc main_v11) := by skip_ops hostOps1_1
    _ = W4 m ρ c (Proc.devRef .tc main_v11) := by skip_ops hostOps1
    _ = W3 m ρ c (Proc.devRef .tc main_v11) := W4_of_ne m ρ c main_v11 (by decide)
    _ = _ := W3_inv m ρ c

set_option maxHeartbeats 2000000 in
theorem W9_agg (c : Dev nD) :
    W9 m ρ c (Proc.devRef .tc main_v26)
      = meanAgg (h1arr m ρ c) (srcW (m ((c : Thread nD τ).loc main_arg1))) (dstW (m ((c : Thread nD τ).loc main_arg1)))
          (invDeg (F := F) (degV (dstW (m ((c : Thread nD τ).loc main_arg1))))) := by
  rw [← W7_h1, ← W7_inv m ρ c, ← W7_src m ρ c, ← W7_dst m ρ c]
  show StableHlo.after hostOps2_1 (StableHlo.after hostOps2 (W7 m ρ c)) (Proc.devRef .tc main_v26) = _
  simp only [hostOps2, hostOps2_1]
  after_results_simp <;> (try simp only [TRef.ofBuf, TRef.toBuf, cast_eq]) <;> rfl

theorem W9_h1 (c : Dev nD) : W9 m ρ c (Proc.devRef .tc main_v20) = h1arr m ρ c :=
  calc W9 m ρ c (Proc.devRef .tc main_v20)
    _ = W8 m ρ c (Proc.devRef .tc main_v20) := by skip_ops hostOps2_1
    _ = W7 m ρ c (Proc.devRef .tc main_v20) := by skip_ops hostOps2
    _ = _ := W7_h1 m ρ c

/-- An argument the third kernel reads through a window is, at the kernel's entry, as launched. -/
theorem W9_arg5 (c : Dev nD) : W9 m ρ c (Proc.devRef .tc main_arg5) = m ((c : Thread nD τ).loc main_arg5) :=
  ((W10_arr m ρ c 2).trans (((dat2 (V9 m ρ) c).arrAt_in 2 rfl _).trans (A_eq2 (V9 m ρ) c 2))).symm.trans (W10_main_arg5 m ρ c)
theorem W9_arg6 (c : Dev nD) : W9 m ρ c (Proc.devRef .tc main_arg6) = m ((c : Thread nD τ).loc main_arg6) :=
  ((W10_arr m ρ c 3).trans (((dat2 (V9 m ρ) c).arrAt_in 3 rfl _).trans (A_eq2 (V9 m ρ) c 3))).symm.trans (W10_main_arg6 m ρ c)
theorem W9_arg8 (c : Dev nD) : W9 m ρ c (Proc.devRef .tc main_arg8) = m ((c : Thread nD τ).loc main_arg8) :=
  ((W10_arr m ρ c 5).trans (((dat2 (V9 m ρ) c).arrAt_in 5 rfl _).trans (A_eq2 (V9 m ρ) c 5))).symm.trans (W10_main_arg8 m ρ c)
theorem W9_arg10 (c : Dev nD) : W9 m ρ c (Proc.devRef .tc main_arg10) = m ((c : Thread nD τ).loc main_arg10) :=
  ((W10_arr m ρ c 7).trans (((dat2 (V9 m ρ) c).arrAt_in 7 rfl _).trans (A_eq2 (V9 m ρ) c 7))).symm.trans (W10_main_arg10 m ρ c)
theorem W9_arg12 (c : Dev nD) : W9 m ρ c (Proc.devRef .tc main_arg12) = m ((c : Thread nD τ).loc main_arg12) :=
  ((W10_arr m ρ c 9).trans (((dat2 (V9 m ρ) c).arrAt_in 9 rfl _).trans (A_eq2 (V9 m ρ) c 9))).symm.trans (W10_main_arg12 m ρ c)

/-- An argument no kernel window holds is, before the last host stretch, as launched. -/
theorem W8_arg7 (c : Dev nD) : W8 m ρ c (Proc.devRef .tc main_arg7) = m ((c : Thread nD τ).loc main_arg7) :=
  (show W9 m ρ c (Proc.devRef .tc main_arg7) = W8 m ρ c (Proc.devRef .tc main_arg7) by skip_ops hostOps2_1).symm.trans
    ((W10_of_ne m ρ c main_arg7 (by decide)).symm.trans (W10_main_arg7 m ρ c))
theorem W8_arg9 (c : Dev nD) : W8 m ρ c (Proc.devRef .tc main_arg9) = m ((c : Thread nD τ).loc main_arg9) :=
  (show W9 m ρ c (Proc.devRef .tc main_arg9) = W8 m ρ c (Proc.devRef .tc main_arg9) by skip_ops hostOps2_1).symm.trans
    ((W10_of_ne m ρ c main_arg9 (by decide)).symm.trans (W10_main_arg9 m ρ c))
theorem W8_arg11 (c : Dev nD) : W8 m ρ c (Proc.devRef .tc main_arg11) = m ((c : Thread nD τ).loc main_arg11) :=
  (show W9 m ρ c (Proc.devRef .tc main_arg11) = W8 m ρ c (Proc.devRef .tc main_arg11) by skip_ops hostOps2_1).symm.trans
    ((W10_of_ne m ρ c main_arg11 (by decide)).symm.trans (W10_main_arg11 m ρ c))
theorem W8_arg13 (c : Dev nD) : W8 m ρ c (Proc.devRef .tc main_arg13) = m ((c : Thread nD τ).loc main_arg13) :=
  (show W9 m ρ c (Proc.devRef .tc main_arg13) = W8 m ρ c (Proc.devRef .tc main_arg13) by skip_ops hostOps2_1).symm.trans
    ((W10_of_ne m ρ c main_arg13 (by decide)).symm.trans (W10_main_arg13 m ρ c))

end Cert.KernelIdeal.Gen

end
-- ==== Proof.KHost2.lean ====
/-
  The four biases of the second layer and of the head, each laid out as a row before the third kernel: a reshape of
  the argument, which nothing has written.
-/
import proofs.«411132_j77086073028678_2_alg».proof.Proof.KHost

set_option maxRecDepth 16384

noncomputable section

namespace Cert.KernelIdeal.Gen

open Idealize.ShloMosaic Idealize.ShloMosaic.TcCoe Idealize.ShloMosaic.Tactic Idealize.ShloMosaic.StableHlo
open Idealize.SL.Sem
open Cert.KernelIdeal.HostRead

variable {F : FTy → Type} [FloatOps F]
variable (m : (ℓ : Loc nD τ sig) → Buf (Elt F) ℓ) (ρ : Dev nD → PrngReg)

set_option maxHeartbeats 1000000 in
theorem W9_bias2 (c : Dev nD) :
    W9 m ρ c (Proc.devRef .tc main_v27) = shapeCast S1x32 (m ((c : Thread nD τ).loc main_arg7)) shapeCasts_S32_S1x32 := by
  rw [← W8_arg7 m ρ c]
  show StableHlo.after hostOps2_1 (W8 m ρ c) (Proc.devRef .tc main_v27) = _
  generalize W8 m ρ c = Wp
  simp only [hostOps2_1]
  after_results_simp <;> rfl
set_option maxHeartbeats 1000000 in
theorem W9_bias3 (c : Dev nD) :
    W9 m ρ c (Proc.devRef .tc main_v28) = shapeCast S1x64 (m ((c : Thread nD τ).loc main_arg9)) shapeCasts_S64_S1x64 := by
  rw [← W8_arg9 m ρ c]
  show StableHlo.after hostOps2_1 (W8 m ρ c) (Proc.devRef .tc main_v28) = _
  generalize W8 m ρ c = Wp
  simp only [hostOps2_1]
  after_results_simp <;> rfl
set_option maxHeartbeats 1000000 in
theorem W9_bias4 (c : Dev nD) :
    W9 m ρ c (Proc.devRef .tc main_v29) = shapeCast S1x128 (m ((c : Thread nD τ).loc main_arg11)) shapeCasts_S128_S1x128 := by
  rw [← W8_arg11 m ρ c]
  show StableHlo.after hostOps2_1 (W8 m ρ c) (Proc.devRef .tc main_v29) = _
  generalize W8 m ρ c = Wp
  simp only [hostOps2_1]
  after_results_simp <;> rfl
set_option maxHeartbeats 1000000 in
theorem W9_bias5 (c : Dev nD) :
    W9 m ρ c (Proc.devRef .tc main_v30) = shapeCast S1x2 (m ((c : Thread nD τ).loc main_arg13)) shapeCasts_S2_S1x2 := by
  rw [← W8_arg13 m ρ c]
  show StableHlo.after hostOps2_1 (W8 m ρ c) (Proc.devRef .tc main_v30) = _
  generalize W8 m ρ c = Wp
  simp only [hostOps2_1]
  after_results_simp <;> rfl

end Cert.KernelIdeal.Gen

end
-- ==== Proof.LibSegmentScatter.lean ====
/-
  An accumulating scatter along axis 0, read at one element of its result over the extended reals.

  Two shapes that a segment sum lowers to. ROWS: the operand is `[B, D]`, the scatter indices a column `[N, 1]`, the
  updates `[N, D]`; update row `n` is added into operand row `idx n`, column by column. ELEMENTS: the operand is `[B]`,
  the scatter indices `[N, 1]`, the updates `[N]`; update `n` is added into element `idx n`. The index is read signed and
  not clamped, and an update whose index falls outside `[0, B)` is dropped. So the result at row `b` is the operand there
  plus the sum of the updates whose index is `b`.

  The dimension numbers are spelt field by field as a printed program's record is, so that record is one of these by `rfl`.
-/
import Idealize.ShloMosaic.PureOps.Ideal
import Idealize.ShloMosaic.Lib.ValueIdx
import Idealize.ShloMosaic.Lib.ValueIdxRank1

open scoped BigOperators

noncomputable section

namespace Idealize.ShloMosaic.SegmentScatter

open Idealize.ShloMosaic Idealize.ShloMosaic.ValueIdx

/-- The dimension numbers of a row scatter: operand `[B, D]`, scatter indices `[N, 1]`, updates `[N, D]`. -/
abbrev rowDims (B D N : Nat)
    (wf : ScatterDims.WF ⟨2, ![B, D]⟩ ⟨2, ![N, 1]⟩ ⟨2, ![N, D]⟩ [1] [0] [0] 1) :
    ScatterDims ⟨2, ![B, D]⟩ ⟨2, ![N, 1]⟩ ⟨2, ![N, D]⟩ where
  updateWindowDims := [1]
  insertedWindowDims := [0]
  scatterDimsToOperandDims := [0]
  indexVectorDim := 1
  wf := wf

/-! ### Rows: start, window and landing index of update `(n, d')` -/

section Rows
variable {B D N w : Nat} (wf : ScatterDims.WF ⟨2, ![B, D]⟩ ⟨2, ![N, 1]⟩ ⟨2, ![N, D]⟩ [1] [0] [0] 1)
  (idx : IVec ⟨2, ![N, 1]⟩ w)

/-- On axis 0 the window of update `(n, d')` starts at the signed value of scatter index `(n, 0)`. -/
theorem row_start0 (n : Fin N) (d' : Fin D) :
    (rowDims B D N wf).start (ix2 n d') idx 0 = (idx (ix2 n (0 : Fin 1))).toInt := by
  unfold ScatterDims.start
  rw [dif_pos (show (0 : Fin 2) ∈ (rowDims B D N wf).scatterDimsToOperandDims from List.mem_singleton.mpr rfl)]
  have hsi : (rowDims B D N wf).siIdx (ix2 n d') ⟨List.idxOf (0 : Fin 2) (rowDims B D N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- Axis 1 is not named by the scatter-dims-to-operand-dims map, so the window starts at `0` there. -/
theorem row_start1 (j : (⟨2, ![N, D]⟩ : Shape).Idx) :
    (rowDims B D N wf).start j idx 1 = 0 := by
  unfold ScatterDims.start
  rw [dif_neg (show (1 : Fin 2) ∉ ([0] : List (Fin 2)) by decide)]

/-- Axis 0 is an inserted window axis: the window coordinate there is `0`. -/
theorem row_window0 (j : (⟨2, ![N, D]⟩ : Shape).Idx) :
    (rowDims B D N wf).window j 0 = 0 := by
  unfold ScatterDims.window
  have h : (0 : Fin 2) ∉ (rowDims B D N wf).sKept := (show (0 : Fin 2) ∉ ([1] : List (Fin 2)) by decide)
  rw [dif_neg h]

/-- Axis 1 is the one kept axis, read by update window axis 1: the window coordinate of `(n, d')` is `d'`. -/
theorem row_window1 (n : Fin N) (d' : Fin D) :
    (rowDims B D N wf).window (ix2 n d') 1 = d'.val := by
  unfold ScatterDims.window
  have h : (1 : Fin 2) ∈ (rowDims B D N wf).sKept := (show (1 : Fin 2) ∈ ([1] : List (Fin 2)) by decide)
  rw [dif_pos h]
  rfl

/-- Update `(n, d')` lands at `(b, d)` exactly when its scatter index, read signed, is `b` and `d' = d`; the range
    conditions then hold because `b < B` and `d < D`. -/
theorem row_resultIdx?_eq_some_iff (n : Fin N) (d' : Fin D) (b : Fin B) (d : Fin D) :
    (rowDims B D N wf).resultIdx? (ix2 n d') idx = some (ix2 b d)
      ↔ (idx (ix2 n (0 : Fin 1))).toInt = (b.val : ℤ) ∧ d' = d := by
  unfold ScatterDims.resultIdx?
  constructor
  · intro h
    split at h
    · rename_i hc
      have hf := Option.some.inj h
      have h0 := congrArg (fun f => (f 0).val) hf
      have h1 := congrArg (fun f => (f 1).val) hf
      simp only [row_start0, row_start1, row_window0, row_window1] at h0 h1
      have hc0 := (hc 0).1
      rw [row_start0, row_window0] at hc0
      change ((idx (ix2 n (0 : Fin 1))).toInt + ((0 : ℕ) : ℤ)).toNat = b.val at h0
      change ((0 : ℤ) + (d'.val : ℤ)).toNat = d.val at h1
      refine ⟨by omega, Fin.ext (by omega)⟩
    · exact absurd h (by simp)
  · rintro ⟨ht, rfl⟩
    have hc : ∀ a, 0 ≤ (rowDims B D N wf).start (ix2 n d') idx a + (rowDims B D N wf).window (ix2 n d') a ∧
        (rowDims B D N wf).start (ix2 n d') idx a + (rowDims B D N wf).window (ix2 n d') a
          < (⟨2, ![B, D]⟩ : Shape).size a := by
      intro a
      match a with
      | ⟨0, _⟩ =>
        change 0 ≤ (rowDims B D N wf).start (ix2 n d') idx 0 + ((rowDims B D N wf).window (ix2 n d') 0 : ℕ) ∧
          (rowDims B D N wf).start (ix2 n d') idx 0 + ((rowDims B D N wf).window (ix2 n d') 0 : ℕ) < (B : ℤ)
        rw [row_start0, row_window0, ht]
        have := b.isLt
        omega
      | ⟨1, _⟩ =>
        change 0 ≤ (rowDims B D N wf).start (ix2 n d') idx 1 + ((rowDims B D N wf).window (ix2 n d') 1 : ℕ) ∧
          (rowDims B D N wf).start (ix2 n d') idx 1 + ((rowDims B D N wf).window (ix2 n d') 1 : ℕ) < (D : ℤ)
        rw [row_start1, row_window1]
        have := d'.isLt
        omega
    rw [dif_pos hc]
    congr 1
    funext a; refine Fin.ext ?_
    match a with
    | ⟨0, _⟩ =>
      change ((rowDims B D N wf).start (ix2 n d') idx 0 + ((rowDims B D N wf).window (ix2 n d') 0 : ℕ)).toNat = b.val
      rw [row_start0, row_window0, ht]; omega
    | ⟨1, _⟩ =>
      change ((rowDims B D N wf).start (ix2 n d') idx 1 + ((rowDims B D N wf).window (ix2 n d') 1 : ℕ)).toNat = d'.val
      rw [row_start1, row_window1]; omega

end Rows

/-- A row scatter-add read at `(b, d)`: the operand there plus column `d` of every update row whose index is `b`. -/
theorem rowScatterAdd_apply {B D N w : Nat}
    (wf : ScatterDims.WF ⟨2, ![B, D]⟩ ⟨2, ![N, 1]⟩ ⟨2, ![N, D]⟩ [1] [0] [0] 1)
    (x : (⟨2, ![B, D]⟩ : Shape).Idx → EReal) (idx : IVec ⟨2, ![N, 1]⟩ w) (upd : (⟨2, ![N, D]⟩ : Shape).Idx → EReal)
    (b : Fin B) (d : Fin D) :
    Ideal.hostScatterAdd (rowDims B D N wf) x idx upd (ix2 b d)
      = x (ix2 b d) + ∑ n : Fin N, if (idx (ix2 n (0 : Fin 1))).toInt = (b.val : ℤ) then upd (ix2 n d) else 0 := by
  unfold Ideal.hostScatterAdd
  congr 1
  rw [Finset.sum_filter]
  refine (sum_idx2 _).trans ?_
  refine Finset.sum_congr rfl fun n _ => ?_
  simp only [row_resultIdx?_eq_some_iff]
  by_cases ht : (idx (ix2 n (0 : Fin 1))).toInt = (b.val : ℤ)
  · simp only [ht, true_and, if_true]
    rw [Finset.sum_ite_eq' Finset.univ d (fun d' => upd (ix2 n d'))]
    simp
  · simp only [ht, false_and, if_false]
    exact Finset.sum_const_zero

/-- The dimension numbers of an element scatter: operand `[B]`, scatter indices `[N, 1]`, updates `[N]`. -/
abbrev elemDims (B N : Nat)
    (wf : ScatterDims.WF ⟨1, ![B]⟩ ⟨2, ![N, 1]⟩ ⟨1, ![N]⟩ [] [0] [0] 1) :
    ScatterDims ⟨1, ![B]⟩ ⟨2, ![N, 1]⟩ ⟨1, ![N]⟩ where
  updateWindowDims := []
  insertedWindowDims := [0]
  scatterDimsToOperandDims := [0]
  indexVectorDim := 1
  wf := wf

/-! ### Elements: start, window and landing index of update `n` -/

section Elements
variable {B N w : Nat} (wf : ScatterDims.WF ⟨1, ![B]⟩ ⟨2, ![N, 1]⟩ ⟨1, ![N]⟩ [] [0] [0] 1)
  (idx : IVec ⟨2, ![N, 1]⟩ w)

/-- The window of update `n` starts at the signed value of scatter index `(n, 0)`. -/
theorem elem_start0 (n : Fin N) :
    (elemDims B N wf).start (ix1 n) idx 0 = (idx (ix2 n (0 : Fin 1))).toInt := by
  unfold ScatterDims.start
  rw [dif_pos (show (0 : Fin 1) ∈ (elemDims B N wf).scatterDimsToOperandDims from List.mem_singleton.mpr rfl)]
  have hsi : (elemDims B N wf).siIdx (ix1 n) ⟨List.idxOf (0 : Fin 1) (elemDims B N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The operand's one axis is an inserted window axis: the window coordinate is `0`. -/
theorem elem_window0 (j : (⟨1, ![N]⟩ : Shape).Idx) :
    (elemDims B N wf).window j 0 = 0 := by
  unfold ScatterDims.window
  have h : (0 : Fin 1) ∉ (elemDims B N wf).sKept := (show (0 : Fin 1) ∉ ([] : List (Fin 1)) from List.not_mem_nil)
  rw [dif_neg h]

/-- Update `n` lands at `b` exactly when its scatter index, read signed, is `b`. -/
theorem elem_resultIdx?_eq_some_iff (n : Fin N) (b : Fin B) :
    (elemDims B N wf).resultIdx? (ix1 n) idx = some (ix1 b)
      ↔ (idx (ix2 n (0 : Fin 1))).toInt = (b.val : ℤ) := by
  unfold ScatterDims.resultIdx?
  constructor
  · intro h
    split at h
    · rename_i hc
      have hf := Option.some.inj h
      have h0 := congrArg (fun f => (f 0).val) hf
      have hc0 := (hc 0).1
      rw [elem_start0, elem_window0] at hc0
      simp only [elem_start0, elem_window0] at h0
      change ((idx (ix2 n (0 : Fin 1))).toInt + ((0 : ℕ) : ℤ)).toNat = b.val at h0
      omega
    · exact absurd h (by simp)
  · intro ht
    have hc : ∀ a, 0 ≤ (elemDims B N wf).start (ix1 n) idx a + (elemDims B N wf).window (ix1 n) a ∧
        (elemDims B N wf).start (ix1 n) idx a + (elemDims B N wf).window (ix1 n) a
          < (⟨1, ![B]⟩ : Shape).size a := by
      intro a
      match a with
      | ⟨0, _⟩ =>
        change 0 ≤ (elemDims B N wf).start (ix1 n) idx 0 + ((elemDims B N wf).window (ix1 n) 0 : ℕ) ∧
          (elemDims B N wf).start (ix1 n) idx 0 + ((elemDims B N wf).window (ix1 n) 0 : ℕ) < (B : ℤ)
        rw [elem_start0, elem_window0, ht]
        have := b.isLt
        omega
    rw [dif_pos hc]
    congr 1
    funext a; refine Fin.ext ?_
    match a with
    | ⟨0, _⟩ =>
      change ((elemDims B N wf).start (ix1 n) idx 0 + ((elemDims B N wf).window (ix1 n) 0 : ℕ)).toNat = b.val
      rw [elem_start0, elem_window0, ht]; omega

end Elements

/-- An element scatter-add read at `b`: the operand there plus every update whose index is `b`. -/
theorem elemScatterAdd_apply {B N w : Nat}
    (wf : ScatterDims.WF ⟨1, ![B]⟩ ⟨2, ![N, 1]⟩ ⟨1, ![N]⟩ [] [0] [0] 1)
    (x : (⟨1, ![B]⟩ : Shape).Idx → EReal) (idx : IVec ⟨2, ![N, 1]⟩ w) (upd : (⟨1, ![N]⟩ : Shape).Idx → EReal)
    (b : Fin B) :
    Ideal.hostScatterAdd (elemDims B N wf) x idx upd (ix1 b)
      = x (ix1 b) + ∑ n : Fin N, if (idx (ix2 n (0 : Fin 1))).toInt = (b.val : ℤ) then upd (ix1 n) else 0 := by
  unfold Ideal.hostScatterAdd
  congr 1
  rw [Finset.sum_filter]
  refine (Equiv.sum_comp (idxEquiv1 (n := N)).symm _).symm.trans ?_
  refine Finset.sum_congr rfl fun n _ => ?_
  change (if (elemDims B N wf).resultIdx? (ix1 n) idx = some (ix1 b) then upd (ix1 n) else 0) = _
  simp only [elem_resultIdx?_eq_some_iff]

end Idealize.ShloMosaic.SegmentScatter

end
-- ==== Proof.LibTakeRows.lean ====
/-
  Two shapes of `stablehlo.gather` that jnp's indexing by an integer vector lowers to, each read at one result index.

  * ROWS OF A TABLE (`jnp.take(table, idx, axis=0)` of a table `[N, D]` at `n` positions, the start indices an
    `[n, 1]` column): result element `(i, k)` is the table's element `(r, k)`, where `r` is the start index of position
    `i` read signed and clamped into `[0, N - 1]`.
  * ONE ELEMENT PER ROW (`jnp.take_along_axis(a, idx[:, None], axis=1)` of `a : [n, M]`, row `i` being a batch of its
    own, the start indices `[n, 1, 1]`): result element `(i, q)` is `a`'s element `(i, r)`, where `r` is the start
    index at `(i, q, 0)` read signed and clamped into `[0, M - 1]`.

  The dimension numbers are spelt field by field as a printed program's record is, so that record is one of these by `rfl`.
-/
import Idealize.ShloMosaic.Lib.ValueIdx

namespace Idealize.ShloMosaic.TakeRows

open Idealize.ShloMosaic Idealize.ShloMosaic.ValueIdx

variable {α : Type}

/-! ## Rows of a table -/

/-- The dimension numbers of a row take: operand `[N, D]`, start indices `[n, 1]`, result `[n, D]`. -/
abbrev rowDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- A row take read at `(i, k)`: column `k` of the row the clamped start index of position `i` names. -/
theorem rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (i : Fin n) (k : Fin D) :
    Host.gather (rowDims N D n wf) x idx (ix2 i k)
      = x (ix2 ⟨min (idx (ix2 i (0 : Fin 1))).toInt.toNat (N - 1), by omega⟩ k) := by
  unfold Host.gather
  congr 1
  funext a
  refine Fin.ext ?_
  match a with
  | ⟨0, _⟩ =>
    show (rowDims N D n wf).start (ix2 i k) idx 0 + (rowDims N D n wf).batchCoord (ix2 i k) 0
      + (rowDims N D n wf).offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D n wf).startIndexMap from List.mem_singleton.mpr rfl)]
    have hsi : (rowDims N D n wf).siIdx (ix2 i k) ⟨List.idxOf (0 : Fin 2) (rowDims N D n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show (rowDims N D n wf).start (ix2 i k) idx 1 + (rowDims N D n wf).batchCoord (ix2 i k) 1
      + (rowDims N D n wf).offCoord (ix2 i k) 1 = k.val
    rw [GatherDims.batchCoord_eq_zero _ _ _ List.not_mem_nil]
    unfold GatherDims.start
    rw [dif_neg (show ¬(1 : Fin 2) ∈ (rowDims N D n wf).startIndexMap from (by decide : (1 : Fin 2) ∉ ([0] : List (Fin 2))))]
    simp only [Nat.add_zero, Nat.zero_add]
    rfl

/-! ## One element per row -/

/-- The dimension numbers of `take_along_axis` along axis 1 with one index per row: operand `[n, M]`, start
    indices `[n, Q, 1]`, result `[n, Q]`; axis 0 is a batching axis of both. -/
abbrev alongDims (n M Q : Nat)
    (wf : GatherDims.WF ⟨2, ![n, M]⟩ ⟨3, ![n, Q, 1]⟩ ⟨2, ![n, Q]⟩ [] [1] [0] [1] [0] 2 ![1, 1]) :
    GatherDims ⟨2, ![n, M]⟩ ⟨3, ![n, Q, 1]⟩ ⟨2, ![n, Q]⟩ where
  offsetDims := []
  collapsedSliceDims := [1]
  operandBatchingDims := [0]
  startIndicesBatchingDims := [0]
  startIndexMap := [1]
  indexVectorDim := 2
  sliceSizes := ![1, 1]
  wf := wf

/-- That gather read at `(i, q)`: row `i` of the operand at the clamped start index at `(i, q, 0)`. -/
theorem alongTake_apply {n M Q w : Nat} (hM : 0 < M)
    (wf : GatherDims.WF ⟨2, ![n, M]⟩ ⟨3, ![n, Q, 1]⟩ ⟨2, ![n, Q]⟩ [] [1] [0] [1] [0] 2 ![1, 1])
    (x : (⟨2, ![n, M]⟩ : Shape).Idx → α) (idx : IVec ⟨3, ![n, Q, 1]⟩ w) (i : Fin n) (q : Fin Q) :
    Host.gather (alongDims n M Q wf) x idx (ix2 i q)
      = x (ix2 i ⟨min (idx (ix3 i q (0 : Fin 1))).toInt.toNat (M - 1), by omega⟩) := by
  unfold Host.gather
  congr 1
  funext a
  refine Fin.ext ?_
  match a with
  | ⟨0, _⟩ =>
    show (alongDims n M Q wf).start (ix2 i q) idx 0 + (alongDims n M Q wf).batchCoord (ix2 i q) 0
      + (alongDims n M Q wf).offCoord (ix2 i q) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    show (alongDims n M Q wf).start (ix2 i q) idx 1 + (alongDims n M Q wf).batchCoord (ix2 i q) 1
      + (alongDims n M Q wf).offCoord (ix2 i q) 1 = _
    rw [GatherDims.batchCoord_eq_zero _ _ _ (show ¬(1 : Fin 2) ∈ (alongDims n M Q wf).operandBatchingDims from (by decide : (1 : Fin 2) ∉ ([0] : List (Fin 2)))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims n M Q wf).startIndexMap from List.mem_singleton.mpr rfl)]
    have hsi : (alongDims n M Q wf).siIdx (ix2 i q) ⟨List.idxOf (1 : Fin 2) (alongDims n M Q wf).startIndexMap,
        List.idxOf_lt_length_iff.2 (List.mem_singleton.mpr rfl)⟩ = ix3 i q (0 : Fin 1) := by
      funext b; refine Fin.ext ?_
      match b with
      | ⟨0, _⟩ => rfl
      | ⟨1, _⟩ => rfl
      | ⟨2, _⟩ => rfl
    rw [hsi]
    rfl

end Idealize.ShloMosaic.TakeRows
-- ==== Proof.LibIndexRange.lean ====
/-
  Two general facts a proof meets when an integer input indexes an array.

  Words: a 32-bit word `w` with `0 ≤ w` and `w < n` as signed comparisons (`n` below 2³¹) has a signed value in
  `[0, n)`; for such a word the signed test `w < 0` fails, `w ≤ n - 1` holds, and the value read signed and clamped
  into `[0, n - 1]` is the value itself.

  Conjunctions: a `reduce` by `and` of one-bit words, started at 1, over an operand that is 1 everywhere is 1 at every
  result index (the converse of "a conjunction that is 1 met only 1s").
-/
import Idealize.ShloMosaic.Lib.ReduceAll
import Idealize.ShloMosaic.Lib.StableHlo.Predicate

namespace Idealize.ShloMosaic.IndexRange

open Idealize.ShloMosaic Idealize.ShloMosaic.StableHlo.Predicate

/-! ## Words in a range -/

/-- The signed value of a word that passes `0 ≤ w` and `w < n`. -/
theorem toInt_mem_of_cmpi {w : BitVec 32} (n : Nat) (hn : n < 2 ^ 31)
    (h0 : IntOp.cmpi .sge w 0#32 = 1#1) (h1 : IntOp.cmpi .slt w (BitVec.ofNat 32 n) = 1#1) :
    0 ≤ w.toInt ∧ w.toInt < n := by
  unfold IntOp.cmpi at h0 h1
  rw [ofBool_eq_one_iff] at h0 h1
  simp only [BitVec.sle, BitVec.slt, decide_eq_true_eq] at h0 h1
  rw [toInt_ofNat_small n hn] at h1
  exact ⟨by simpa using h0, h1⟩

/-- A word with a non-negative signed value fails the signed test `w < 0`. -/
theorem slt_zero_eq_zero {w : BitVec 32} (h : 0 ≤ w.toInt) : IntOp.cmpi .slt w 0#32 = 0#1 := by
  unfold IntOp.cmpi
  have : w.slt 0#32 = false := by
    simp only [BitVec.slt, decide_eq_false_iff_not, not_lt]
    simpa using h
  rw [this]; rfl

/-- A word with a non-negative signed value passes the signed test `0 ≤ w`. -/
theorem sge_zero_eq_one {w : BitVec 32} (h : 0 ≤ w.toInt) : IntOp.cmpi .sge w 0#32 = 1#1 := by
  unfold IntOp.cmpi
  rw [ofBool_eq_one_iff]
  simp only [BitVec.sle, decide_eq_true_eq]
  simpa using h

/-- For such a word the select "`w + n` if `w < 0`, else `w`" (an index counted from the end made absolute) is `w`. -/
theorem select_wrap_eq {w : BitVec 32} (n : BitVec 32) (h : 0 ≤ w.toInt) :
    Scalar.select (IntOp.cmpi .slt w 0#32) (IntOp.addi w n) w = w := by
  rw [slt_zero_eq_zero h]
  exact if_neg (by decide)

/-- A word whose signed value is at most `k` passes the signed test `w ≤ k`. -/
theorem sle_eq_one {w : BitVec 32} (k : Nat) (hk : k < 2 ^ 31) (h : w.toInt ≤ k) :
    IntOp.cmpi .sle w (BitVec.ofNat 32 k) = 1#1 := by
  unfold IntOp.cmpi
  rw [ofBool_eq_one_iff]
  simp only [BitVec.sle, decide_eq_true_eq]
  rw [toInt_ofNat_small k hk]
  exact h

/-- Read signed and clamped into `[0, k]`, a word whose signed value lies there is its own value. -/
theorem clamp_toNat {w : BitVec 32} (k : Nat) (h0 : 0 ≤ w.toInt) (h1 : w.toInt ≤ k) :
    min w.toInt.toNat k = w.toInt.toNat := by
  omega

/-! ## A conjunction of ones -/

/-- A left fold by `and` from 1 over one-bit words that are all 1 is 1. -/
theorem foldl_andi_of_forall {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_of_forall f l fun n hn => h n (List.mem_cons_of_mem _ hn)

/-- A `reduce` by `and` from an initial 1 over an operand that is 1 everywhere is 1 at every result index. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_of_forall x _ fun n _ => hx n

end Idealize.ShloMosaic.IndexRange
-- ==== Proof.KHostRead.lean ====
/-
  The host operations between the kernel program's three kernels, read at an index over the extended reals. When every
  source index names a node no gathered row is filled, and the gathered row of edge `e` is row `srcRow e`; the mean
  aggregation at `(n, j)` is then the segment sum over the edges into `n` of column `j` of the source rows, times the
  reciprocal of the clipped degree of `n`.
-/
import proofs.«411132_j77086073028678_2_alg».proof.Proof.KHostDefs
import proofs.«411132_j77086073028678_2_alg».proof.Proof.Spec
import proofs.«411132_j77086073028678_2_alg».proof.Proof.LibSegmentScatter
import proofs.«411132_j77086073028678_2_alg».proof.Proof.LibTakeRows
import proofs.«411132_j77086073028678_2_alg».proof.Proof.LibIndexRange
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

open scoped BigOperators

noncomputable section

namespace Cert.KernelIdeal.HostRead

open Cert.KernelIdeal Cert.KernelIdeal.Facts₀ Cert.KernelIdeal.Facts Idealize.ShloMosaic Idealize.ShloMosaic.ValueIdx

variable {F : FTy → Type} [FloatOps F]

/-! ## Read at an index -/

theorem srcW_apply (E : IVec S2x800000 32) (e : Fin 800000) : srcW E (ix1 e) = E (ix2 (0 : Fin 2) e) := by
  unfold srcW
  refine (shapeCast_1a_a_apply _ _ e).trans ?_
  exact slice2_axis0_apply 0 E _ (0 : Fin 1) e (0 : Fin 2) rfl

theorem dstW_apply (E : IVec S2x800000 32) (e : Fin 800000) : dstW E (ix1 e) = E (ix2 (1 : Fin 2) e) := by
  unfold dstW
  refine (shapeCast_1a_a_apply _ _ e).trans ?_
  exact slice2_axis0_apply 1 E _ (0 : Fin 1) e (1 : Fin 2) rfl

/-- A vector of 800000 words as a column reads the vector. -/
theorem col_apply (v : IVec S800000 32) (e : Fin 800000) (z : Fin 1) :
    broadcastInDim S800000x1 ![0] bcast_S800000_S800000x1_0 v (ix2 e z) = v (ix1 e) :=
  broadcastInDim_apply _ _ v (ix2 e z) (ix1 e) fun a => by
    match a with
    | ⟨0, _⟩ => show e.val = if (800000 : ℕ) = 1 then 0 else e.val; rw [if_neg (by decide)]

/-- The wrapped source index of an edge whose source index names a node is that index. -/
theorem wrapIdx_apply (src : IVec S800000 32) (e : Fin 800000) (z : Fin 1) (h0 : 0 ≤ (src (ix1 e)).toInt) :
    wrapIdx src (ix2 e z) = src (ix1 e) := by
  unfold wrapIdx
  rw [col_apply]
  exact IndexRange.select_wrap_eq (w := src (ix1 e)) 50000#32 h0

theorem inbMask_apply (src : IVec S800000 32)
    (hr : ∀ e : Fin 800000, 0 ≤ (src (ix1 e)).toInt ∧ (src (ix1 e)).toInt < 50000) (e : Fin 800000) :
    inbMask (wrapIdx src) (ix1 e) = 1#1 := by
  unfold inbMask
  refine IndexRange.reduce_andi_of_forall _ _ _ _ rfl (fun i => ?_) _
  obtain ⟨e', z, rfl⟩ : ∃ (e' : Fin 800000) (z : Fin 1), i = ix2 e' z := ⟨i 0, i 1, eq_ix2 i⟩
  show IntOp.andi (IntOp.cmpi .sge (wrapIdx src (ix2 e' z)) 0#32) (IntOp.cmpi .sle (wrapIdx src (ix2 e' z)) 49999#32) = 1#1
  rw [wrapIdx_apply src e' z (hr e').1, IndexRange.sge_zero_eq_one (hr e').1,
    IndexRange.sle_eq_one 49999 (by norm_num) (by have := (hr e').2; omega)]
  decide

/-- With every source index in range, the gathered row of edge `e` is row `(src e)`, read signed and clamped. -/
theorem takeRows_apply (T : FVec Ideal S50000x16 .f32) (src : IVec S800000 32)
    (hr : ∀ e : Fin 800000, 0 ≤ (src (ix1 e)).toInt ∧ (src (ix1 e)).toInt < 50000) (e : Fin 800000) (j : Fin 16) :
    takeRows T src (ix2 e j) = T (ix2 ⟨min (src (ix1 e)).toInt.toNat 49999, by omega⟩ j) := by
  unfold takeRows
  rw [select_apply]
  have hm : broadcastInDim S800000x16 ![0] bcast_S800000_S800000x16_0 (inbMask (wrapIdx src)) (ix2 e j) = 1#1 := by
    refine (broadcastInDim_apply _ _ _ (ix2 e j) (ix1 e) fun a => ?_).trans (inbMask_apply src hr e)
    match a with
    | ⟨0, _⟩ => show e.val = if (800000 : ℕ) = 1 then 0 else e.val; rw [if_neg (by decide)]
  rw [hm, select_one]
  have hg : gather_S50000x16_S800000x1_S800000x16_1_0_n_n_0_1_116
      = TakeRows.rowDims 50000 16 800000 gather_S50000x16_S800000x1_S800000x16_1_0_n_n_0_1_116_wf := rfl
  rw [hg, TakeRows.rowTake_apply (by norm_num) _ T (wrapIdx src) e j]
  refine congrArg (fun r => T (ix2 r j)) (Fin.ext ?_)
  show min (wrapIdx src (ix2 e (0 : Fin 1))).toInt.toNat (50000 - 1) = min (src (ix1 e)).toInt.toNat 49999
  rw [wrapIdx_apply src e 0 (hr e).1]

/-- The in-degree at node `n`: the number of edges into `n`, as a segment sum of ones. -/
theorem degV_apply (dst : IVec S800000 32) (n : Fin 50000) :
    degV (F := Ideal) dst (ix1 n) = Sage.segSum (fun e => (dst (ix1 e)).toInt) (fun _ => 1) n := by
  rw [show degV (F := Ideal) dst
      = Ideal.hostScatterAdd (SegmentScatter.elemDims 50000 800000 scatter_S50000_S800000x1_S800000_n_0_0_1_wf)
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)) from rfl]
  refine (SegmentScatter.elemScatterAdd_apply _ _ _ _ n).trans ?_
  rw [broadcastInDim_scalar_apply, constant_apply, Ideal.ofBits_zero_f32, zero_add]
  unfold Sage.segSum
  refine Finset.sum_congr rfl fun e _ => ?_
  rw [col_apply, broadcastInDim_scalar_apply, constant_apply, Ideal.ofBits_one_f32]

/-- The reciprocal column at node `n`. -/
theorem invDeg_apply (dst : IVec S800000 32) (n : Fin 50000) (z : Fin 1) :
    invDeg (F := Ideal) (degV dst) (ix2 n z) = Ideal.div 1 (Sage.clipDeg (fun e => (dst (ix1 e)).toInt) n) := by
  unfold invDeg
  refine (broadcastInDim_apply _ _ _ (ix2 n z) (ix1 n) fun a => ?_).trans ?_
  · match a with
    | ⟨0, _⟩ => show n.val = if (50000 : ℕ) = 1 then 0 else n.val; rw [if_neg (by decide)]
  rw [hostDivf_apply, maximumf_apply, broadcastInDim_scalar_apply, broadcastInDim_scalar_apply, id_eq, constant_apply,
    Ideal.ofBits_one_f32, degV_apply]
  unfold Sage.clipDeg
  rfl

/-- The mean aggregation at `(n, j)`, when every source index names a node. -/
theorem meanAgg_apply (T : FVec Ideal S50000x16 .f32) (src dst : IVec S800000 32)
    (hr : ∀ e : Fin 800000, 0 ≤ (src (ix1 e)).toInt ∧ (src (ix1 e)).toInt < 50000) (n : Fin 50000) (j : Fin 16) :
    meanAgg T src dst (invDeg (degV dst)) (ix2 n j)
      = Sage.segSum (fun e => (dst (ix1 e)).toInt)
          (fun e => T (ix2 ⟨min (src (ix1 e)).toInt.toNat 49999, by omega⟩ j)) n
        * Ideal.div 1 (Sage.clipDeg (fun e => (dst (ix1 e)).toInt) n) := by
  have hb : broadcastInDim S50000x16 ![0, 1] bcast_S50000x1_S50000x16_0_1 (invDeg (F := Ideal) (degV dst)) (ix2 n j)
      = invDeg (F := Ideal) (degV dst) (ix2 n (0 : Fin 1)) := by
    refine broadcastInDim_apply _ _ _ (ix2 n j) (ix2 n (0 : Fin 1)) fun a => ?_
    match a with
    | ⟨0, _⟩ => show n.val = if (50000 : ℕ) = 1 then 0 else n.val; rw [if_neg (by decide)]
    | ⟨1, _⟩ => show (0 : ℕ) = if (1 : ℕ) = 1 then 0 else j.val; rw [if_pos rfl]
  rw [show meanAgg T src dst (invDeg (degV dst))
      = mulf (Ideal.hostScatterAdd (SegmentScatter.rowDims 50000 16 800000 scatter_S50000x16_S800000x1_S800000x16_1_0_0_1_wf)
          (broadcastInDim S50000x16 ![] bcast_S_S50000x16 (constant (F := Ideal) S_ .f32 0x00000000#32))
          (broadcastInDim S800000x1 ![0] bcast_S800000_S800000x1_0 dst) (takeRows T src))
        (broadcastInDim S50000x16 ![0, 1] bcast_S50000x1_S50000x16_0_1 (invDeg (F := Ideal) (degV dst))) from rfl]
  rw [mulf_apply, hb, invDeg_apply]
  refine congrArg (fun x : EReal => x * Ideal.div 1 (Sage.clipDeg (fun e => (dst (ix1 e)).toInt) n)) ?_
  refine (SegmentScatter.rowScatterAdd_apply _ _ _ _ n j).trans ?_
  rw [broadcastInDim_scalar_apply, constant_apply, Ideal.ofBits_zero_f32, zero_add]
  unfold Sage.segSum
  refine Finset.sum_congr rfl fun e _ => ?_
  rw [col_apply, takeRows_apply T src hr e j]

/-- The same over the edge table: rows 0 and 1 are the source and the destination of every edge. -/
theorem meanAgg_edges (T : FVec Ideal S50000x16 .f32) (E : IVec S2x800000 32) (hr : Sage.InRange E) (n : Fin 50000)
    (j : Fin 16) :
    meanAgg T (srcW E) (dstW E) (invDeg (degV (dstW E))) (ix2 n j)
      = Sage.segSum (Sage.dstOf E) (fun e => T (ix2 (Sage.srcRow E e) j)) n
        * Ideal.div 1 (Sage.clipDeg (Sage.dstOf E) n) := by
  have hr' : ∀ e : Fin 800000, 0 ≤ (srcW E (ix1 e)).toInt ∧ (srcW E (ix1 e)).toInt < 50000 := fun e => by
    rw [srcW_apply]; exact hr e
  have hd : (fun e : Fin 800000 => (dstW E (ix1 e)).toInt) = Sage.dstOf E := funext fun e => by
    rw [dstW_apply]; rfl
  rw [meanAgg_apply T (srcW E) (dstW E) hr' n j, hd]
  refine congrArg (fun u : Fin 800000 → EReal => Sage.segSum (Sage.dstOf E) u n * Ideal.div 1 (Sage.clipDeg (Sage.dstOf E) n))
    (funext fun e => ?_)
  refine congrArg (fun r => T (ix2 r j)) (Fin.ext ?_)
  show min (srcW E (ix1 e)).toInt.toNat 49999 = min (E (ix2 (0 : Fin 2) e)).toInt.toNat 49999
  rw [srcW_apply]

end Cert.KernelIdeal.HostRead

end
-- ==== Proof.KRegion0.lean ====
import proofs.«411132_j77086073028678_2_alg».proof.Proof.Gen.KernelIdeal.Frame
import proofs.«411132_j77086073028678_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

-- the buffer contents the region is entered from: a parameter
variable (V : (c : Dev nD) → (b : Ref sig .tc) → Buf (Elt Ideal) ((c : Thread nD τ).loc b))

/-! # The projection kernel's output array

The kernel's ten grid points each take a block of 5000 rows of the node features and the whole weight array, multiply
them, and write the 5000 × 16 product back as the same block of rows of the output. So the output array is, entry by
entry, the inner product of a feature row with a weight column. First the product of one block is read at one entry;
then the ten blocks are put side by side. -/

/-! ## The projection's dimension numbers, axis by axis -/

theorem projL_row (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide),
    dif_pos (show (0 : Fin S5000x64.rank) ∈ dot_S5000x64_S64x16_S5000x16_1_0_0_1_n_n.lhsNonContracting by decide)]
  rfl

theorem projL_contr (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q

theorem projR_contr (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q

theorem projR_col (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide),
    dif_pos (show (1 : Fin S64x16.rank) ∈ dot_S5000x64_S64x16_S5000x16_1_0_0_1_n_n.rhsNonContracting by decide)]
  rfl

/-- One block's payload at row `p`, column `q`: the inner product of the block's row `p` with the weights' column `q`. -/
theorem pay_apply (x : Vec Ideal S5000x64 .f32) (w : Vec Ideal S64x16 .f32) (p : Fin 5000) (q : Fin 16) :
    k0_pay1 (F := Ideal) x w (ix2 p q) = Sage.dot (fun k : Fin 64 => x (ix2 p k)) (fun k => w (ix2 k q)) := by
  unfold k0_pay1 Sage.dot
  simp only [matmul]
  rw [Ideal.matmul_constant_zero_apply,
    ← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  have eL : dot_S5000x64_S64x16_S5000x16_1_0_0_1_n_n.lhsIdx (ix2 p q)
      ((contrEquiv1 dot_S5000x64_S64x16_S5000x16_1_0_0_1_n_n 64 rfl rfl).symm k) = ix2 p k :=
    funext fun a => Fin.ext (by
      match a with
      | ⟨0, _⟩ => exact projL_row _ _
      | ⟨1, _⟩ => exact (projL_contr _ _).trans hk)
  have eR : dot_S5000x64_S64x16_S5000x16_1_0_0_1_n_n.rhsIdx (ix2 p q)
      ((contrEquiv1 dot_S5000x64_S64x16_S5000x16_1_0_0_1_n_n 64 rfl rfl).symm k) = ix2 k q :=
    funext fun a => Fin.ext (by
      match a with
      | ⟨0, _⟩ => exact (projR_contr _ _).trans hk
      | ⟨1, _⟩ => exact projR_col _ _)
  rw [eL, eR]
  rfl

/-! ## From the ten blocks to the whole array -/

/-- The projected array: entry `(n, j)` is the inner product of row `n` of `X` with column `j` of `W`. -/
def proj (X : S50000x64.Idx → Elt Ideal .f32) (W : S64x16.Idx → Elt Ideal .f32) : S50000x16.Idx → Elt Ideal .f32 :=
  fun i => Sage.dot (fun k : Fin 64 => X (ix2 (⟨(i 0).val, idx2_lt0 i⟩ : Fin 50000) k))
    (fun k : Fin 64 => W (ix2 k (⟨(i 1).val, idx2_lt1 i⟩ : Fin 16)))

theorem proj_apply (X : S50000x64.Idx → Elt Ideal .f32) (W : S64x16.Idx → Elt Ideal .f32) (n : Fin 50000) (j : Fin 16) :
    proj X W (ix2 n j) = Sage.dot (fun k : Fin 64 => X (ix2 n k)) (fun k => W (ix2 k j)) := rfl

/-- Both offsets of a whole-buffer access are zero. -/
theorem zeros2 : (![0, 0] : Fin 2 → Nat) = fun _ => 0 :=
  funext fun a => by match a with | ⟨0, _⟩ => rfl | ⟨1, _⟩ => rfl

/-- Two blocks of 5000 rows and 16 columns agree when they agree at every row and column. -/
theorem block_ext (f g : Vec Ideal S5000x16 .f32) (h : ∀ (p : Fin 5000) (q : Fin 16), f (ix2 p q) = g (ix2 p q)) : f = g :=
  funext fun y => by rw [eq_ix2 y]; exact h _ _

/-- The block indices at the ten points: the row windows are at block row `t`, the weight window stays at its one block. -/
theorem block_index : ∀ t : Fin cfg0.N, t.val < 10
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the output is some point's. -/
theorem point_of_block : ∀ b : Fin 10, ∃ t : Fin cfg0.N, win0_2.index t (0 : Fin 2) = b.val ∧ win0_2.index t (1 : Fin 2) = 0 :=
  (by decide +kernel : ∀ b : Fin 10, ∃ t : Fin grid0.N, win0_2.index t (0 : Fin 2) = b.val ∧ win0_2.index t (1 : Fin 2) = 0)

/-- A block holding rows `5000·t …` of `X`, with all of `W`, has as payload the same rows of the projected array. -/
theorem block_proj (X : S50000x64.Idx → Elt Ideal .f32) (W : S64x16.Idx → Elt Ideal .f32)
    (x : Vec Ideal S5000x64 .f32) (w : Vec Ideal S64x16 .f32) (t : ℕ) (ht : t < 10)
    (hx : ∀ (p : Fin 5000) (k : Fin 64), x (ix2 p k) = X (ix2 (⟨5000 * t + p.val, by omega⟩ : Fin 50000) k))
    (hw : ∀ (k : Fin 64) (q : Fin 16), w (ix2 k q) = W (ix2 k q))
    (p : Fin 5000) (q : Fin 16) (i : S50000x16.Idx) (hi0 : (i 0).val = 5000 * t + p.val) (hi1 : (i 1).val = q.val) :
    k0_pay1 (F := Ideal) x w (ix2 p q) = proj X W i := by
  rw [pay_apply]
  unfold proj
  refine congrArg₂ Sage.dot (funext fun k => ?_) (funext fun k => ?_)
  · rw [hx]; exact congrArg X (congrArg (fun r : Fin 50000 => ix2 r k) (Fin.ext hi0.symm))
  · rw [hw]; exact congrArg W (congrArg (fun r : Fin 16 => ix2 k r) (Fin.ext hi1.symm))

/-- What point `t` writes back is block `t` of the projected array of the arrays the region finds. -/
theorem flushed_proj (c : Dev nD) (t : Fin cfg0.N) :
    (dat0 (F := Ideal) V c).flushed 2 t
      = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero zeros2]
  simp only [View.ld_unit_zero (S := S5000x64) zeros2, View.ld_unit_zero (S := S64x16) zeros2]
  obtain ⟨ht, a0, a1, b0, b1, o0, o1⟩ := block_index t
  refine block_ext _ _ fun p q => ?_
  show k0_pay1 (iblk0 V c 0 t) (iblk0 V c 1 t) (ix2 p q)
    = proj (V c main_arg0) (V c main_arg2) (((cfg0.win 2).blk t).view.emb (ix2 p q))
  refine block_proj _ _ _ _ t.val ht (fun p k => ?_) (fun k q => ?_) p q _ ?_ ?_
  · show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = 5000 * t.val + p.val; omega
    | ⟨1, _⟩ => show win0_0.index t (1 : Fin 2) * 64 + 1 * k.val = k.val; omega
  · show V c main_arg2 (((cfg0.win 1).blk t).view.emb (ix2 k q)) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 16 + 1 * q.val = q.val; omega
  · show win0_2.index t (0 : Fin 2) * 5000 + 1 * p.val = 5000 * t.val + p.val; omega
  · show win0_2.index t (1 : Fin 2) * 16 + 1 * q.val = q.val; omega

/-- An index of the output array is in point `t`'s block iff each coordinate is in the block's range on its axis. -/
theorem mem_block (t : Fin cfg0.N) (i : S50000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v12).slice (win0_2.rect t)).set ↔ _
  rw [View.set_slice_whole, Rect.mem_set_unit]
  exact Iff.rfl

/-- Row `r` of the output is in the block of the point with block row `r / 5000`. -/
theorem rows_covered (i : S50000x16.Idx) :
    ∃ t : Fin cfg0.N, (cfg0.win 2).flush t = true ∧ i ∈ ((cfg0.win 2).blk t).view.set := by
  have h0 : (i 0).val < 50000 := idx2_lt0 i
  have h1 : (i 1).val < 16 := idx2_lt1 i
  obtain ⟨t, e0, e1⟩ := point_of_block ⟨(i 0).val / 5000, by omega⟩
  have e0' : win0_2.index t (0 : Fin 2) = (i 0).val / 5000 := e0
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 16 ≤ (i 1).val ∧ (i 1).val < win0_2.index t (1 : Fin 2) * 16 + 16
    omega

/-- After the ten points the output array is the projected array. -/
theorem final_array (c : Dev nD) :
    (dat0 (F := Ideal) V c).arrAt 2 cfg0.N = proj (V c main_arg0) (V c main_arg2) :=
  (dat0 V c).arrAt_eq_of_cover 2 (proj (V c main_arg0) (V c main_arg2)) (fun t _ => flushed_proj V c t) rows_covered

/-- After the ten grid points of the projection kernel its output array holds, at row `n` and column `j`, the inner
    product of row `n` of the node features with column `j` of the weights. -/
theorem final_apply (c : Dev nD) (n : Fin 50000) (j : Fin 16) :
    (dat0 (F := Ideal) V c).arrAt 2 cfg0.N (ix2 n j)
      = Sage.dot (fun k : Fin 64 => V c main_arg0 (ix2 n k)) (fun k => V c main_arg2 (ix2 k j)) :=
  (congrFun (final_array V c) (ix2 n j)).trans (proj_apply _ _ n j)

end Cert.KernelIdeal.Region0

end
-- ==== Proof.KRegion1.lean ====
import proofs.«411132_j77086073028678_2_alg».proof.Proof.Gen.KernelIdeal.Frame
import proofs.«411132_j77086073028678_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

-- the buffer contents the region is entered from: a parameter
variable (V : (c : Dev nD) → (b : Ref sig .tc) → Buf (Elt Ideal) ((c : Thread nD τ).loc b))

/-! # The first combine kernel's output array

The kernel's ten grid points each take a block of 5000 rows of the aggregated array and of the node features, the whole
root weight array and the one bias row; they add to the aggregated block the product of the feature block with the
weights and the bias row, rectify, and write the 5000 × 16 result back as the same block of rows of the output. So the
output array is, entry by entry, the rectified sum of the aggregated entry, the inner product of a feature row with a
weight column, and the bias of that column. First one block's result is read at one entry; then the ten blocks are put
side by side. -/

/-! ## The root path's product, axis by axis -/

theorem rootL_row (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide),
    dif_pos (show (0 : Fin S5000x64.rank) ∈ dot_S5000x64_S64x16_S5000x16_1_0_0_1_n_n.lhsNonContracting by decide)]
  rfl

theorem rootL_contr (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q

theorem rootR_contr (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q

theorem rootR_col (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide),
    dif_pos (show (1 : Fin S64x16.rank) ∈ dot_S5000x64_S64x16_S5000x16_1_0_0_1_n_n.rhsNonContracting by decide)]
  rfl

/-- The product of a block of feature rows with the root weights, onto a zero accumulator, at row `p` and column `q`:
    the inner product of the block's row `p` with the weights' column `q`. -/
theorem root_apply (x : FVec Ideal S5000x64 .bf16) (w : FVec Ideal S64x16 .bf16) (p : Fin 5000) (q : Fin 16) :
    FloatOps.matmul dot_S5000x64_S64x16_S5000x16_1_0_0_1_n_n none x w (constant (F := Ideal) S5000x16 .f32 0x00000000#32) (ix2 p q)
      = Sage.dot (fun k : Fin 64 => x (ix2 p k)) (fun k => w (ix2 k q)) := by
  unfold Sage.dot
  rw [Ideal.matmul_constant_zero_apply,
    ← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  have eL : dot_S5000x64_S64x16_S5000x16_1_0_0_1_n_n.lhsIdx (ix2 p q)
      ((contrEquiv1 dot_S5000x64_S64x16_S5000x16_1_0_0_1_n_n 64 rfl rfl).symm k) = ix2 p k :=
    funext fun a => Fin.ext (by
      match a with
      | ⟨0, _⟩ => exact rootL_row _ _
      | ⟨1, _⟩ => exact (rootL_contr _ _).trans hk)
  have eR : dot_S5000x64_S64x16_S5000x16_1_0_0_1_n_n.rhsIdx (ix2 p q)
      ((contrEquiv1 dot_S5000x64_S64x16_S5000x16_1_0_0_1_n_n 64 rfl rfl).symm k) = ix2 k q :=
    funext fun a => Fin.ext (by
      match a with
      | ⟨0, _⟩ => exact (rootR_contr _ _).trans hk
      | ⟨1, _⟩ => exact rootR_col _ _)
  rw [eL, eR]

/-- One block's payload at row `p`, column `q`: the aggregated entry, the root path's inner product and the bias,
    added in this order and rectified. -/
theorem pay_apply (a : Vec Ideal S5000x16 .f32) (x : Vec Ideal S5000x64 .f32) (w : Vec Ideal S64x16 .f32)
    (b : Vec Ideal S1x16 .f32) (p : Fin 5000) (q : Fin 16) :
    k1_pay1 (F := Ideal) a x w b (ix2 p q)
      = Sage.combine (a (ix2 p q)) (Sage.dot (fun k : Fin 64 => x (ix2 p k)) (fun k => w (ix2 k q)))
          (b (ix2 (0 : Fin 1) q)) := by
  unfold k1_pay1 Sage.combine Sage.relu
  simp only [matmul, shapeCast_self]
  rw [maximumf_apply, addf_apply, addf_apply, broadcastTo_1b_ab_apply, broadcast_apply, root_apply]
  show max ((a (ix2 p q) + Sage.dot (fun k : Fin 64 => x (ix2 p k)) fun k => w (ix2 k q)) + b (ix2 (0 : Fin 1) q))
      (Ideal.ofBits .f32 0x00000000#32) = _
  rw [Ideal.ofBits_zero_f32]

/-! ## From the ten blocks to the whole array -/

/-- The first layer's array before aggregation is folded in: entry `(n, j)` combines the aggregated entry `A (n, j)`,
    the inner product of row `n` of `X` with column `j` of `W`, and the bias `B (0, j)`. -/
def layer (A : S50000x16.Idx → Elt Ideal .f32) (X : S50000x64.Idx → Elt Ideal .f32) (W : S64x16.Idx → Elt Ideal .f32)
    (B : S1x16.Idx → Elt Ideal .f32) : S50000x16.Idx → Elt Ideal .f32 :=
  fun i => Sage.combine (A i)
    (Sage.dot (fun k : Fin 64 => X (ix2 (⟨(i 0).val, idx2_lt0 i⟩ : Fin 50000) k))
      (fun k : Fin 64 => W (ix2 k (⟨(i 1).val, idx2_lt1 i⟩ : Fin 16))))
    (B (ix2 (0 : Fin 1) (⟨(i 1).val, idx2_lt1 i⟩ : Fin 16)))

theorem layer_apply (A : S50000x16.Idx → Elt Ideal .f32) (X : S50000x64.Idx → Elt Ideal .f32)
    (W : S64x16.Idx → Elt Ideal .f32) (B : S1x16.Idx → Elt Ideal .f32) (n : Fin 50000) (j : Fin 16) :
    layer A X W B (ix2 n j)
      = Sage.combine (A (ix2 n j)) (Sage.dot (fun k : Fin 64 => X (ix2 n k)) (fun k => W (ix2 k j)))
          (B (ix2 (0 : Fin 1) j)) := rfl

/-- Both offsets of a whole-buffer access are zero. -/
theorem zeros2 : (![0, 0] : Fin 2 → Nat) = fun _ => 0 :=
  funext fun a => by match a with | ⟨0, _⟩ => rfl | ⟨1, _⟩ => rfl

/-- Two blocks of 5000 rows and 16 columns agree when they agree at every row and column. -/
theorem block_ext (f g : Vec Ideal S5000x16 .f32) (h : ∀ (p : Fin 5000) (q : Fin 16), f (ix2 p q) = g (ix2 p q)) : f = g :=
  funext fun y => by rw [eq_ix2 y]; exact h _ _

/-- The block indices at the ten points: the three row windows are at block row `t`, the weight and bias windows stay
    at their one block. -/
theorem block_index : ∀ t : Fin cfg1.N, t.val < 10
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every block row of the output is some point's. -/
theorem point_of_block : ∀ b : Fin 10, ∃ t : Fin cfg1.N, win1_4.index t (0 : Fin 2) = b.val ∧ win1_4.index t (1 : Fin 2) = 0 :=
  (by decide +kernel : ∀ b : Fin 10, ∃ t : Fin grid1.N, win1_4.index t (0 : Fin 2) = b.val ∧ win1_4.index t (1 : Fin 2) = 0)

/-- Blocks holding rows `5000·t …` of `A` and of `X`, with all of `W` and `B`, have as payload the same rows of the
    layer's array. -/
theorem block_layer (A : S50000x16.Idx → Elt Ideal .f32) (X : S50000x64.Idx → Elt Ideal .f32)
    (W : S64x16.Idx → Elt Ideal .f32) (B : S1x16.Idx → Elt Ideal .f32)
    (a : Vec Ideal S5000x16 .f32) (x : Vec Ideal S5000x64 .f32) (w : Vec Ideal S64x16 .f32) (b : Vec Ideal S1x16 .f32)
    (t : ℕ) (ht : t < 10)
    (ha : ∀ (p : Fin 5000) (q : Fin 16), a (ix2 p q) = A (ix2 (⟨5000 * t + p.val, by omega⟩ : Fin 50000) q))
    (hx : ∀ (p : Fin 5000) (k : Fin 64), x (ix2 p k) = X (ix2 (⟨5000 * t + p.val, by omega⟩ : Fin 50000) k))
    (hw : ∀ (k : Fin 64) (q : Fin 16), w (ix2 k q) = W (ix2 k q))
    (hb : ∀ q : Fin 16, b (ix2 (0 : Fin 1) q) = B (ix2 (0 : Fin 1) q))
    (p : Fin 5000) (q : Fin 16) (i : S50000x16.Idx) (hi0 : (i 0).val = 5000 * t + p.val) (hi1 : (i 1).val = q.val) :
    k1_pay1 (F := Ideal) a x w b (ix2 p q) = layer A X W B i := by
  rw [pay_apply]
  unfold layer
  have eA : a (ix2 p q) = A i := by
    rw [ha]
    refine congrArg A (funext fun d => Fin.ext ?_)
    match d with
    | ⟨0, _⟩ => exact hi0.symm
    | ⟨1, _⟩ => exact hi1.symm
  have eX : (fun k : Fin 64 => x (ix2 p k)) = fun k : Fin 64 => X (ix2 (⟨(i 0).val, idx2_lt0 i⟩ : Fin 50000) k) :=
    funext fun k => by rw [hx]; exact congrArg X (congrArg (fun r : Fin 50000 => ix2 r k) (Fin.ext hi0.symm))
  have eW : (fun k : Fin 64 => w (ix2 k q)) = fun k : Fin 64 => W (ix2 k (⟨(i 1).val, idx2_lt1 i⟩ : Fin 16)) :=
    funext fun k => by rw [hw]; exact congrArg W (congrArg (fun r : Fin 16 => ix2 k r) (Fin.ext hi1.symm))
  have eB : b (ix2 (0 : Fin 1) q) = B (ix2 (0 : Fin 1) (⟨(i 1).val, idx2_lt1 i⟩ : Fin 16)) := by
    rw [hb]; exact congrArg B (congrArg (fun r : Fin 16 => ix2 (0 : Fin 1) r) (Fin.ext hi1.symm))
  rw [eA, eX, eW, eB]

/-- What point `t` writes back is block `t` of the layer's array of the arrays the region finds. -/
theorem flushed_layer (c : Dev nD) (t : Fin cfg1.N) :
    (dat1 (F := Ideal) V c).flushed 4 t
      = ((cfg1.win 4).blk t).view.read (Elt Ideal)
          (layer (V c main_v18) (V c main_arg0) (V c main_arg3) (V c main_v19)) := by
  show (cfg1.win 4).cut (grid1.coords t) ((dat1 V c).after 4 t) = _
  rw [after1_4]
  unfold out1_4
  rw [View.canon_unit_zero zeros2]
  simp only [View.ld_unit_zero (S := S5000x16) zeros2, View.ld_unit_zero (S := S5000x64) zeros2,
    View.ld_unit_zero (S := S64x16) zeros2, View.ld_unit_zero (S := S1x16) zeros2]
  obtain ⟨ht, a0, a1, x0, x1, w0, w1, b0, b1, o0, o1⟩ := block_index t
  refine block_ext _ _ fun p q => ?_
  show k1_pay1 (iblk1 V c 0 t) (iblk1 V c 1 t) (iblk1 V c 2 t) (iblk1 V c 3 t) (ix2 p q)
    = layer (V c main_v18) (V c main_arg0) (V c main_arg3) (V c main_v19) (((cfg1.win 4).blk t).view.emb (ix2 p q))
  refine block_layer _ _ _ _ _ _ _ _ t.val ht (fun p q => ?_) (fun p k => ?_) (fun k q => ?_) (fun q => ?_) p q _ ?_ ?_
  · show V c main_v18 (((cfg1.win 0).blk t).view.emb (ix2 p q)) = _
    refine congrArg (V c main_v18) (funext fun a => Fin.ext ?_)
    match a with
    | ⟨0, _⟩ => show win1_0.index t (0 : Fin 2) * 5000 + 1 * p.val = 5000 * t.val + p.val; omega
    | ⟨1, _⟩ => show win1_0.index t (1 : Fin 2) * 16 + 1 * q.val = q.val; omega
  · show V c main_arg0 (((cfg1.win 1).blk t).view.emb (ix2 p k)) = _
    refine congrArg (V c main_arg0) (funext fun a => Fin.ext ?_)
    match a with
    | ⟨0, _⟩ => show win1_1.index t (0 : Fin 2) * 5000 + 1 * p.val = 5000 * t.val + p.val; omega
    | ⟨1, _⟩ => show win1_1.index t (1 : Fin 2) * 64 + 1 * k.val = k.val; omega
  · show V c main_arg3 (((cfg1.win 2).blk t).view.emb (ix2 k q)) = _
    refine congrArg (V c main_arg3) (funext fun a => Fin.ext ?_)
    match a with
    | ⟨0, _⟩ => show win1_2.index t (0 : Fin 2) * 64 + 1 * k.val = k.val; omega
    | ⟨1, _⟩ => show win1_2.index t (1 : Fin 2) * 16 + 1 * q.val = q.val; omega
  · show V c main_v19 (((cfg1.win 3).blk t).view.emb (ix2 (0 : Fin 1) q)) = _
    refine congrArg (V c main_v19) (funext fun a => Fin.ext ?_)
    match a with
    | ⟨0, _⟩ => show win1_3.index t (0 : Fin 2) * 1 + 1 * 0 = 0; omega
    | ⟨1, _⟩ => show win1_3.index t (1 : Fin 2) * 16 + 1 * q.val = q.val; omega
  · show win1_4.index t (0 : Fin 2) * 5000 + 1 * p.val = 5000 * t.val + p.val; omega
  · show win1_4.index t (1 : Fin 2) * 16 + 1 * q.val = q.val; omega

/-- An index of the output array is in point `t`'s block iff each coordinate is in the block's range on its axis. -/
theorem mem_block (t : Fin cfg1.N) (i : S50000x16.Idx) :
    i ∈ ((cfg1.win 4).blk t).view.set ↔ ∀ a : Fin 2, win1_4.index t a * S5000x16.size a ≤ (i a).val
      ∧ (i a).val < win1_4.index t a * S5000x16.size a + S5000x16.size a := by
  show i ∈ ((View.whole main_v20).slice (win1_4.rect t)).set ↔ _
  rw [View.set_slice_whole, Rect.mem_set_unit]
  exact Iff.rfl

/-- Row `r` of the output is in the block of the point with block row `r / 5000`. -/
theorem rows_covered (i : S50000x16.Idx) :
    ∃ t : Fin cfg1.N, (cfg1.win 4).flush t = true ∧ i ∈ ((cfg1.win 4).blk t).view.set := by
  have h0 : (i 0).val < 50000 := idx2_lt0 i
  have h1 : (i 1).val < 16 := idx2_lt1 i
  obtain ⟨t, e0, e1⟩ := point_of_block ⟨(i 0).val / 5000, by omega⟩
  have e0' : win1_4.index t (0 : Fin 2) = (i 0).val / 5000 := e0
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 16 ≤ (i 1).val ∧ (i 1).val < win1_4.index t (1 : Fin 2) * 16 + 16
    omega

/-- After the ten points the output array is the layer's array. -/
theorem final_array (c : Dev nD) :
    (dat1 (F := Ideal) V c).arrAt 4 cfg1.N = layer (V c main_v18) (V c main_arg0) (V c main_arg3) (V c main_v19) :=
  (dat1 V c).arrAt_eq_of_cover 4 (layer (V c main_v18) (V c main_arg0) (V c main_arg3) (V c main_v19))
    (fun t _ => flushed_layer V c t) rows_covered

/-- After the ten grid points of the first combine kernel its output array holds, at `(n, j)`, the rectified sum of the
    aggregated entry, the root path's inner product and the bias. -/
theorem final_apply (c : Dev nD) (n : Fin 50000) (j : Fin 16) :
    (dat1 (F := Ideal) V c).arrAt 4 cfg1.N (ix2 n j)
      = Sage.combine (V c main_v18 (ix2 n j))
          (Sage.dot (fun k : Fin 64 => V c main_arg0 (ix2 n k)) (fun k => V c main_arg3 (ix2 k j)))
          (V c main_v19 (ix2 (0 : Fin 1) j)) :=
  (congrFun (final_array V c) (ix2 n j)).trans (layer_apply _ _ _ _ n j)

end Cert.KernelIdeal.Region1

end
-- ==== Proof.KRegion2Pay.lean ====
/-
  The arithmetic of the fused second-layer and head kernel at one output element, over the extended reals.

  For a row block of 5000 nodes the kernel forms, from the block's aggregated rows `x0` and own rows `x1` (16 columns
  each) and the weights, the rectified second graph layer (32 columns), two rectified dense layers (64 and 128
  columns) and a last dense layer (2 columns). Each matrix product onto a zero accumulator, read at a row and a
  column, is the inner product of that row with that column; the conversions to the narrower float format are the
  identity on extended reals; a bias row is added to every row; the maximum with zero is the rectifier. Composed,
  the element stored for node `p` and class `q` is `Sage.head` of the node's two rows and the weights (`body_apply`).
-/
import proofs.«411132_j77086073028678_2_alg».proof.Proof.Gen.KernelIdeal.Skeleton
import proofs.«411132_j77086073028678_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region2

open Cert.KernelIdeal Cert.KernelIdeal.Gen Idealize.ShloMosaic Idealize.ShloMosaic.TcCoe Idealize.ShloMosaic.ValueIdx Idealize.SL.Sem
open scoped BigOperators

/-! ## A matrix product onto the zero accumulator is a family of inner products -/

/-- For dimension numbers that contract the left operand's axis 1 with the right operand's axis 0 (the four coordinate
    facts `hl0 … hr1` say so), the product of an `a × k` by a `k × b` matrix onto the zero accumulator, read at row `p`
    and column `j`, is the inner product of row `p` of the left operand with column `j` of the right one. -/
theorem matmul_zero_apply {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (l : FVec Ideal ⟨2, ![a, k]⟩ φ₁) (r : FVec Ideal ⟨2, ![k, b]⟩ φ₂) (p : Fin a) (j : Fin b) :
    matmul D none l r (constant (F := Ideal) ⟨2, ![a, b]⟩ .f32 0x00000000#32) (ix2 p j)
      = Sage.dot (fun κ : Fin k => l (ix2 p κ)) (fun κ => r (ix2 κ j)) := by
  refine (Ideal.matmul_constant_zero_apply D none l r (ix2 p j)).trans ?_
  unfold Sage.dot
  rw [← Equiv.sum_comp (contrEquiv1 D k hr hs).symm]
  refine Finset.sum_congr rfl fun κ _ => ?_
  have hκ := contrEquiv1_symm_val D k hr hs κ
  have el : D.lhsIdx (ix2 p j) ((contrEquiv1 D k hr hs).symm κ) = ix2 p κ := funext fun ax => Fin.ext (by
    match ax with
    | ⟨0, _⟩ => exact hl0 _ _
    | ⟨1, _⟩ => exact (hl1 _ _).trans hκ)
  have er : D.rhsIdx (ix2 p j) ((contrEquiv1 D k hr hs).symm κ) = ix2 κ j := funext fun ax => Fin.ext (by
    match ax with
    | ⟨0, _⟩ => exact (hr0 _ _).trans hκ
    | ⟨1, _⟩ => exact hr1 _ _)
  rw [el, er]

/-! ## The four contractions of the kernel

Each of the kernel's four matrix products contracts axis 1 of its left operand with axis 0 of its right operand; for
each dimension record the operand indices at a result index and a contraction index are read off coordinate by
coordinate. -/

theorem dotA_l0 (i : S5000x32.Idx) (q : dot_S5000x16_S16x32_S5000x32_1_0_0_1_n_n.contr.Idx) :
    (dot_S5000x16_S16x32_S5000x32_1_0_0_1_n_n.lhsIdx i q 0).val = (i 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl
theorem dotA_l1 (i : S5000x32.Idx) (q : dot_S5000x16_S16x32_S5000x32_1_0_0_1_n_n.contr.Idx) :
    (dot_S5000x16_S16x32_S5000x32_1_0_0_1_n_n.lhsIdx i q 1).val = (q ⟨0, by decide⟩).val :=
  dot_S5000x16_S16x32_S5000x32_1_0_0_1_n_n.lhsIdx_val_of_single rfl i q
theorem dotA_r0 (i : S5000x32.Idx) (q : dot_S5000x16_S16x32_S5000x32_1_0_0_1_n_n.contr.Idx) :
    (dot_S5000x16_S16x32_S5000x32_1_0_0_1_n_n.rhsIdx i q 0).val = (q ⟨0, by decide⟩).val :=
  dot_S5000x16_S16x32_S5000x32_1_0_0_1_n_n.rhsIdx_val_of_single rfl i q
theorem dotA_r1 (i : S5000x32.Idx) (q : dot_S5000x16_S16x32_S5000x32_1_0_0_1_n_n.contr.Idx) :
    (dot_S5000x16_S16x32_S5000x32_1_0_0_1_n_n.rhsIdx i q 1).val = (i 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl

theorem matmulA_apply (l : FVec Ideal S5000x16 .bf16) (r : FVec Ideal S16x32 .bf16) (p : Fin 5000) (j : Fin 32) :
    matmul dot_S5000x16_S16x32_S5000x32_1_0_0_1_n_n none l r (constant (F := Ideal) S5000x32 .f32 0x00000000#32) (ix2 p j)
      = Sage.dot (fun κ : Fin 16 => l (ix2 p κ)) (fun κ => r (ix2 κ j)) :=
  matmul_zero_apply dot_S5000x16_S16x32_S5000x32_1_0_0_1_n_n rfl rfl dotA_l0 dotA_l1 dotA_r0 dotA_r1 l r p j

theorem dotB_l0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem dotB_l1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem dotB_r0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem dotB_r1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

theorem matmulB_apply (l : FVec Ideal S5000x32 .bf16) (r : FVec Ideal S32x64 .bf16) (p : Fin 5000) (j : Fin 64) :
    matmul dot_S5000x32_S32x64_S5000x64_1_0_0_1_n_n none l r (constant (F := Ideal) S5000x64 .f32 0x00000000#32) (ix2 p j)
      = Sage.dot (fun κ : Fin 32 => l (ix2 p κ)) (fun κ => r (ix2 κ j)) :=
  matmul_zero_apply dot_S5000x32_S32x64_S5000x64_1_0_0_1_n_n rfl rfl dotB_l0 dotB_l1 dotB_r0 dotB_r1 l r p j

theorem dotC_l0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem dotC_l1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem dotC_r0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem dotC_r1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem matmulC_apply (l : FVec Ideal S5000x64 .bf16) (r : FVec Ideal S64x128 .bf16) (p : Fin 5000) (j : Fin 128) :
    matmul dot_S5000x64_S64x128_S5000x128_1_0_0_1_n_n none l r (constant (F := Ideal) S5000x128 .f32 0x00000000#32) (ix2 p j)
      = Sage.dot (fun κ : Fin 64 => l (ix2 p κ)) (fun κ => r (ix2 κ j)) :=
  matmul_zero_apply dot_S5000x64_S64x128_S5000x128_1_0_0_1_n_n rfl rfl dotC_l0 dotC_l1 dotC_r0 dotC_r1 l r p j

theorem dotD_l0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem dotD_l1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem dotD_r0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem dotD_r1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

theorem matmulD_apply (l : FVec Ideal S5000x128 .bf16) (r : FVec Ideal S128x2 .bf16) (p : Fin 5000) (j : Fin 2) :
    matmul dot_S5000x128_S128x2_S5000x2_1_0_0_1_n_n none l r (constant (F := Ideal) S5000x2 .f32 0x00000000#32) (ix2 p j)
      = Sage.dot (fun κ : Fin 128 => l (ix2 p κ)) (fun κ => r (ix2 κ j)) :=
  matmul_zero_apply dot_S5000x128_S128x2_S5000x2_1_0_0_1_n_n rfl rfl dotD_l0 dotD_l1 dotD_r0 dotD_r1 l r p j

/-! ## The pointwise steps between the products -/

/-- The maximum with the broadcast zero word is the rectifier. -/
theorem relu_apply {a b : ℕ} (v : FVec Ideal ⟨2, ![a, b]⟩ .f32) (p : Fin a) (j : Fin b) :
    maximumf v (broadcast ⟨2, ![a, b]⟩ (Scalar.ofBits (F := Ideal) .f32 0x00000000#32)) (ix2 p j) = Sage.relu (v (ix2 p j)) :=
  congrArg (max (v (ix2 p j))) Ideal.ofBits_zero_f32

/-- A bias row, broadcast over the rows and added, adds the bias of the column. -/
theorem bias_apply {a b : ℕ} (v : FVec Ideal ⟨2, ![a, b]⟩ .f32) (β : FVec Ideal ⟨2, ![1, b]⟩ .f32)
    (hsc : (⟨2, ![1, b]⟩ : Shape).ShapeCasts ⟨2, ![1, b]⟩) (hbc : (⟨2, ![1, b]⟩ : Shape).Broadcasts ⟨2, ![a, b]⟩) (p : Fin a) (j : Fin b) :
    addf v (broadcastTo ⟨2, ![a, b]⟩ (shapeCast ⟨2, ![1, b]⟩ β hsc) hbc) (ix2 p j) = v (ix2 p j) + β (ix2 (0 : Fin 1) j) :=
  congrArg (v (ix2 p j) + ·) ((broadcastTo_1b_ab_apply _ hbc p j).trans (congrFun (shapeCast_self β hsc) _))

/-! ## The layers -/

/-- The second graph layer at node `p` of the block and column `j`: the aggregated row through the neighbour weights plus
    the node's own row through the root weights plus the bias, rectified. -/
theorem layerA_apply (x0 x1 : FVec Ideal S5000x16 .f32) (w2n w2r : FVec Ideal S16x32 .f32) (b2 : FVec Ideal S1x32 .f32)
    (hlt : FTy.bits .bf16 < FTy.bits .f32) (hx : S5000x16.ShapeCasts S5000x16) (hsc : S1x32.ShapeCasts S1x32)
    (hbc : S1x32.Broadcasts S5000x32) (p : Fin 5000) (j : Fin 32) :
    maximumf (addf (addf
        (matmul dot_S5000x16_S16x32_S5000x32_1_0_0_1_n_n none (truncf .bf16 (shapeCast S5000x16 x0 hx) hlt) (truncf .bf16 w2n hlt) (constant (F := Ideal) S5000x32 .f32 0x00000000#32))
        (matmul dot_S5000x16_S16x32_S5000x32_1_0_0_1_n_n none (truncf .bf16 (shapeCast S5000x16 x1 hx) hlt) (truncf .bf16 w2r hlt) (constant (F := Ideal) S5000x32 .f32 0x00000000#32)))
        (broadcastTo S5000x32 (shapeCast S1x32 b2 hsc) hbc))
      (broadcast S5000x32 (Scalar.ofBits (F := Ideal) .f32 0x00000000#32)) (ix2 p j)
      = Sage.relu (Sage.dot (fun κ : Fin 16 => x0 (ix2 p κ)) (fun κ => w2n (ix2 κ j))
          + Sage.dot (fun κ : Fin 16 => x1 (ix2 p κ)) (fun κ => w2r (ix2 κ j)) + b2 (ix2 (0 : Fin 1) j)) := by
  refine (relu_apply _ p j).trans (congrArg Sage.relu ?_)
  refine (bias_apply _ b2 hsc hbc p j).trans (congrArg (· + b2 (ix2 (0 : Fin 1) j)) ?_)
  refine (addf_apply _ _ _).trans (congrArg₂ (· + ·) ?_ ?_)
  · refine (matmulA_apply _ _ p j).trans ?_
    rw [shapeCast_self]
    rfl
  · refine (matmulA_apply _ _ p j).trans ?_
    rw [shapeCast_self]
    rfl

/-- The head's first dense layer at `(p, j)`. -/
theorem denseB_apply (h : FVec Ideal S5000x32 .f32) (w : FVec Ideal S32x64 .f32) (β : FVec Ideal S1x64 .f32)
    (hlt : FTy.bits .bf16 < FTy.bits .f32) (hsc : S1x64.ShapeCasts S1x64) (hbc : S1x64.Broadcasts S5000x64) (p : Fin 5000) (j : Fin 64) :
    maximumf (addf (matmul dot_S5000x32_S32x64_S5000x64_1_0_0_1_n_n none (truncf .bf16 h hlt) (truncf .bf16 w hlt) (constant (F := Ideal) S5000x64 .f32 0x00000000#32))
        (broadcastTo S5000x64 (shapeCast S1x64 β hsc) hbc))
      (broadcast S5000x64 (Scalar.ofBits (F := Ideal) .f32 0x00000000#32)) (ix2 p j)
      = Sage.relu (Sage.dot (fun κ : Fin 32 => h (ix2 p κ)) (fun κ => w (ix2 κ j)) + β (ix2 (0 : Fin 1) j)) :=
  (relu_apply _ p j).trans (congrArg Sage.relu ((bias_apply _ β hsc hbc p j).trans
    (congrArg (· + β (ix2 (0 : Fin 1) j)) (matmulB_apply _ _ p j))))

/-! ## The payloads at an index -/

/-- The first payload — the second graph layer and the head's first two dense layers up to the second product — at
    node `p` of the block and column `j`. -/
theorem pay2_apply (x0 x1 : FVec Ideal S5000x16 .f32) (w2n w2r : FVec Ideal S16x32 .f32) (b2 : FVec Ideal S1x32 .f32)
    (fw1 : FVec Ideal S32x64 .f32) (fb1 : FVec Ideal S1x64 .f32) (fw2 : FVec Ideal S64x128 .f32) (p : Fin 5000) (j : Fin 128) :
    k2_pay2 (F := Ideal) x0 x1 w2n w2r b2 fw1 fb1 fw2 (ix2 p j)
      = Sage.dot (fun k1 : Fin 64 => Sage.relu (Sage.dot (fun k0 : Fin 32 =>
            Sage.relu (Sage.dot (fun κ : Fin 16 => x0 (ix2 p κ)) (fun κ => w2n (ix2 κ k0))
              + Sage.dot (fun κ : Fin 16 => x1 (ix2 p κ)) (fun κ => w2r (ix2 κ k0)) + b2 (ix2 (0 : Fin 1) k0)))
          (fun κ => fw1 (ix2 κ k1)) + fb1 (ix2 (0 : Fin 1) k1)))
        (fun κ => fw2 (ix2 κ j)) := by
  unfold k2_pay2
  refine (matmulC_apply _ _ p j).trans (congrArg₂ Sage.dot (funext fun k1 => ?_) rfl)
  refine (denseB_apply _ fw1 fb1 _ _ _ p k1).trans ?_
  refine congrArg (fun f => Sage.relu (Sage.dot f (fun κ => fw1 (ix2 κ k1)) + fb1 (ix2 (0 : Fin 1) k1))) (funext fun k0 => ?_)
  exact layerA_apply x0 x1 w2n w2r b2 _ _ _ _ p k0

/-- The last payload — the second dense layer's bias and rectifier, the third product and its bias — at node `p` of
    the block and class `q`, from the second product `v` and the bias row `β`. -/
theorem pay1_apply (v : FVec Ideal S5000x128 .f32) (β : FVec Ideal S1x128 .f32) (fw3 : FVec Ideal S128x2 .f32)
    (fb3 : FVec Ideal S1x2 .f32) (p : Fin 5000) (q : Fin 2) :
    k2_pay1 (F := Ideal) v β fw3 fb3 (ix2 p q)
      = Sage.dot (fun k2 : Fin 128 => Sage.relu (v (ix2 p k2) + β (ix2 (0 : Fin 1) k2))) (fun κ => fw3 (ix2 κ q))
          + fb3 (ix2 (0 : Fin 1) q) := by
  unfold k2_pay1
  refine (bias_apply _ fb3 _ _ p q).trans (congrArg (· + fb3 (ix2 (0 : Fin 1) q)) ?_)
  refine (matmulD_apply _ _ p q).trans (congrArg₂ Sage.dot (funext fun k2 => ?_) rfl)
  refine (relu_apply _ p k2).trans (congrArg Sage.relu ?_)
  exact (addf_apply _ _ _).trans (congrArg (v (ix2 p k2) + ·) (broadcastTo_1b_ab_apply β _ p k2))

/-- THE BODY'S RESULT AT AN INDEX: what the kernel stores for node `p` of its row block and class `q` is the common head
    function of the node's two rows and the weights. -/
theorem body_apply (x0 x1 : FVec Ideal S5000x16 .f32) (w2n w2r : FVec Ideal S16x32 .f32) (b2 : FVec Ideal S1x32 .f32)
    (fw1 : FVec Ideal S32x64 .f32) (fb1 : FVec Ideal S1x64 .f32) (fw2 : FVec Ideal S64x128 .f32) (fb2 : FVec Ideal S1x128 .f32)
    (fw3 : FVec Ideal S128x2 .f32) (fb3 : FVec Ideal S1x2 .f32) (p : Fin 5000) (q : Fin 2) :
    k2_pay1 (F := Ideal) (k2_pay2 x0 x1 w2n w2r b2 fw1 fb1 fw2) (k2_pay3 fb2) fw3 fb3 (ix2 p q)
      = Sage.head (fun κ : Fin 16 => x0 (ix2 p κ)) (fun κ : Fin 16 => x1 (ix2 p κ))
          (fun κ j => w2n (ix2 κ j)) (fun κ j => w2r (ix2 κ j)) (fun j => b2 (ix2 (0 : Fin 1) j))
          (fun κ j => fw1 (ix2 κ j)) (fun j => fb1 (ix2 (0 : Fin 1) j))
          (fun κ j => fw2 (ix2 κ j)) (fun j => fb2 (ix2 (0 : Fin 1) j))
          (fun κ j => fw3 (ix2 κ j)) (fun j => fb3 (ix2 (0 : Fin 1) j)) q := by
  refine (pay1_apply _ _ fw3 fb3 p q).trans ?_
  unfold Sage.head
  refine congrArg (· + fb3 (ix2 (0 : Fin 1) q)) (congrArg₂ Sage.dot (funext fun k2 => congrArg Sage.relu ?_) rfl)
  refine congrArg₂ (· + ·) (pay2_apply x0 x1 w2n w2r b2 fw1 fb1 fw2 p k2) ?_
  unfold k2_pay3
  rw [shapeCast_self]

end Cert.KernelIdeal.Region2

end
-- ==== Proof.KRegion2.lean ====
/-
  What the fused second-layer and head kernel leaves in its output array, for any contents the region is entered from.

  The grid has ten points; point `t` works on rows `5000 t … 5000 t + 4999`. Its two row-block inputs are those rows
  of the aggregated array and of the first layer's output; its nine small inputs are whole weight and bias arrays,
  the same at every point. The body stores, for row `p` of the block and class `q`, the head function of the
  node's two rows and the weights (the payload read at an index, `body_apply`); so what point `t` writes
  back is block `t` of ONE array, the head of every node, and since the ten blocks tile the 50000 rows the array ends
  holding the head of every node.
-/
import proofs.«411132_j77086073028678_2_alg».proof.Proof.Gen.KernelIdeal.Frame
import proofs.«411132_j77086073028678_2_alg».proof.Proof.Spec
import proofs.«411132_j77086073028678_2_alg».proof.Proof.KRegion2Pay
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

-- the buffer contents the region is entered from: a parameter
variable (V : (c : Dev nD) → (b : Ref sig .tc) → Buf (Elt Ideal) ((c : Thread nD τ).loc b))

/-- The body's accesses start at the origin of their buffers. -/
theorem zero_offsets : (![0, 0] : Fin 2 → Nat) = fun _ => 0 := funext fun a => by
  match a with
  | ⟨0, _⟩ => rfl
  | ⟨1, _⟩ => rfl

/-! ## Where each window's block sits -/

/-- The printed index maps over the grid: the two row-block inputs and the output move with the point along the rows;
    the nine small inputs stay at block zero. -/
theorem block_indices : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = t.val ∧ win2_11.index t (1 : Fin 2) = 0) :=
  (by decide +kernel : ∀ t : Fin grid2.N, _)

/-- The row of the array that row `p` of point `t`'s block is: the blocks are 5000 rows each, in the points' order. -/
def rowOf (t : Fin cfg2.N) (p : Fin 5000) : Fin 50000 :=
  ⟨5000 * t.val + p.val, by have h : t.val < grid2.N := t.isLt; rw [N_2] at h; have := p.isLt; omega⟩

/-! ## The input blocks, read where the arrays hold them -/

theorem blk0_apply (c : Dev nD) (t : Fin cfg2.N) (p : Fin 5000) (κ : Fin 16) :
    (iblk2 V c 0 t : FVec Ideal S5000x16 .f32) (ix2 p κ) = V c main_v26 (ix2 (rowOf t p) κ) := by
  have e := block_indices t
  unfold iblk2
  rw [View.read_apply]
  show V c main_v26 _ = V c main_v26 _
  refine congrArg (V c main_v26) (funext fun a => Fin.ext ?_)
  match a with
  | ⟨0, _⟩ => show win2_0.index t (0 : Fin 2) * 5000 + 1 * p.val = 5000 * t.val + p.val; omega
  | ⟨1, _⟩ => show win2_0.index t (1 : Fin 2) * 16 + 1 * κ.val = κ.val; omega

theorem blk1_apply (c : Dev nD) (t : Fin cfg2.N) (p : Fin 5000) (κ : Fin 16) :
    (iblk2 V c 1 t : FVec Ideal S5000x16 .f32) (ix2 p κ) = V c main_v20 (ix2 (rowOf t p) κ) := by
  have e := block_indices t
  unfold iblk2
  rw [View.read_apply]
  show V c main_v20 _ = V c main_v20 _
  refine congrArg (V c main_v20) (funext fun a => Fin.ext ?_)
  match a with
  | ⟨0, _⟩ => show win2_1.index t (0 : Fin 2) * 5000 + 1 * p.val = 5000 * t.val + p.val; omega
  | ⟨1, _⟩ => show win2_1.index t (1 : Fin 2) * 16 + 1 * κ.val = κ.val; omega

theorem blk2_apply (c : Dev nD) (t : Fin cfg2.N) (κ : Fin 16) (j : Fin 32) :
    (iblk2 V c 2 t : FVec Ideal S16x32 .f32) (ix2 κ j) = V c main_arg5 (ix2 κ j) := by
  have e := block_indices t
  unfold iblk2
  rw [View.read_apply]
  show V c main_arg5 _ = V c main_arg5 _
  refine congrArg (V c main_arg5) (funext fun a => Fin.ext ?_)
  match a with
  | ⟨0, _⟩ => show win2_2.index t (0 : Fin 2) * 16 + 1 * κ.val = κ.val; omega
  | ⟨1, _⟩ => show win2_2.index t (1 : Fin 2) * 32 + 1 * j.val = j.val; omega

theorem blk3_apply (c : Dev nD) (t : Fin cfg2.N) (κ : Fin 16) (j : Fin 32) :
    (iblk2 V c 3 t : FVec Ideal S16x32 .f32) (ix2 κ j) = V c main_arg6 (ix2 κ j) := by
  have e := block_indices t
  unfold iblk2
  rw [View.read_apply]
  show V c main_arg6 _ = V c main_arg6 _
  refine congrArg (V c main_arg6) (funext fun a => Fin.ext ?_)
  match a with
  | ⟨0, _⟩ => show win2_3.index t (0 : Fin 2) * 16 + 1 * κ.val = κ.val; omega
  | ⟨1, _⟩ => show win2_3.index t (1 : Fin 2) * 32 + 1 * j.val = j.val; omega

theorem blk4_apply (c : Dev nD) (t : Fin cfg2.N) (κ : Fin 1) (j : Fin 32) :
    (iblk2 V c 4 t : FVec Ideal S1x32 .f32) (ix2 κ j) = V c main_v27 (ix2 κ j) := by
  have e := block_indices t
  unfold iblk2
  rw [View.read_apply]
  show V c main_v27 _ = V c main_v27 _
  refine congrArg (V c main_v27) (funext fun a => Fin.ext ?_)
  match a with
  | ⟨0, _⟩ => show win2_4.index t (0 : Fin 2) * 1 + 1 * κ.val = κ.val; omega
  | ⟨1, _⟩ => show win2_4.index t (1 : Fin 2) * 32 + 1 * j.val = j.val; omega

theorem blk5_apply (c : Dev nD) (t : Fin cfg2.N) (κ : Fin 32) (j : Fin 64) :
    (iblk2 V c 5 t : FVec Ideal S32x64 .f32) (ix2 κ j) = V c main_arg8 (ix2 κ j) := by
  have e := block_indices t
  unfold iblk2
  rw [View.read_apply]
  show V c main_arg8 _ = V c main_arg8 _
  refine congrArg (V c main_arg8) (funext fun a => Fin.ext ?_)
  match a with
  | ⟨0, _⟩ => show win2_5.index t (0 : Fin 2) * 32 + 1 * κ.val = κ.val; omega
  | ⟨1, _⟩ => show win2_5.index t (1 : Fin 2) * 64 + 1 * j.val = j.val; omega

theorem blk6_apply (c : Dev nD) (t : Fin cfg2.N) (κ : Fin 1) (j : Fin 64) :
    (iblk2 V c 6 t : FVec Ideal S1x64 .f32) (ix2 κ j) = V c main_v28 (ix2 κ j) := by
  have e := block_indices t
  unfold iblk2
  rw [View.read_apply]
  show V c main_v28 _ = V c main_v28 _
  refine congrArg (V c main_v28) (funext fun a => Fin.ext ?_)
  match a with
  | ⟨0, _⟩ => show win2_6.index t (0 : Fin 2) * 1 + 1 * κ.val = κ.val; omega
  | ⟨1, _⟩ => show win2_6.index t (1 : Fin 2) * 64 + 1 * j.val = j.val; omega

theorem blk7_apply (c : Dev nD) (t : Fin cfg2.N) (κ : Fin 64) (j : Fin 128) :
    (iblk2 V c 7 t : FVec Ideal S64x128 .f32) (ix2 κ j) = V c main_arg10 (ix2 κ j) := by
  have e := block_indices t
  unfold iblk2
  rw [View.read_apply]
  show V c main_arg10 _ = V c main_arg10 _
  refine congrArg (V c main_arg10) (funext fun a => Fin.ext ?_)
  match a with
  | ⟨0, _⟩ => show win2_7.index t (0 : Fin 2) * 64 + 1 * κ.val = κ.val; omega
  | ⟨1, _⟩ => show win2_7.index t (1 : Fin 2) * 128 + 1 * j.val = j.val; omega

theorem blk8_apply (c : Dev nD) (t : Fin cfg2.N) (κ : Fin 1) (j : Fin 128) :
    (iblk2 V c 8 t : FVec Ideal S1x128 .f32) (ix2 κ j) = V c main_v29 (ix2 κ j) := by
  have e := block_indices t
  unfold iblk2
  rw [View.read_apply]
  show V c main_v29 _ = V c main_v29 _
  refine congrArg (V c main_v29) (funext fun a => Fin.ext ?_)
  match a with
  | ⟨0, _⟩ => show win2_8.index t (0 : Fin 2) * 1 + 1 * κ.val = κ.val; omega
  | ⟨1, _⟩ => show win2_8.index t (1 : Fin 2) * 128 + 1 * j.val = j.val; omega

theorem blk9_apply (c : Dev nD) (t : Fin cfg2.N) (κ : Fin 128) (j : Fin 2) :
    (iblk2 V c 9 t : FVec Ideal S128x2 .f32) (ix2 κ j) = V c main_arg12 (ix2 κ j) := by
  have e := block_indices t
  unfold iblk2
  rw [View.read_apply]
  show V c main_arg12 _ = V c main_arg12 _
  refine congrArg (V c main_arg12) (funext fun a => Fin.ext ?_)
  match a with
  | ⟨0, _⟩ => show win2_9.index t (0 : Fin 2) * 128 + 1 * κ.val = κ.val; omega
  | ⟨1, _⟩ => show win2_9.index t (1 : Fin 2) * 2 + 1 * j.val = j.val; omega

theorem blk10_apply (c : Dev nD) (t : Fin cfg2.N) (κ : Fin 1) (j : Fin 2) :
    (iblk2 V c 10 t : FVec Ideal S1x2 .f32) (ix2 κ j) = V c main_v30 (ix2 κ j) := by
  have e := block_indices t
  unfold iblk2
  rw [View.read_apply]
  show V c main_v30 _ = V c main_v30 _
  refine congrArg (V c main_v30) (funext fun a => Fin.ext ?_)
  match a with
  | ⟨0, _⟩ => show win2_10.index t (0 : Fin 2) * 1 + 1 * κ.val = κ.val; omega
  | ⟨1, _⟩ => show win2_10.index t (1 : Fin 2) * 2 + 1 * j.val = j.val; omega

/-! ## What a point writes back -/

/-- The head at node `n` and class `q`, from the arrays as the region finds them. -/
def headAt (c : Dev nD) (n : Fin 50000) (q : Fin 2) : EReal :=
  Sage.head (fun k : Fin 16 => V c main_v26 (ix2 n k)) (fun k : Fin 16 => V c main_v20 (ix2 n k))
    (fun k j => V c main_arg5 (ix2 k j)) (fun k j => V c main_arg6 (ix2 k j)) (fun j => V c main_v27 (ix2 (0 : Fin 1) j))
    (fun k j => V c main_arg8 (ix2 k j)) (fun j => V c main_v28 (ix2 (0 : Fin 1) j))
    (fun k j => V c main_arg10 (ix2 k j)) (fun j => V c main_v29 (ix2 (0 : Fin 1) j))
    (fun k j => V c main_arg12 (ix2 k j)) (fun j => V c main_v30 (ix2 (0 : Fin 1) j)) q

/-- The whole output array: the head of every node. -/
def headArr (c : Dev nD) : FVec Ideal S50000x2 .f32 := fun i => headAt V c (i 0) (i 1)

/-- The body's result at an index, with each operand entry named: whatever the eleven operands are known to hold at
    the entries the head reads, the stored element is the head of those. -/
theorem body_apply_of (x0 x1 : FVec Ideal S5000x16 .f32) (w2n w2r : FVec Ideal S16x32 .f32) (b2 : FVec Ideal S1x32 .f32)
    (fw1 : FVec Ideal S32x64 .f32) (fb1 : FVec Ideal S1x64 .f32) (fw2 : FVec Ideal S64x128 .f32) (fb2 : FVec Ideal S1x128 .f32)
    (fw3 : FVec Ideal S128x2 .f32) (fb3 : FVec Ideal S1x2 .f32) (p : Fin 5000) (q : Fin 2)
    (a0 a1 : Fin 16 → EReal) (W2n W2r : Fin 16 → Fin 32 → EReal) (B2 : Fin 32 → EReal) (FW1 : Fin 32 → Fin 64 → EReal)
    (FB1 : Fin 64 → EReal) (FW2 : Fin 64 → Fin 128 → EReal) (FB2 : Fin 128 → EReal) (FW3 : Fin 128 → Fin 2 → EReal)
    (FB3 : Fin 2 → EReal)
    (h0 : ∀ κ, x0 (ix2 p κ) = a0 κ) (h1 : ∀ κ, x1 (ix2 p κ) = a1 κ)
    (h2 : ∀ κ j, w2n (ix2 κ j) = W2n κ j) (h3 : ∀ κ j, w2r (ix2 κ j) = W2r κ j) (h4 : ∀ j, b2 (ix2 (0 : Fin 1) j) = B2 j)
    (h5 : ∀ κ j, fw1 (ix2 κ j) = FW1 κ j) (h6 : ∀ j, fb1 (ix2 (0 : Fin 1) j) = FB1 j)
    (h7 : ∀ κ j, fw2 (ix2 κ j) = FW2 κ j) (h8 : ∀ j, fb2 (ix2 (0 : Fin 1) j) = FB2 j)
    (h9 : ∀ κ j, fw3 (ix2 κ j) = FW3 κ j) (h10 : ∀ j, fb3 (ix2 (0 : Fin 1) j) = FB3 j) :
    k2_pay1 (F := Ideal) (k2_pay2 x0 x1 w2n w2r b2 fw1 fb1 fw2) (k2_pay3 fb2) fw3 fb3 (ix2 p q)
      = Sage.head a0 a1 W2n W2r B2 FW1 FB1 FW2 FB2 FW3 FB3 q := by
  obtain rfl : (fun κ => x0 (ix2 p κ)) = a0 := funext h0
  obtain rfl : (fun κ => x1 (ix2 p κ)) = a1 := funext h1
  obtain rfl : (fun κ j => w2n (ix2 κ j)) = W2n := funext fun κ => funext (h2 κ)
  obtain rfl : (fun κ j => w2r (ix2 κ j)) = W2r := funext fun κ => funext (h3 κ)
  obtain rfl : (fun j => b2 (ix2 (0 : Fin 1) j)) = B2 := funext h4
  obtain rfl : (fun κ j => fw1 (ix2 κ j)) = FW1 := funext fun κ => funext (h5 κ)
  obtain rfl : (fun j => fb1 (ix2 (0 : Fin 1) j)) = FB1 := funext h6
  obtain rfl : (fun κ j => fw2 (ix2 κ j)) = FW2 := funext fun κ => funext (h7 κ)
  obtain rfl : (fun j => fb2 (ix2 (0 : Fin 1) j)) = FB2 := funext h8
  obtain rfl : (fun κ j => fw3 (ix2 κ j)) = FW3 := funext fun κ => funext (h9 κ)
  obtain rfl : (fun j => fb3 (ix2 (0 : Fin 1) j)) = FB3 := funext h10
  exact body_apply x0 x1 w2n w2r b2 fw1 fb1 fw2 fb2 fw3 fb3 p q

/-- The body's result at point `t`, row `p` of the block and class `q`: the head of node `rowOf t p`. -/
theorem stored_apply (c : Dev nD) (t : Fin cfg2.N) (p : Fin 5000) (q : Fin 2) :
    k2_pay1 (F := Ideal) (k2_pay2 (iblk2 V c 0 t) (iblk2 V c 1 t) (iblk2 V c 2 t) (iblk2 V c 3 t) (iblk2 V c 4 t) (iblk2 V c 5 t)
        (iblk2 V c 6 t) (iblk2 V c 7 t)) (k2_pay3 (iblk2 V c 8 t)) (iblk2 V c 9 t) (iblk2 V c 10 t) (ix2 p q)
      = headAt V c (rowOf t p) q :=
  body_apply_of (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t) p q
    (fun k : Fin 16 => V c main_v26 (ix2 (rowOf t p) k)) (fun k : Fin 16 => V c main_v20 (ix2 (rowOf t p) k))
    (fun k j => V c main_arg5 (ix2 k j)) (fun k j => V c main_arg6 (ix2 k j)) (fun j => V c main_v27 (ix2 (0 : Fin 1) j))
    (fun k j => V c main_arg8 (ix2 k j)) (fun j => V c main_v28 (ix2 (0 : Fin 1) j))
    (fun k j => V c main_arg10 (ix2 k j)) (fun j => V c main_v29 (ix2 (0 : Fin 1) j))
    (fun k j => V c main_arg12 (ix2 k j)) (fun j => V c main_v30 (ix2 (0 : Fin 1) j))
    (blk0_apply V c t p) (blk1_apply V c t p) (blk2_apply V c t) (blk3_apply V c t) (blk4_apply V c t (0 : Fin 1))
    (blk5_apply V c t) (blk6_apply V c t (0 : Fin 1)) (blk7_apply V c t) (blk8_apply V c t (0 : Fin 1))
    (blk9_apply V c t) (blk10_apply V c t (0 : Fin 1))

/-- WHAT POINT `t` WRITES BACK is block `t` of the head array. -/
theorem writeback_eq_headBlock (c : Dev nD) (t : Fin cfg2.N) :
    (dat2 (F := Ideal) V c).flushed 11 t = ((cfg2.win 11).blk t).view.read (Elt Ideal) (headArr V c) := by
  show (cfg2.win 11).cut (grid2.coords t) ((dat2 (F := Ideal) V c).after 11 t) = _
  rw [after2_11]
  unfold out2_11
  rw [View.canon_unit_zero zero_offsets]
  simp only [View.ld_unit_zero (S := S5000x16) zero_offsets, View.ld_unit_zero (S := S16x32) zero_offsets, View.ld_unit_zero (S := S1x32) zero_offsets,
    View.ld_unit_zero (S := S32x64) zero_offsets, View.ld_unit_zero (S := S1x64) zero_offsets, View.ld_unit_zero (S := S64x128) zero_offsets,
    View.ld_unit_zero (S := S1x128) zero_offsets, View.ld_unit_zero (S := S128x2) zero_offsets, View.ld_unit_zero (S := S1x2) zero_offsets]
  funext y
  obtain ⟨p, q, rfl⟩ : ∃ (p : Fin 5000) (q : Fin 2), y = ix2 p q := ⟨y 0, y 1, eq_ix2 y⟩
  refine (stored_apply V c t p q).trans ?_
  have e := block_indices t
  show headAt V c (rowOf t p) q = headAt V c ((((cfg2.win 11).blk t).view.emb (ix2 p q)) 0) ((((cfg2.win 11).blk t).view.emb (ix2 p q)) 1)
  refine congrArg₂ (headAt V c) (Fin.ext ?_) (Fin.ext ?_)
  · show 5000 * t.val + p.val = win2_11.index t (0 : Fin 2) * 5000 + 1 * p.val; omega
  · show q.val = win2_11.index t (1 : Fin 2) * 2 + 1 * q.val; omega

/-! ## The blocks cover the array -/

/-- An index of the array is in point `t`'s block iff each coordinate is in the block's range on its axis. -/
theorem mem_rowBlock (t : Fin cfg2.N) (i : S50000x2.Idx) :
    i ∈ ((cfg2.win 11).blk t).view.set ↔ ∀ a : Fin 2, win2_11.index t a * S5000x2.size a ≤ (i a).val ∧ (i a).val < win2_11.index t a * S5000x2.size a + S5000x2.size a := by
  show i ∈ ((View.whole main_v31).slice (win2_11.rect t)).set ↔ _
  rw [View.set_slice_whole, Rect.mem_set_unit]
  exact Iff.rfl

/-- Row `r` of the array is written back by point `r / 5000`. -/
theorem rows_covered (i : S50000x2.Idx) :
    ∃ t : Fin cfg2.N, (cfg2.win 11).flush t = true ∧ i ∈ ((cfg2.win 11).blk t).view.set := by
  have hi0 : (i 0).val < 50000 := idx2_lt0 i
  have hi1 : (i 1).val < 2 := idx2_lt1 i
  have ht : (i 0).val / 5000 < cfg2.N := by show _ < grid2.N; rw [N_2]; omega
  have e := block_indices ⟨(i 0).val / 5000, ht⟩
  refine ⟨⟨(i 0).val / 5000, ht⟩, flush2_11 _, ?_⟩
  rw [mem_rowBlock]
  intro a
  match a with
  | ⟨0, _⟩ =>
    show win2_11.index ⟨(i 0).val / 5000, ht⟩ (0 : Fin 2) * 5000 ≤ (i 0).val ∧ (i 0).val < win2_11.index ⟨(i 0).val / 5000, ht⟩ (0 : Fin 2) * 5000 + 5000
    rw [e.2.2.2.2.2.2.2.2.2.2.2.1]
    show (i 0).val / 5000 * 5000 ≤ (i 0).val ∧ (i 0).val < (i 0).val / 5000 * 5000 + 5000
    omega
  | ⟨1, _⟩ =>
    show win2_11.index ⟨(i 0).val / 5000, ht⟩ (1 : Fin 2) * 2 ≤ (i 1).val ∧ (i 1).val < win2_11.index ⟨(i 0).val / 5000, ht⟩ (1 : Fin 2) * 2 + 2
    rw [e.2.2.2.2.2.2.2.2.2.2.2.2]
    omega

/-! ## The array after the run -/

/-- The output array after the ten points is the head array. -/
theorem output_eq_headArr (c : Dev nD) : (dat2 (F := Ideal) V c).arrAt 11 cfg2.N = headArr V c :=
  (dat2 (F := Ideal) V c).arrAt_eq_of_cover 11 (headArr V c) (fun t _ => writeback_eq_headBlock V c t) (rows_covered)

/-- After the ten grid points of the fused second-layer and head kernel its output array holds, at node `n` and class
    `q`, the common function `Sage.head` of the node's aggregated row, its own first-layer row, and the weights. -/
theorem final_apply (c : Dev nD) (n : Fin 50000) (q : Fin 2) :
    (dat2 (F := Ideal) V c).arrAt 11 cfg2.N (ix2 n q)
      = Sage.head (fun k : Fin 16 => V c main_v26 (ix2 n k)) (fun k : Fin 16 => V c main_v20 (ix2 n k))
          (fun k j => V c main_arg5 (ix2 k j)) (fun k j => V c main_arg6 (ix2 k j)) (fun j => V c main_v27 (ix2 (0 : Fin 1) j))
          (fun k j => V c main_arg8 (ix2 k j)) (fun j => V c main_v28 (ix2 (0 : Fin 1) j))
          (fun k j => V c main_arg10 (ix2 k j)) (fun j => V c main_v29 (ix2 (0 : Fin 1) j))
          (fun k j => V c main_arg12 (ix2 k j)) (fun j => V c main_v30 (ix2 (0 : Fin 1) j)) q := by
  rw [output_eq_headArr]
  rfl

end Cert.KernelIdeal.Region2

end
-- ==== Proof.KValue.lean ====
/-
  What the kernel's program computes, at the extended reals: its result array at node `n` and class `q` is the common
  head of the second mean aggregation (a product with the reciprocal of the clipped degree) of the first layer's
  output, the first layer projecting the node features before aggregating them — when every source index names a node.
  Read off the three kernels' output arrays and the host operations between them.
-/
import proofs.«411132_j77086073028678_2_alg».proof.Proof.KHost
import proofs.«411132_j77086073028678_2_alg».proof.Proof.KHost2
import proofs.«411132_j77086073028678_2_alg».proof.Proof.KHostRead
import proofs.«411132_j77086073028678_2_alg».proof.Proof.KRegion0
import proofs.«411132_j77086073028678_2_alg».proof.Proof.KRegion1
import proofs.«411132_j77086073028678_2_alg».proof.Proof.KRegion2

set_option maxRecDepth 16384

noncomputable section

namespace Cert.KernelIdeal.Value

open Cert.KernelIdeal Cert.KernelIdeal.Gen Cert.KernelIdeal.HostRead
open Idealize.ShloMosaic Idealize.ShloMosaic.TcCoe Idealize.ShloMosaic.ValueIdx Idealize.SL.Sem

variable (m : (ℓ : Loc nD τ sig) → Buf (Elt Ideal) ℓ) (ρ : Dev nD → PrngReg)

/-- The edge table, the node features and the weights as launched. -/
abbrev edges (c : Dev nD) : IVec S2x800000 32 := m ((c : Thread nD τ).loc main_arg1)

/-- The first layer's output as the mathematics has it. -/
abbrev layer1 (c : Dev nD) : Fin 50000 → Fin 16 → EReal :=
  Sage.layer1K (Sage.dstOf (edges m c)) (Sage.srcRow (edges m c))
    (fun n k => m ((c : Thread nD τ).loc main_arg0) (ix2 n k)) (fun k j => m ((c : Thread nD τ).loc main_arg2) (ix2 k j))
    (fun k j => m ((c : Thread nD τ).loc main_arg3) (ix2 k j)) (fun j => m ((c : Thread nD τ).loc main_arg4) (ix1 j))

/-- The projected features at `(n, j)`. -/
theorem xw1_apply (c : Dev nD) (n : Fin 50000) (j : Fin 16) :
    xw1 m ρ c (ix2 n j)
      = Sage.dot (fun k : Fin 64 => m ((c : Thread nD τ).loc main_arg0) (ix2 n k))
          (fun k => m ((c : Thread nD τ).loc main_arg2) (ix2 k j)) := by
  refine (Region0.final_apply (V3 m ρ) c n j).trans ?_
  show Sage.dot (fun k : Fin 64 => W3 m ρ c (Proc.devRef .tc main_arg0) (ix2 n k))
      (fun k => W3 m ρ c (Proc.devRef .tc main_arg2) (ix2 k j)) = _
  rw [W3_arg0, W3_arg2]

/-- The first layer's output array at `(n, j)`. -/
theorem h1_apply (c : Dev nD) (hr : Sage.InRange (edges m c)) (n : Fin 50000) (j : Fin 16) :
    h1arr m ρ c (ix2 n j) = layer1 m c n j := by
  refine (Region1.final_apply (V6 m ρ) c n j).trans ?_
  show Sage.combine (W6 m ρ c (Proc.devRef .tc main_v18) (ix2 n j))
      (Sage.dot (fun k : Fin 64 => W6 m ρ c (Proc.devRef .tc main_arg0) (ix2 n k))
        (fun k => W6 m ρ c (Proc.devRef .tc main_arg3) (ix2 k j)))
      (W6 m ρ c (Proc.devRef .tc main_v19) (ix2 (0 : Fin 1) j)) = _
  rw [W6_agg, W6_arg0, W6_arg3, W6_bias, meanAgg_edges _ _ hr n j, shapeCast_a_1a_apply]
  unfold layer1 Sage.layer1K Sage.combine
  refine congrArg (fun u : Fin 800000 → EReal => Sage.relu (Sage.segSum (Sage.dstOf (edges m c)) u n
      * Ideal.div 1 (Sage.clipDeg (Sage.dstOf (edges m c)) n)
    + Sage.dot (fun k : Fin 64 => m ((c : Thread nD τ).loc main_arg0) (ix2 n k))
        (fun k => m ((c : Thread nD τ).loc main_arg3) (ix2 k j))
    + m ((c : Thread nD τ).loc main_arg4) (ix1 j))) (funext fun e => ?_)
  exact xw1_apply m ρ c (Sage.srcRow (edges m c) e) j

/-- The kernel's result at node `n` and class `q`. -/
theorem out_apply (c : Dev nD) (hr : Sage.InRange (edges m c)) (n : Fin 50000) (q : Fin 2) :
    W10 m ρ c (Proc.devRef .tc main_v31) (ix2 n q)
      = Sage.head (Sage.agg2K (Sage.dstOf (edges m c)) (Sage.srcRow (edges m c)) (layer1 m c) n) (layer1 m c n)
          (fun k j => m ((c : Thread nD τ).loc main_arg5) (ix2 k j)) (fun k j => m ((c : Thread nD τ).loc main_arg6) (ix2 k j))
          (fun j => m ((c : Thread nD τ).loc main_arg7) (ix1 j))
          (fun k j => m ((c : Thread nD τ).loc main_arg8) (ix2 k j)) (fun j => m ((c : Thread nD τ).loc main_arg9) (ix1 j))
          (fun k j => m ((c : Thread nD τ).loc main_arg10) (ix2 k j)) (fun j => m ((c : Thread nD τ).loc main_arg11) (ix1 j))
          (fun k j => m ((c : Thread nD τ).loc main_arg12) (ix2 k j)) (fun j => m ((c : Thread nD τ).loc main_arg13) (ix1 j)) q := by
  rw [show W10 m ρ c (Proc.devRef .tc main_v31) = (dat2 (V9 m ρ) c).arrAt 11 cfg2.N from W10_arr m ρ c 11]
  refine (Region2.final_apply (V9 m ρ) c n q).trans ?_
  show Sage.head (fun k : Fin 16 => W9 m ρ c (Proc.devRef .tc main_v26) (ix2 n k))
      (fun k : Fin 16 => W9 m ρ c (Proc.devRef .tc main_v20) (ix2 n k))
      (fun k j => W9 m ρ c (Proc.devRef .tc main_arg5) (ix2 k j)) (fun k j => W9 m ρ c (Proc.devRef .tc main_arg6) (ix2 k j))
      (fun j => W9 m ρ c (Proc.devRef .tc main_v27) (ix2 (0 : Fin 1) j))
      (fun k j => W9 m ρ c (Proc.devRef .tc main_arg8) (ix2 k j)) (fun j => W9 m ρ c (Proc.devRef .tc main_v28) (ix2 (0 : Fin 1) j))
      (fun k j => W9 m ρ c (Proc.devRef .tc main_arg10) (ix2 k j)) (fun j => W9 m ρ c (Proc.devRef .tc main_v29) (ix2 (0 : Fin 1) j))
      (fun k j => W9 m ρ c (Proc.devRef .tc main_arg12) (ix2 k j)) (fun j => W9 m ρ c (Proc.devRef .tc main_v30) (ix2 (0 : Fin 1) j)) q = _
  rw [W9_agg, W9_h1, W9_arg5, W9_arg6, W9_arg8, W9_arg10, W9_arg12, W9_bias2, W9_bias3, W9_bias4, W9_bias5]
  have hagg : (fun k : Fin 16 => meanAgg (h1arr m ρ c) (srcW (edges m c)) (dstW (edges m c))
        (invDeg (F := Ideal) (degV (dstW (edges m c)))) (ix2 n k))
      = Sage.agg2K (Sage.dstOf (edges m c)) (Sage.srcRow (edges m c)) (layer1 m c) n := by
    funext k
    rw [meanAgg_edges _ _ hr n k]
    unfold Sage.agg2K
    refine congrArg (fun u : Fin 800000 → EReal => Sage.segSum (Sage.dstOf (edges m c)) u n
      * Ideal.div 1 (Sage.clipDeg (Sage.dstOf (edges m c)) n)) (funext fun e => ?_)
    exact h1_apply m ρ c hr (Sage.srcRow (edges m c) e) k
  have hh : (fun k : Fin 16 => h1arr m ρ c (ix2 n k)) = layer1 m c n := funext fun k => h1_apply m ρ c hr n k
  have hb2 : (fun j : Fin 32 => shapeCast S1x32 (m ((c : Thread nD τ).loc main_arg7)) shapeCasts_S32_S1x32 (ix2 (0 : Fin 1) j))
      = fun j => m ((c : Thread nD τ).loc main_arg7) (ix1 j) := funext fun j => shapeCast_a_1a_apply _ _ 0 j
  have hb3 : (fun j : Fin 64 => shapeCast S1x64 (m ((c : Thread nD τ).loc main_arg9)) shapeCasts_S64_S1x64 (ix2 (0 : Fin 1) j))
      = fun j => m ((c : Thread nD τ).loc main_arg9) (ix1 j) := funext fun j => shapeCast_a_1a_apply _ _ 0 j
  have hb4 : (fun j : Fin 128 => shapeCast S1x128 (m ((c : Thread nD τ).loc main_arg11)) shapeCasts_S128_S1x128 (ix2 (0 : Fin 1) j))
      = fun j => m ((c : Thread nD τ).loc main_arg11) (ix1 j) := funext fun j => shapeCast_a_1a_apply _ _ 0 j
  have hb5 : (fun j : Fin 2 => shapeCast S1x2 (m ((c : Thread nD τ).loc main_arg13)) shapeCasts_S2_S1x2 (ix2 (0 : Fin 1) j))
      = fun j => m ((c : Thread nD τ).loc main_arg13) (ix1 j) := funext fun j => shapeCast_a_1a_apply _ _ 0 j
  rw [hagg, hh, hb2, hb3, hb4, hb5]

end Cert.KernelIdeal.Value

end
-- ==== Proof.RefValue.lean ====
/-
  The reference program's result, read at one node and one class as the mathematics of the specification.

  The reference computes, stage by stage: the two rows of the edge table as words (sources and destinations); the
  source words made absolute (a word counted from the end would be shifted by the node count; a word that names a node
  is left as it is); a gather of the source rows; an accumulating scatter of those rows from zero along the
  destinations, which is a segment sum; the same scatter of ones, which is the degree, clipped below at one; the
  quotient, which is the mean; two inner products, the bias and the rectifier, which is the first layer; the same
  aggregation of the first layer's output; and the second layer's combination followed by three dense layers.

  Each stage is read at an explicit index as a function of the stages before it, bottom up, and the last one is the
  specification's `head` of its `agg2R` and `layer1R`.
-/
import proofs.«411132_j77086073028678_2_alg».proof.Proof.Gen.ReferenceIdeal.Read
import proofs.«411132_j77086073028678_2_alg».proof.Proof.Spec
import proofs.«411132_j77086073028678_2_alg».proof.Proof.LibSegmentScatter
import proofs.«411132_j77086073028678_2_alg».proof.Proof.LibTakeRows
import proofs.«411132_j77086073028678_2_alg».proof.Proof.LibIndexRange
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem

/-! ## The edge table's two rows as words -/

/-- Row 0 of the edge table, flattened: the source word of edge `e`. -/
theorem src_word (x1 : IVec S2x800000 32) (e : Fin 800000) :
    val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

/-- Row 1 of the edge table, flattened: the destination word of edge `e`. -/
theorem dst_word (x1 : IVec S2x800000 32) (e : Fin 800000) :
    val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

/-- A source word that names a node is not counted from the end: the wrapped word is the word. -/
theorem wrapped_word (x1 : IVec S2x800000 32) (hr : Sage.InRange x1) (e : Fin 800000) :
    val_main_v8 (F := Ideal) x1 (ix1 e) = x1 (ix2 (0 : Fin 2) e) := by
  rw [val_main_v8_apply, val_main_v5_apply, val_main_v7_apply, val_main_v4_apply, val_main_c_apply,
    val_main_v6_apply, val_main_c_0_apply, src_word]
  exact IndexRange.select_wrap_eq _ (hr e).1

/-! ## The index columns -/

/-- The wrapped source words as a column: entry `(e, 0)` is the source word of edge `e`. -/
theorem src_col (x1 : IVec S2x800000 32) (hr : Sage.InRange x1) (e : Fin 800000) :
    val_main_v9 (F := Ideal) x1 (ix2 e (0 : Fin 1)) = x1 (ix2 (0 : Fin 2) e) := by
  rw [val_main_v9_apply]
  refine Eq.trans (congrArg (val_main_v8 (F := Ideal) x1) (funext fun a => Fin.ext ?_)) (wrapped_word x1 hr e)
  match a with
  | ⟨0, _⟩ => rfl

/-- The same column, as the second layer recomputes it. -/
theorem src_col' (x1 : IVec S2x800000 32) (hr : Sage.InRange x1) (e : Fin 800000) :
    val_main_v34 (F := Ideal) x1 (ix2 e (0 : Fin 1)) = x1 (ix2 (0 : Fin 2) e) := by
  rw [val_main_v34_apply, val_main_v33_apply, val_main_v30_apply, val_main_v32_apply, val_main_v29_apply,
    val_main_c_4_apply, val_main_v31_apply, val_main_c_5_apply]
  have hi : idx_main_v34 (ix2 e (0 : Fin 1)) = ix1 e := funext fun a => Fin.ext (by
    match a with
    | ⟨0, _⟩ => rfl)
  rw [hi, src_word]
  exact IndexRange.select_wrap_eq _ (hr e).1

/-- The destination words as a column, one copy per scatter: entry `(e, 0)` is the destination word of edge `e`. -/
theorem dst_col12 (x1 : IVec S2x800000 32) (e : Fin 800000) :
    val_main_v12 (F := Ideal) x1 (ix2 e (0 : Fin 1)) = x1 (ix2 (1 : Fin 2) e) := by
  rw [val_main_v12_apply]
  refine Eq.trans (congrArg (val_main_v3 (F := Ideal) x1) (funext fun a => Fin.ext ?_)) (dst_word x1 e)
  match a with
  | ⟨0, _⟩ => rfl

theorem dst_col16 (x1 : IVec S2x800000 32) (e : Fin 800000) :
    val_main_v16 (F := Ideal) x1 (ix2 e (0 : Fin 1)) = x1 (ix2 (1 : Fin 2) e) := by
  rw [val_main_v16_apply]
  refine Eq.trans (congrArg (val_main_v3 (F := Ideal) x1) (funext fun a => Fin.ext ?_)) (dst_word x1 e)
  match a with
  | ⟨0, _⟩ => rfl

theorem dst_col37 (x1 : IVec S2x800000 32) (e : Fin 800000) :
    val_main_v37 (F := Ideal) x1 (ix2 e (0 : Fin 1)) = x1 (ix2 (1 : Fin 2) e) := by
  rw [val_main_v37_apply]
  refine Eq.trans (congrArg (val_main_v3 (F := Ideal) x1) (funext fun a => Fin.ext ?_)) (dst_word x1 e)
  match a with
  | ⟨0, _⟩ => rfl

theorem dst_col41 (x1 : IVec S2x800000 32) (e : Fin 800000) :
    val_main_v41 (F := Ideal) x1 (ix2 e (0 : Fin 1)) = x1 (ix2 (1 : Fin 2) e) := by
  rw [val_main_v41_apply]
  refine Eq.trans (congrArg (val_main_v3 (F := Ideal) x1) (funext fun a => Fin.ext ?_)) (dst_word x1 e)
  match a with
  | ⟨0, _⟩ => rfl

/-! ## A segment sum as an accumulating scatter from zero -/

/-- The clamped row a source word names is the source row of the specification. -/
theorem clamp_src (x1 : IVec S2x800000 32) (w : BitVec 32) (e : Fin 800000) (hw : w = x1 (ix2 (0 : Fin 2) e))
    (h : min w.toInt.toNat (50000 - 1) < 50000) :
    (⟨min w.toInt.toNat (50000 - 1), h⟩ : Fin 50000) = Sage.srcRow x1 e := by
  subst hw
  exact Fin.ext rfl

/-- The first gather: row `e` holds the features of the source row of edge `e`. -/
theorem gathered1 (x0 : FVec Ideal S50000x64 .f32) (x1 : IVec S2x800000 32) (hr : Sage.InRange x1)
    (e : Fin 800000) (k : Fin 64) :
    val_main_v10 (F := Ideal) x0 x1 (ix2 e k) = x0 (ix2 (Sage.srcRow x1 e) k) := by
  unfold val_main_v10
  have hd : gather_S50000x64_S800000x1_S800000x64_1_0_n_n_0_1_164
      = TakeRows.rowDims 50000 64 800000 gather_S50000x64_S800000x1_S800000x64_1_0_n_n_0_1_164.wf := rfl
  have hN : 0 < 50000 := Nat.succ_pos _
  rw [hd]
  refine (TakeRows.rowTake_apply (N := 50000) (D := 64) (n := 800000) hN
    gather_S50000x64_S800000x1_S800000x64_1_0_n_n_0_1_164.wf x0 (val_main_v9 (F := Ideal) x1) e k).trans ?_
  exact congrArg (fun r => x0 (ix2 r k)) (clamp_src x1 _ e (src_col x1 hr e) _)

/-- At the extended reals the host's accumulating scatter is the exact one. -/
theorem scatterAdd_ideal {s si u : Shape} {φ : FTy} {w : Nat} (d : ScatterDims s si u) (x : FVec Ideal s φ)
    (idx : IVec si w) (upd : FVec Ideal u φ) :
    Host.scatterAdd d x idx upd = Ideal.hostScatterAdd d x idx upd := rfl

/-- The first row scatter: entry `(n, k)` is the segment sum at `n` of column `k` of the source rows. -/
theorem summed1 (x0 : FVec Ideal S50000x64 .f32) (x1 : IVec S2x800000 32) (hr : Sage.InRange x1)
    (n : Fin 50000) (k : Fin 64) :
    val_main_v13 (F := Ideal) x0 x1 (ix2 n k)
      = Sage.segSum (Sage.dstOf x1) (fun e => x0 (ix2 (Sage.srcRow x1 e) k)) n := by
  have hd : scatter_S50000x64_S800000x1_S800000x64_1_0_0_1
      = SegmentScatter.rowDims 50000 64 800000 scatter_S50000x64_S800000x1_S800000x64_1_0_0_1.wf := rfl
  rw [val_main_v13, scatterAdd_ideal, hd]
  refine (SegmentScatter.rowScatterAdd_apply (B := 50000) (D := 64) (N := 800000)
    scatter_S50000x64_S800000x1_S800000x64_1_0_0_1.wf (val_main_v11 (F := Ideal)) (val_main_v12 (F := Ideal) x1)
    (val_main_v10 (F := Ideal) x0 x1) n k).trans ?_
  rw [val_main_v11_apply, val_main_cst_apply, Ideal.ofBits_def, Ideal.ofBits_zero_f32, zero_add]
  unfold Sage.segSum
  refine Finset.sum_congr rfl fun e _ => ?_
  rw [dst_col12, gathered1 x0 x1 hr]
  rfl

/-! ## The clipped degree -/

/-- The degree scatter: entry `n` counts the edges whose destination is `n`. -/
theorem degree1 (x1 : IVec S2x800000 32) (n : Fin 50000) :
    val_main_v17 (F := Ideal) x1 (ix1 n) = Sage.segSum (Sage.dstOf x1) (fun _ => 1) n := by
  have hd : scatter_S50000_S800000x1_S800000_n_0_0_1
      = SegmentScatter.elemDims 50000 800000 scatter_S50000_S800000x1_S800000_n_0_0_1.wf := rfl
  rw [val_main_v17, scatterAdd_ideal, hd]
  refine (SegmentScatter.elemScatterAdd_apply (B := 50000) (N := 800000)
    scatter_S50000_S800000x1_S800000_n_0_0_1.wf (val_main_v15 (F := Ideal)) (val_main_v16 (F := Ideal) x1)
    (val_main_v14 (F := Ideal)) n).trans ?_
  rw [val_main_v15_apply, val_main_cst_2_apply, Ideal.ofBits_def, Ideal.ofBits_zero_f32, zero_add]
  unfold Sage.segSum
  refine Finset.sum_congr rfl fun e _ => ?_
  rw [dst_col16, val_main_v14_apply, val_main_cst_1_apply, Ideal.ofBits_def, Ideal.ofBits_one_f32]
  rfl

/-- The degree clipped below at one. -/
theorem clipped1 (x1 : IVec S2x800000 32) (n : Fin 50000) :
    val_main_v18 (F := Ideal) x1 (ix1 n) = Sage.clipDeg (Sage.dstOf x1) n := by
  rw [val_main_v18_apply, Ideal.maximumf_def, val_main_call0_v1_apply, val_main_call0_v0_apply,
    val_main_cst_3_apply, Ideal.ofBits_def, Ideal.ofBits_one_f32, degree1]
  rfl

/-- The clipped degree spread along the 64 feature columns. -/
theorem clipped1_row (x1 : IVec S2x800000 32) (n : Fin 50000) (k : Fin 64) :
    val_main_v20 (F := Ideal) x1 (ix2 n k) = Sage.clipDeg (Sage.dstOf x1) n := by
  rw [val_main_v20_apply, val_main_v19_apply]
  refine Eq.trans (congrArg (val_main_v18 (F := Ideal) x1) (funext fun a => Fin.ext ?_)) (clipped1 x1 n)
  match a with
  | ⟨0, _⟩ => rfl

/-! ## The first layer -/

/-- The mean of the source rows: the segment sum divided by the clipped degree. -/
theorem mean1 (x0 : FVec Ideal S50000x64 .f32) (x1 : IVec S2x800000 32) (hr : Sage.InRange x1)
    (n : Fin 50000) (k : Fin 64) :
    val_main_v21 (F := Ideal) x0 x1 (ix2 n k)
      = Ideal.div (Sage.segSum (Sage.dstOf x1) (fun e => x0 (ix2 (Sage.srcRow x1 e) k)) n)
          (Sage.clipDeg (Sage.dstOf x1) n) := by
  rw [val_main_v21_apply, Ideal.hostDivf_def, summed1 x0 x1 hr, clipped1_row]

/-- The neighbour path: the mean row projected through the neighbour weights. -/
theorem neigh1 (x0 : FVec Ideal S50000x64 .f32) (x1 : IVec S2x800000 32) (x2 : FVec Ideal S64x16 .f32)
    (hr : Sage.InRange x1) (n : Fin 50000) (j : Fin 16) :
    val_main_v22 (F := Ideal) x0 x1 x2 (ix2 n j)
      = Sage.dot (fun k => Ideal.div (Sage.segSum (Sage.dstOf x1) (fun e => x0 (ix2 (Sage.srcRow x1 e) k)) n)
          (Sage.clipDeg (Sage.dstOf x1) n)) (fun k => x2 (ix2 k j)) := by
  rw [val_main_v22_apply]
  unfold Sage.dot
  refine Finset.sum_congr rfl fun k _ => ?_
  have hl : lidx_main_v22 (ix2 n j) k = ix2 n k := funext fun a => Fin.ext (by
    match a with
    | ⟨0, _⟩ => rfl
    | ⟨1, _⟩ => rfl)
  have hrr : ridx_main_v22 (ix2 n j) k = ix2 k j := funext fun a => Fin.ext (by
    match a with
    | ⟨0, _⟩ => rfl
    | ⟨1, _⟩ => rfl)
  rw [hl, hrr, mean1 x0 x1 hr]

/-- The root path: the node's own row projected through the root weights. -/
theorem root1 (x0 : FVec Ideal S50000x64 .f32) (x3 : FVec Ideal S64x16 .f32) (n : Fin 50000) (j : Fin 16) :
    val_main_v23 (F := Ideal) x0 x3 (ix2 n j) = Sage.dot (fun k => x0 (ix2 n k)) (fun k => x3 (ix2 k j)) := by
  rw [val_main_v23_apply]
  unfold Sage.dot
  refine Finset.sum_congr rfl fun k _ => ?_
  have hl : lidx_main_v23 (ix2 n j) k = ix2 n k := funext fun a => Fin.ext (by
    match a with
    | ⟨0, _⟩ => rfl
    | ⟨1, _⟩ => rfl)
  have hrr : ridx_main_v23 (ix2 n j) k = ix2 k j := funext fun a => Fin.ext (by
    match a with
    | ⟨0, _⟩ => rfl
    | ⟨1, _⟩ => rfl)
  rw [hl, hrr]

/-- The first bias spread along the nodes. -/
theorem bias1 (x4 : FVec Ideal S16 .f32) (n : Fin 50000) (j : Fin 16) :
    val_main_v26 (F := Ideal) x4 (ix2 n j) = x4 (ix1 j) := by
  rw [val_main_v26_apply, val_main_v25_apply]
  refine congrArg x4 (funext fun a => Fin.ext ?_)
  match a with
  | ⟨0, _⟩ => rfl

/-- The first layer's output is the specification's first layer, aggregating before projecting. -/
theorem layer1_at (x0 : FVec Ideal S50000x64 .f32) (x1 : IVec S2x800000 32) (x2 x3 : FVec Ideal S64x16 .f32)
    (x4 : FVec Ideal S16 .f32) (hr : Sage.InRange x1) (n : Fin 50000) (j : Fin 16) :
    val_main_v28 (F := Ideal) x0 x1 x2 x3 x4 (ix2 n j)
      = Sage.layer1R (Sage.dstOf x1) (Sage.srcRow x1) (fun n k => x0 (ix2 n k)) (fun k j => x2 (ix2 k j))
          (fun k j => x3 (ix2 k j)) (fun j => x4 (ix1 j)) n j := by
  rw [val_main_v28_apply, Ideal.maximumf_def, val_main_v27_apply, Ideal.addf_def, val_main_v24_apply,
    Ideal.addf_def, neigh1 x0 x1 x2 hr, root1, bias1, val_main_call1_v0_apply, val_main_call1_cst_apply,
    Ideal.ofBits_def, Ideal.ofBits_zero_f32]
  rfl

/-! ## The second aggregation -/

/-- The second gather: row `e` holds the first layer's output at the source row of edge `e`. -/
theorem gathered2 (x0 : FVec Ideal S50000x64 .f32) (x1 : IVec S2x800000 32) (x2 x3 : FVec Ideal S64x16 .f32)
    (x4 : FVec Ideal S16 .f32) (hr : Sage.InRange x1) (e : Fin 800000) (k : Fin 16) :
    val_main_v35 (F := Ideal) x0 x1 x2 x3 x4 (ix2 e k)
      = val_main_v28 (F := Ideal) x0 x1 x2 x3 x4 (ix2 (Sage.srcRow x1 e) k) := by
  unfold val_main_v35
  have hd : gather_S50000x16_S800000x1_S800000x16_1_0_n_n_0_1_116
      = TakeRows.rowDims 50000 16 800000 gather_S50000x16_S800000x1_S800000x16_1_0_n_n_0_1_116.wf := rfl
  have hN : 0 < 50000 := Nat.succ_pos _
  rw [hd]
  refine (TakeRows.rowTake_apply (N := 50000) (D := 16) (n := 800000) hN
    gather_S50000x16_S800000x1_S800000x16_1_0_n_n_0_1_116.wf (val_main_v28 (F := Ideal) x0 x1 x2 x3 x4)
    (val_main_v34 (F := Ideal) x1) e k).trans ?_
  exact congrArg (fun r => val_main_v28 (F := Ideal) x0 x1 x2 x3 x4 (ix2 r k))
    (clamp_src x1 _ e (src_col' x1 hr e) _)

/-- The second row scatter: entry `(n, k)` is the segment sum at `n` of column `k` of the first layer's output at
    the source rows. -/
theorem summed2 (x0 : FVec Ideal S50000x64 .f32) (x1 : IVec S2x800000 32) (x2 x3 : FVec Ideal S64x16 .f32)
    (x4 : FVec Ideal S16 .f32) (hr : Sage.InRange x1) (n : Fin 50000) (k : Fin 16) :
    val_main_v38 (F := Ideal) x0 x1 x2 x3 x4 (ix2 n k)
      = Sage.segSum (Sage.dstOf x1)
          (fun e => val_main_v28 (F := Ideal) x0 x1 x2 x3 x4 (ix2 (Sage.srcRow x1 e) k)) n := by
  have hd : scatter_S50000x16_S800000x1_S800000x16_1_0_0_1
      = SegmentScatter.rowDims 50000 16 800000 scatter_S50000x16_S800000x1_S800000x16_1_0_0_1.wf := rfl
  rw [val_main_v38, scatterAdd_ideal, hd]
  refine (SegmentScatter.rowScatterAdd_apply (B := 50000) (D := 16) (N := 800000)
    scatter_S50000x16_S800000x1_S800000x16_1_0_0_1.wf (val_main_v36 (F := Ideal)) (val_main_v37 (F := Ideal) x1)
    (val_main_v35 (F := Ideal) x0 x1 x2 x3 x4) n k).trans ?_
  rw [val_main_v36_apply, val_main_cst_6_apply, Ideal.ofBits_def, Ideal.ofBits_zero_f32, zero_add]
  unfold Sage.segSum
  refine Finset.sum_congr rfl fun e _ => ?_
  rw [dst_col37, gathered2 x0 x1 x2 x3 x4 hr]
  rfl

/-- The degree scatter, as the second layer recomputes it. -/
theorem degree2 (x1 : IVec S2x800000 32) (n : Fin 50000) :
    val_main_v42 (F := Ideal) x1 (ix1 n) = Sage.segSum (Sage.dstOf x1) (fun _ => 1) n := by
  have hd : scatter_S50000_S800000x1_S800000_n_0_0_1
      = SegmentScatter.elemDims 50000 800000 scatter_S50000_S800000x1_S800000_n_0_0_1.wf := rfl
  rw [val_main_v42, scatterAdd_ideal, hd]
  refine (SegmentScatter.elemScatterAdd_apply (B := 50000) (N := 800000)
    scatter_S50000_S800000x1_S800000_n_0_0_1.wf (val_main_v40 (F := Ideal)) (val_main_v41 (F := Ideal) x1)
    (val_main_v39 (F := Ideal)) n).trans ?_
  rw [val_main_v40_apply, val_main_cst_8_apply, Ideal.ofBits_def, Ideal.ofBits_zero_f32, zero_add]
  unfold Sage.segSum
  refine Finset.sum_congr rfl fun e _ => ?_
  rw [dst_col41, val_main_v39_apply, val_main_cst_7_apply, Ideal.ofBits_def, Ideal.ofBits_one_f32]
  rfl

theorem clipped2 (x1 : IVec S2x800000 32) (n : Fin 50000) :
    val_main_v43 (F := Ideal) x1 (ix1 n) = Sage.clipDeg (Sage.dstOf x1) n := by
  rw [val_main_v43_apply, Ideal.maximumf_def, val_main_call2_v1_apply, val_main_call2_v0_apply,
    val_main_cst_9_apply, Ideal.ofBits_def, Ideal.ofBits_one_f32, degree2]
  rfl

/-- The clipped degree spread along the 16 hidden columns. -/
theorem clipped2_row (x1 : IVec S2x800000 32) (n : Fin 50000) (k : Fin 16) :
    val_main_v45 (F := Ideal) x1 (ix2 n k) = Sage.clipDeg (Sage.dstOf x1) n := by
  rw [val_main_v45_apply, val_main_v44_apply]
  refine Eq.trans (congrArg (val_main_v43 (F := Ideal) x1) (funext fun a => Fin.ext ?_)) (clipped2 x1 n)
  match a with
  | ⟨0, _⟩ => rfl

/-- The second aggregation is the specification's, as a quotient by the clipped degree, of the first layer's output. -/
theorem agg2_at (x0 : FVec Ideal S50000x64 .f32) (x1 : IVec S2x800000 32) (x2 x3 : FVec Ideal S64x16 .f32)
    (x4 : FVec Ideal S16 .f32) (hr : Sage.InRange x1) (n : Fin 50000) (k : Fin 16) :
    val_main_v46 (F := Ideal) x0 x1 x2 x3 x4 (ix2 n k)
      = Sage.agg2R (Sage.dstOf x1) (Sage.srcRow x1)
          (fun n k => val_main_v28 (F := Ideal) x0 x1 x2 x3 x4 (ix2 n k)) n k := by
  rw [val_main_v46_apply, Ideal.hostDivf_def, summed2 x0 x1 x2 x3 x4 hr, clipped2_row]
  rfl

/-! ## The second layer's combination and the three dense layers -/

/-- The second layer's neighbour path: the aggregated row projected through the neighbour weights. -/
theorem neigh2 (x0 : FVec Ideal S50000x64 .f32) (x1 : IVec S2x800000 32) (x2 x3 : FVec Ideal S64x16 .f32)
    (x4 : FVec Ideal S16 .f32) (x5 : FVec Ideal S16x32 .f32) (n : Fin 50000) (j : Fin 32) :
    val_main_v47 (F := Ideal) x0 x1 x2 x3 x4 x5 (ix2 n j)
      = Sage.dot (fun k => val_main_v46 (F := Ideal) x0 x1 x2 x3 x4 (ix2 n k)) (fun k => x5 (ix2 k j)) := by
  rw [val_main_v47_apply]
  unfold Sage.dot
  refine Finset.sum_congr rfl fun k _ => ?_
  have hl : lidx_main_v47 (ix2 n j) k = ix2 n k := funext fun a => Fin.ext (by
    match a with
    | ⟨0, _⟩ => rfl
    | ⟨1, _⟩ => rfl)
  have hrr : ridx_main_v47 (ix2 n j) k = ix2 k j := funext fun a => Fin.ext (by
    match a with
    | ⟨0, _⟩ => rfl
    | ⟨1, _⟩ => rfl)
  rw [hl, hrr]

/-- The second layer's root path: the node's own hidden row projected through the root weights. -/
theorem root2 (x0 : FVec Ideal S50000x64 .f32) (x1 : IVec S2x800000 32) (x2 x3 : FVec Ideal S64x16 .f32)
    (x4 : FVec Ideal S16 .f32) (x6 : FVec Ideal S16x32 .f32) (n : Fin 50000) (j : Fin 32) :
    val_main_v48 (F := Ideal) x0 x1 x2 x3 x4 x6 (ix2 n j)
      = Sage.dot (fun k => val_main_v28 (F := Ideal) x0 x1 x2 x3 x4 (ix2 n k)) (fun k => x6 (ix2 k j)) := by
  rw [val_main_v48_apply]
  unfold Sage.dot
  refine Finset.sum_congr rfl fun k _ => ?_
  have hl : lidx_main_v48 (ix2 n j) k = ix2 n k := funext fun a => Fin.ext (by
    match a with
    | ⟨0, _⟩ => rfl
    | ⟨1, _⟩ => rfl)
  have hrr : ridx_main_v48 (ix2 n j) k = ix2 k j := funext fun a => Fin.ext (by
    match a with
    | ⟨0, _⟩ => rfl
    | ⟨1, _⟩ => rfl)
  rw [hl, hrr]

theorem bias2 (x7 : FVec Ideal S32 .f32) (n : Fin 50000) (j : Fin 32) :
    val_main_v51 (F := Ideal) x7 (ix2 n j) = x7 (ix1 j) := by
  rw [val_main_v51_apply, val_main_v50_apply]
  refine congrArg x7 (funext fun a => Fin.ext ?_)
  match a with
  | ⟨0, _⟩ => rfl

/-- The second layer's output: both paths and the bias, rectified. -/
theorem layer2_at (x0 : FVec Ideal S50000x64 .f32) (x1 : IVec S2x800000 32) (x2 x3 : FVec Ideal S64x16 .f32)
    (x4 : FVec Ideal S16 .f32) (x5 x6 : FVec Ideal S16x32 .f32) (x7 : FVec Ideal S32 .f32) (n : Fin 50000) (j : Fin 32) :
    val_main_v53 (F := Ideal) x0 x1 x2 x3 x4 x5 x6 x7 (ix2 n j)
      = Sage.relu (Sage.dot (fun k => val_main_v46 (F := Ideal) x0 x1 x2 x3 x4 (ix2 n k)) (fun k => x5 (ix2 k j))
          + Sage.dot (fun k => val_main_v28 (F := Ideal) x0 x1 x2 x3 x4 (ix2 n k)) (fun k => x6 (ix2 k j))
          + x7 (ix1 j)) := by
  rw [val_main_v53_apply, Ideal.maximumf_def, val_main_v52_apply, Ideal.addf_def, val_main_v49_apply,
    Ideal.addf_def, neigh2, root2, bias2, val_main_call3_v0_apply, val_main_call3_cst_apply, Ideal.ofBits_def,
    Ideal.ofBits_zero_f32]
  rfl

/-- The first dense layer's product. -/
theorem dense1 (x0 : FVec Ideal S50000x64 .f32) (x1 : IVec S2x800000 32) (x2 x3 : FVec Ideal S64x16 .f32)
    (x4 : FVec Ideal S16 .f32) (x5 x6 : FVec Ideal S16x32 .f32) (x7 : FVec Ideal S32 .f32)
    (x8 : FVec Ideal S32x64 .f32) (n : Fin 50000) (j : Fin 64) :
    val_main_v54 (F := Ideal) x0 x1 x2 x3 x4 x5 x6 x7 x8 (ix2 n j)
      = Sage.dot (fun k => val_main_v53 (F := Ideal) x0 x1 x2 x3 x4 x5 x6 x7 (ix2 n k)) (fun k => x8 (ix2 k j)) := by
  rw [val_main_v54_apply]
  unfold Sage.dot
  refine Finset.sum_congr rfl fun k _ => ?_
  have hl : lidx_main_v54 (ix2 n j) k = ix2 n k := funext fun a => Fin.ext (by
    match a with
    | ⟨0, _⟩ => rfl
    | ⟨1, _⟩ => rfl)
  have hrr : ridx_main_v54 (ix2 n j) k = ix2 k j := funext fun a => Fin.ext (by
    match a with
    | ⟨0, _⟩ => rfl
    | ⟨1, _⟩ => rfl)
  rw [hl, hrr]

theorem bias3 (x9 : FVec Ideal S64 .f32) (n : Fin 50000) (j : Fin 64) :
    val_main_v56 (F := Ideal) x9 (ix2 n j) = x9 (ix1 j) := by
  rw [val_main_v56_apply, val_main_v55_apply]
  refine congrArg x9 (funext fun a => Fin.ext ?_)
  match a with
  | ⟨0, _⟩ => rfl

/-- The first dense layer's output, rectified. -/
theorem dense1_at (x0 : FVec Ideal S50000x64 .f32) (x1 : IVec S2x800000 32) (x2 x3 : FVec Ideal S64x16 .f32)
    (x4 : FVec Ideal S16 .f32) (x5 x6 : FVec Ideal S16x32 .f32) (x7 : FVec Ideal S32 .f32)
    (x8 : FVec Ideal S32x64 .f32) (x9 : FVec Ideal S64 .f32) (n : Fin 50000) (j : Fin 64) :
    val_main_v58 (F := Ideal) x0 x1 x2 x3 x4 x5 x6 x7 x8 x9 (ix2 n j)
      = Sage.relu (Sage.dot (fun k => val_main_v53 (F := Ideal) x0 x1 x2 x3 x4 x5 x6 x7 (ix2 n k))
          (fun k => x8 (ix2 k j)) + x9 (ix1 j)) := by
  rw [val_main_v58_apply, Ideal.maximumf_def, val_main_v57_apply, Ideal.addf_def, dense1, bias3,
    val_main_call4_v0_apply, val_main_call4_cst_apply, Ideal.ofBits_def, Ideal.ofBits_zero_f32]
  rfl

/-- The second dense layer's product. -/
theorem dense2 (x0 : FVec Ideal S50000x64 .f32) (x1 : IVec S2x800000 32) (x2 x3 : FVec Ideal S64x16 .f32)
    (x4 : FVec Ideal S16 .f32) (x5 x6 : FVec Ideal S16x32 .f32) (x7 : FVec Ideal S32 .f32)
    (x8 : FVec Ideal S32x64 .f32) (x9 : FVec Ideal S64 .f32) (x10 : FVec Ideal S64x128 .f32) (n : Fin 50000) (j : Fin 128) :
    val_main_v59 (F := Ideal) x0 x1 x2 x3 x4 x5 x6 x7 x8 x9 x10 (ix2 n j)
      = Sage.dot (fun k => val_main_v58 (F := Ideal) x0 x1 x2 x3 x4 x5 x6 x7 x8 x9 (ix2 n k))
          (fun k => x10 (ix2 k j)) := by
  rw [val_main_v59_apply]
  unfold Sage.dot
  refine Finset.sum_congr rfl fun k _ => ?_
  have hl : lidx_main_v59 (ix2 n j) k = ix2 n k := funext fun a => Fin.ext (by
    match a with
    | ⟨0, _⟩ => rfl
    | ⟨1, _⟩ => rfl)
  have hrr : ridx_main_v59 (ix2 n j) k = ix2 k j := funext fun a => Fin.ext (by
    match a with
    | ⟨0, _⟩ => rfl
    | ⟨1, _⟩ => rfl)
  rw [hl, hrr]

theorem bias4 (x11 : FVec Ideal S128 .f32) (n : Fin 50000) (j : Fin 128) :
    val_main_v61 (F := Ideal) x11 (ix2 n j) = x11 (ix1 j) := by
  rw [val_main_v61_apply, val_main_v60_apply]
  refine congrArg x11 (funext fun a => Fin.ext ?_)
  match a with
  | ⟨0, _⟩ => rfl

/-- The second dense layer's output, rectified. -/
theorem dense2_at (x0 : FVec Ideal S50000x64 .f32) (x1 : IVec S2x800000 32) (x2 x3 : FVec Ideal S64x16 .f32)
    (x4 : FVec Ideal S16 .f32) (x5 x6 : FVec Ideal S16x32 .f32) (x7 : FVec Ideal S32 .f32)
    (x8 : FVec Ideal S32x64 .f32) (x9 : FVec Ideal S64 .f32) (x10 : FVec Ideal S64x128 .f32) (x11 : FVec Ideal S128 .f32) (n : Fin 50000) (j : Fin 128) :
    val_main_v63 (F := Ideal) x0 x1 x2 x3 x4 x5 x6 x7 x8 x9 x10 x11 (ix2 n j)
      = Sage.relu (Sage.dot (fun k => val_main_v58 (F := Ideal) x0 x1 x2 x3 x4 x5 x6 x7 x8 x9 (ix2 n k))
          (fun k => x10 (ix2 k j)) + x11 (ix1 j)) := by
  rw [val_main_v63_apply, Ideal.maximumf_def, val_main_v62_apply, Ideal.addf_def, dense2, bias4,
    val_main_call5_v0_apply, val_main_call5_cst_apply, Ideal.ofBits_def, Ideal.ofBits_zero_f32]
  rfl

/-- The last dense layer's product. -/
theorem dense3 (x0 : FVec Ideal S50000x64 .f32) (x1 : IVec S2x800000 32) (x2 x3 : FVec Ideal S64x16 .f32)
    (x4 : FVec Ideal S16 .f32) (x5 x6 : FVec Ideal S16x32 .f32) (x7 : FVec Ideal S32 .f32)
    (x8 : FVec Ideal S32x64 .f32) (x9 : FVec Ideal S64 .f32) (x10 : FVec Ideal S64x128 .f32) (x11 : FVec Ideal S128 .f32)
    (x12 : FVec Ideal S128x2 .f32) (n : Fin 50000) (j : Fin 2) :
    val_main_v64 (F := Ideal) x0 x1 x2 x3 x4 x5 x6 x7 x8 x9 x10 x11 x12 (ix2 n j)
      = Sage.dot (fun k => val_main_v63 (F := Ideal) x0 x1 x2 x3 x4 x5 x6 x7 x8 x9 x10 x11 (ix2 n k))
          (fun k => x12 (ix2 k j)) := by
  rw [val_main_v64_apply]
  unfold Sage.dot
  refine Finset.sum_congr rfl fun k _ => ?_
  have hl : lidx_main_v64 (ix2 n j) k = ix2 n k := funext fun a => Fin.ext (by
    match a with
    | ⟨0, _⟩ => rfl
    | ⟨1, _⟩ => rfl)
  have hrr : ridx_main_v64 (ix2 n j) k = ix2 k j := funext fun a => Fin.ext (by
    match a with
    | ⟨0, _⟩ => rfl
    | ⟨1, _⟩ => rfl)
  rw [hl, hrr]

theorem bias5 (x13 : FVec Ideal S2 .f32) (n : Fin 50000) (j : Fin 2) :
    val_main_v66 (F := Ideal) x13 (ix2 n j) = x13 (ix1 j) := by
  rw [val_main_v66_apply, val_main_v65_apply]
  refine congrArg x13 (funext fun a => Fin.ext ?_)
  match a with
  | ⟨0, _⟩ => rfl

/-- The result: the last dense layer, not rectified. -/
theorem out_at (x0 : FVec Ideal S50000x64 .f32) (x1 : IVec S2x800000 32) (x2 x3 : FVec Ideal S64x16 .f32)
    (x4 : FVec Ideal S16 .f32) (x5 x6 : FVec Ideal S16x32 .f32) (x7 : FVec Ideal S32 .f32)
    (x8 : FVec Ideal S32x64 .f32) (x9 : FVec Ideal S64 .f32) (x10 : FVec Ideal S64x128 .f32) (x11 : FVec Ideal S128 .f32)
    (x12 : FVec Ideal S128x2 .f32) (x13 : FVec Ideal S2 .f32) (n : Fin 50000) (q : Fin 2) :
    val_main_v67 (F := Ideal) x0 x1 x2 x3 x4 x5 x6 x7 x8 x9 x10 x11 x12 x13 (ix2 n q)
      = Sage.dot (fun k => val_main_v63 (F := Ideal) x0 x1 x2 x3 x4 x5 x6 x7 x8 x9 x10 x11 (ix2 n k))
          (fun k => x12 (ix2 k q)) + x13 (ix1 q) := by
  rw [val_main_v67_apply, Ideal.addf_def, dense3, bias5]

/-! ## The result -/

/-- The reference's result at node `n` and class `q`, when every source index names a node: the common head of the
    second mean aggregation (a quotient by the clipped degree) of the first layer's output, the first layer
    aggregating the raw features before projecting them. -/
theorem result_apply (x0 : FVec Ideal S50000x64 .f32) (x1 : IVec S2x800000 32) (x2 x3 : FVec Ideal S64x16 .f32)
    (x4 : FVec Ideal S16 .f32) (x5 x6 : FVec Ideal S16x32 .f32) (x7 : FVec Ideal S32 .f32) (x8 : FVec Ideal S32x64 .f32)
    (x9 : FVec Ideal S64 .f32) (x10 : FVec Ideal S64x128 .f32) (x11 : FVec Ideal S128 .f32) (x12 : FVec Ideal S128x2 .f32)
    (x13 : FVec Ideal S2 .f32) (hr : Sage.InRange x1) (n : Fin 50000) (q : Fin 2) :
    val_main_v67 (F := Ideal) x0 x1 x2 x3 x4 x5 x6 x7 x8 x9 x10 x11 x12 x13 (ix2 n q)
      = Sage.head
          (Sage.agg2R (Sage.dstOf x1) (Sage.srcRow x1)
            (Sage.layer1R (Sage.dstOf x1) (Sage.srcRow x1) (fun n k => x0 (ix2 n k)) (fun k j => x2 (ix2 k j))
              (fun k j => x3 (ix2 k j)) (fun j => x4 (ix1 j))) n)
          (Sage.layer1R (Sage.dstOf x1) (Sage.srcRow x1) (fun n k => x0 (ix2 n k)) (fun k j => x2 (ix2 k j))
              (fun k j => x3 (ix2 k j)) (fun j => x4 (ix1 j)) n)
          (fun k j => x5 (ix2 k j)) (fun k j => x6 (ix2 k j)) (fun j => x7 (ix1 j))
          (fun k j => x8 (ix2 k j)) (fun j => x9 (ix1 j))
          (fun k j => x10 (ix2 k j)) (fun j => x11 (ix1 j))
          (fun k j => x12 (ix2 k j)) (fun j => x13 (ix1 j)) q := by
  rw [out_at]
  unfold Sage.head
  simp only [dense2_at, dense1_at, layer2_at, agg2_at x0 x1 x2 x3 x4 hr, layer1_at x0 x1 x2 x3 x4 hr]

end Cert.ReferenceIdeal.RefValue

end
-- ==== Proof.PreDecode.lean ====
import proofs.«411132_j77086073028678_2_alg».proof.Proof.Gen.Pre_finite_inputs
import proofs.«411132_j77086073028678_2_alg».proof.Proof.Spec
import proofs.«411132_j77086073028678_2_alg».proof.Proof.LibIndexRange
import Idealize.ShloMosaic.Lib.ValueIdx
import Idealize.ShloMosaic.Lib.ValueLayout
import Idealize.ShloMosaic.Lib.ReduceAll
import Idealize.ShloMosaic.Lib.StableHlo.Predicate
import Idealize.ShloMosaic.Lib.Pipeline.Value

noncomputable section

namespace Cert.PreDecode

open Cert.Pre_finite_inputs Idealize.ShloMosaic Idealize.ShloMosaic.ValueIdx

variable [Cert.Pre_finite_inputs.Facts]

/-- The scalar shape has exactly one index. -/
instance subsingleton_scalarIdx : Subsingleton S_.Idx := ⟨fun a b => funext fun d => d.elim0⟩

/-! ## One number: a magnitude strictly below +∞ belongs to a real number -/

/-- The 32-bit pattern of +∞ denotes the top element of the extended reals. -/
theorem ofBits_inf : Ideal.ofBits .f32 0x7F800000#32 = ⊤ := by simp [Ideal.ofBits, Ideal.ieee]

/-- Over the extended reals the magnitude of x is max x (-x). If it compares strictly below +∞ then x is neither
    infinity (each infinity has magnitude ⊤), so x is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf] at h'
  unfold Ideal.cmp at h'
  rw [StableHlo.Predicate.ofBool_eq_one_iff, decide_eq_true_eq, max_lt_iff] at h'
  induction x using EReal.rec with
  | bot => exact absurd h'.2 (by simp)
  | top => exact absurd h'.1 (by simp)
  | coe r => exact ⟨r, rfl⟩

/-! ## One conjunct over a float array: "every magnitude is below +∞" -/

/-- The conjunction, over all entries of an array of any shape, of "|a| < +∞" came out 1: then each entry met the
    test, so each entry of a is a real number. -/
theorem all_real {s : Shape} {axes : List (Fin s.rank)} (a : FVec Ideal s .f32)
    (hb : S_.BroadcastsInDim s (![] : Fin 0 → Fin s.rank)) (hr : s.ReducesTo axes S_) (h0 : 0 < S_.numel)
    (h : Host.reduce IntOp.andi
        (cmpf .olt (Host.absf a) (broadcastInDim s ![] hb (constant (F := Ideal) S_ .f32 0x7F800000#32)))
        (constantI S_ 1 1#1) hr h0 ix0 = 1#1) (i : s.Idx) : ∃ r : ℝ, a i = (r : EReal) :=
  real_of_abs_lt_inf (a i) (Host.reduce_andi_all _ _ hr h0 ix0 h i)

/-- The bitwise and of two arrays of one-bit words is 1 at an index exactly when both are 1 there. -/
theorem andi_apply_eq_one {s : Shape} (x y : IVec s 1) (i : s.Idx) : andi x y i = 1#1 ↔ x i = 1#1 ∧ y i = 1#1 :=
  IntOp.andi_eq_one

/-! ## The conjunct over the edge table: "0 ≤ source and source < 50000" on row 0 -/

/-- Row 0 of the [2, 800000] edge table, cut out as a [1, 800000] block and flattened to a vector, reads at
    position e the table at (0, e). -/
theorem row0_apply (a1 : IVec S2x800000 32) (hs : S2x800000.Slices ![0, 0] S1x800000)
    (hc : S1x800000.ShapeCasts S800000) (e : Fin 800000) :
    shapeCast S800000 (extractStridedSlice S1x800000 ![0, 0] a1 hs) hc (ix1 e) = a1 (ix2 (0 : Fin 2) e) := by
  rw [shapeCast_1a_a_apply, slice2_axis0_eq]
  rfl

/-- The conjunction, over all edges, of the two signed tests "0 ≤ w" and "w < 50000" on the source word w of the
    edge came out 1: then each source word passed both, so its signed value lies in [0, 50000). -/
theorem all_inRange (a1 : IVec S2x800000 32) (hs : S2x800000.Slices ![0, 0] S1x800000)
    (hc : S1x800000.ShapeCasts S800000) (hb : S_.BroadcastsInDim S800000 (![] : Fin 0 → Fin S800000.rank))
    (hr : S800000.ReducesTo [0] S_) (h0 : 0 < S_.numel)
    (h : Host.reduce IntOp.andi
        (andi
          (cmpi .sge (shapeCast S800000 (extractStridedSlice S1x800000 ![0, 0] a1 hs) hc)
            (broadcastInDim S800000 ![] hb (constantI S_ 32 0#32)))
          (cmpi .slt (shapeCast S800000 (extractStridedSlice S1x800000 ![0, 0] a1 hs) hc)
            (broadcastInDim S800000 ![] hb (constantI S_ 32 50000#32))))
        (constantI S_ 1 1#1) hr h0 ix0 = 1#1) (e : Fin 800000) :
    0 ≤ (a1 (ix2 (0 : Fin 2) e)).toInt ∧ (a1 (ix2 (0 : Fin 2) e)).toInt < 50000 := by
  obtain ⟨hge, hlt⟩ := (andi_apply_eq_one _ _ _).1 (Host.reduce_andi_all _ _ hr h0 ix0 h (ix1 e))
  have hge' : IntOp.cmpi .sge (a1 (ix2 (0 : Fin 2) e)) 0#32 = 1#1 := by
    rw [← row0_apply a1 hs hc e]; exact hge
  have hlt' : IntOp.cmpi .slt (a1 (ix2 (0 : Fin 2) e)) (BitVec.ofNat 32 50000) = 1#1 := by
    rw [← row0_apply a1 hs hc e]; exact hlt
  exact IndexRange.toInt_mem_of_cmpi 50000 (by norm_num) hge' hlt'

/-! ## The whole precondition

The precondition is a left-nested conjunction ((((c₀ ∧ c₂) ∧ c₃) ∧ …) ∧ c₁₃) ∧ cE of fourteen conjuncts: cₖ says
every entry of the k-th float input has magnitude below +∞, and cE is the range test on row 0 of the edge table.
Peeling the conjunction from the outside gives cE at once and, twelve steps further in, c₀ and c₂; the other
eleven are not needed and are dropped on the way. -/

/-- What the precondition says of the three inputs the proof opens: every node feature and every first-layer
    neighbour weight is a real number, and every source index names a node. -/
theorem of_pre (a0 : FVec Ideal S50000x64 .f32) (a1 : IVec S2x800000 32) (a2 a3 : FVec Ideal S64x16 .f32)
    (a4 : FVec Ideal S16 .f32) (a5 a6 : FVec Ideal S16x32 .f32) (a7 : FVec Ideal S32 .f32) (a8 : FVec Ideal S32x64 .f32)
    (a9 : FVec Ideal S64 .f32) (a10 : FVec Ideal S64x128 .f32) (a11 : FVec Ideal S128 .f32) (a12 : FVec Ideal S128x2 .f32)
    (a13 : FVec Ideal S2 .f32)
    (h : Cert.Pre_finite_inputs.fn (F := Ideal) a0 a1 a2 a3 a4 a5 a6 a7 a8 a9 a10 a11 a12 a13 = fun _ => 1#1) :
    (∀ (n : Fin 50000) (k : Fin 64), ∃ r : ℝ, a0 (ix2 n k) = (r : EReal))
      ∧ (∀ (k : Fin 64) (j : Fin 16), ∃ r : ℝ, a2 (ix2 k j) = (r : EReal))
      ∧ Sage.InRange a1 := by
  have h0 := congrFun h ix0
  unfold fn fn_part1 fn_part2 fn_part3 fn_part4 at h0
  dsimp only at h0
  obtain ⟨h63, h73⟩ := (andi_apply_eq_one _ _ _).1 h0
  obtain ⟨h58, -⟩ := (andi_apply_eq_one _ _ _).1 h63
  obtain ⟨h53, -⟩ := (andi_apply_eq_one _ _ _).1 h58
  obtain ⟨h48, -⟩ := (andi_apply_eq_one _ _ _).1 h53
  obtain ⟨h43, -⟩ := (andi_apply_eq_one _ _ _).1 h48
  obtain ⟨h38, -⟩ := (andi_apply_eq_one _ _ _).1 h43
  obtain ⟨h33, -⟩ := (andi_apply_eq_one _ _ _).1 h38
  obtain ⟨h28, -⟩ := (andi_apply_eq_one _ _ _).1 h33
  obtain ⟨h23, -⟩ := (andi_apply_eq_one _ _ _).1 h28
  obtain ⟨h18, -⟩ := (andi_apply_eq_one _ _ _).1 h23
  obtain ⟨h13, -⟩ := (andi_apply_eq_one _ _ _).1 h18
  obtain ⟨h8, -⟩ := (andi_apply_eq_one _ _ _).1 h13
  obtain ⟨h3, h7⟩ := (andi_apply_eq_one _ _ _).1 h8
  refine ⟨fun n k => all_real a0 _ _ _ h3 (ix2 n k), fun k j => all_real a2 _ _ _ h7 (ix2 k j), ?_⟩
  unfold Sage.InRange
  intro e
  exact all_inRange a1 _ _ _ _ _ h73 e

end Cert.PreDecode

end
-- ==== Proof.lean ====
/-
  A two-layer mean-aggregation graph network with a three-layer perceptron head, on 50000 nodes and 800000 edges:
  the kernel's program against the plain reference, over the extended reals.

  The kernel's program projects the node features through the first layer's neighbour weights BEFORE gathering and
  aggregating them (16 columns instead of 64), multiplies the aggregated sums by the reciprocal of the clipped in-degree
  (computed once), and fuses the second layer's combination with the head. The reference gathers and aggregates the raw
  features, divides by the clipped in-degree, and projects afterwards. With real features and real first-layer
  neighbour weights the two first layers agree, because the projection is linear and the clipped degree is a positive
  real; the second aggregation differs only as "times the reciprocal" against "divided by", which agree for a real
  nonzero divisor; everything after it is one common function. The kernel's gather fills a row whose source index is out
  of range, where the reference's clamps the index: the two are compared where every source index names a node, which
  the precondition states.
-/
import proofs.«411132_j77086073028678_2_alg».proof.Defs
import proofs.«411132_j77086073028678_2_alg».proof.Proof.Gen.Kernel
import proofs.«411132_j77086073028678_2_alg».proof.Proof.Gen.Kernel.Frame
import proofs.«411132_j77086073028678_2_alg».proof.Proof.Gen.KernelIdeal
import proofs.«411132_j77086073028678_2_alg».proof.Proof.Gen.KernelIdeal.Frame
import proofs.«411132_j77086073028678_2_alg».proof.Proof.Gen.ReferenceIdeal
import proofs.«411132_j77086073028678_2_alg».proof.Proof.Gen.ReferenceIdeal.Run
import proofs.«411132_j77086073028678_2_alg».proof.Proof.Gen.ReferenceIdeal.Read
import proofs.«411132_j77086073028678_2_alg».proof.Proof.Gen.Pre_finite_inputs
import proofs.«411132_j77086073028678_2_alg».proof.Proof.Spec
import proofs.«411132_j77086073028678_2_alg».proof.Proof.KernelRun
import proofs.«411132_j77086073028678_2_alg».proof.Proof.KValue
import proofs.«411132_j77086073028678_2_alg».proof.Proof.RefValue
import proofs.«411132_j77086073028678_2_alg».proof.Proof.PreDecode
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end, and the reference's result is the kernel's: at every
    node and class both are the common head of the second aggregation of the first layer's output, the two first
    layers equal over real features and weights, the two second aggregations equal for a real nonzero degree. -/
theorem algebraic : Cert.algebraic_KernelIdeal_ReferenceIdeal := by
  intro m ρ m' ρ' hpre hagree
  refine ⟨fun c => Cert.KernelIdeal.Gen.W10 m ρ c (Proc.devRef .tc Cert.KernelIdeal.main_v31),
    (θ_run Cert.KernelIdeal.defs _ _).mono (fun r h c => h c) (Cert.KernelIdeal.Gen.run_out (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨hx, hw, hr⟩ := Cert.PreDecode.of_pre _ _ _ _ _ _ _ _ _ _ _ _ _ _ (hpre c)
  obtain ⟨e0, e1, e2, e3, e4, e5, e6, e7, e8, e9, e10, e11, e12, e13⟩ := hagree c
  funext i
  obtain ⟨n, q, rfl⟩ : ∃ (n : Fin 50000) (q : Fin 2), i = ix2 n q := ⟨i 0, i 1, eq_ix2 i⟩
  show Cert.ReferenceIdeal.Value.res_main_v67 m' c (ix2 n q)
    = Cert.KernelIdeal.Gen.W10 m ρ c (Proc.devRef .tc Cert.KernelIdeal.main_v31) (ix2 n q)
  rw [Cert.ReferenceIdeal.Read.val_main_v67_eq, e0, e1, e2, e3, e4, e5, e6, e7, e8, e9, e10, e11, e12, e13,
    Cert.ReferenceIdeal.RefValue.result_apply _ _ _ _ _ _ _ _ _ _ _ _ _ _ hr n q,
    Cert.KernelIdeal.Value.out_apply m ρ c hr n q, ← Sage.agg2K_eq_agg2R,
    ← Sage.layer1_eq _ _ _ _ _ _ hx hw]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
